-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x3200000 : Shape := ⟨2, ![2, 3200000]⟩
abbrev S3200000 : Shape := ⟨1, ![3200000]⟩
abbrev S1000x64 : Shape := ⟨2, ![1000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S3200000 : S_.BroadcastsInDim S3200000 (![] : Fin 0 → Fin S3200000.rank)
  reducesTo_S3200000_S_d0 : S3200000.ReducesTo [0] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S100000 : S_.BroadcastsInDim S100000 (![] : Fin 0 → Fin S100000.rank)
  reducesTo_S100000_S_d0 : S100000.ReducesTo [0] S_

variable [Facts]

def fn_part3 {F : FTy → Type} [FloatOps F] (main_arg0 : IVec S100000 32) (main_v48 : IVec S_ 1) (main_v50 : IVec S100000 1) : IVec S_ 1 :=
  let main_c_19 : IVec S_ 32 := constantI S_ 32 1000#32
  let main_v51 : IVec S100000 32 := broadcastInDim S100000 ![] bcast_S_S100000 main_c_19
  let main_v52 : IVec S100000 1 := cmpi .slt main_arg0 main_v51
  let main_v53 : IVec S100000 1 := andi main_v50 main_v52
  let main_c_20 : IVec S_ 1 := constantI S_ 1 1#1
  let main_v54 : IVec S_ 1 := (fun x v => Host.reduce IntOp.andi x v reducesTo_S100000_S_d0 h_S_) main_v53 main_c_20
  let main_v55 : IVec S_ 1 := andi main_v48 main_v54
  main_v55

def fn_part2 {F : FTy → Type} [FloatOps F] (main_arg0 : IVec S100000 32) (main_arg10 : FVec F S64 .f32) (main_arg11 : FVec F S64x1 .f32) (main_arg12 : FVec F S1 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg11
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg12
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S100000 32 := broadcastInDim S100000 ![] bcast_S_S100000 main_c_18
  let main_v50 : IVec S100000 1 := cmpi .sge main_arg0 main_v49
  fn_part3 (F := F) main_arg0 main_v48 main_v50

def fn_part1 {F : FTy → Type} [FloatOps F] (main_arg0 : IVec S100000 32) (main_arg7 : FVec F S64x64 .f32) (main_arg8 : FVec F S64 .f32) (main_arg9 : FVec F S64x64 .f32) (main_arg10 : FVec F S64 .f32) (main_arg11 : FVec F S64x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg10 main_arg11 main_arg12 main_v33

def fn {F : FTy → Type} [FloatOps F] (main_arg0 : IVec S100000 32) (main_arg1 : IVec S2x3200000 32) (main_arg2 : FVec F S3200000 .f32) (main_arg3 : IVec S100000 32) (main_arg4 : FVec F S1000x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x1 .f32) (main_arg12 : FVec F S1 .f32) : IVec S_ 1 :=
  let main_v0 : FVec F S3200000 .f32 := Host.absf main_arg2
  let main_cst : FVec F S_ .f32 := constant S_ .f32 0x7F800000#32
  let main_v1 : FVec F S3200000 .f32 := broadcastInDim S3200000 ![] bcast_S_S3200000 main_cst
  let main_v2 : IVec S3200000 1 := cmpf .olt main_v0 main_v1
  let main_c : IVec S_ 1 := constantI S_ 1 1#1
  let main_v3 : IVec S_ 1 := (fun x v => Host.reduce IntOp.andi x v reducesTo_S3200000_S_d0 h_S_) main_v2 main_c
  let main_v4 : FVec F S1000x64 .f32 := Host.absf main_arg4
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg7 main_arg8 main_arg9 main_arg10 main_arg11 main_arg12 main_v13 main_v16
-- ==== Kernel.lean ====
abbrev S100000 : Shape := ⟨1, ![100000]⟩
abbrev S2x3200000 : Shape := ⟨2, ![2, 3200000]⟩
abbrev S3200000 : Shape := ⟨1, ![3200000]⟩
abbrev S1000x64 : Shape := ⟨2, ![1000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S100000x1 : Shape := ⟨2, ![100000, 1]⟩
abbrev S1024x64 : Shape := ⟨2, ![1024, 64]⟩
abbrev S100000x64 : Shape := ⟨2, ![100000, 64]⟩
abbrev S2000x1 : Shape := ⟨2, ![2000, 1]⟩
abbrev S2000x64 : Shape := ⟨2, ![2000, 64]⟩
abbrev S1x1024 : Shape := ⟨2, ![1, 1024]⟩
abbrev S2000x1024 : Shape := ⟨2, ![2000, 1024]⟩
abbrev S3200000x64 : Shape := ⟨2, ![3200000, 64]⟩
abbrev S1x64 : Shape := ⟨2, ![1, 64]⟩
abbrev S5000x64 : Shape := ⟨2, ![5000, 64]⟩
abbrev S5000x1 : Shape := ⟨2, ![5000, 1]⟩
abbrev S128x64 : Shape := ⟨2, ![128, 64]⟩
abbrev S128x1 : Shape := ⟨2, ![128, 1]⟩
abbrev S1x128 : Shape := ⟨2, ![1, 128]⟩
abbrev S5000x128 : Shape := ⟨2, ![5000, 128]⟩
abbrev S1x1 : Shape := ⟨2, ![1, 1]⟩
abbrev S128 : Shape := ⟨1, ![128]⟩

abbrev nBuf : Space → Nat
  | .hbm => 98
  | .vmem => 33
  | .smem => 0
  | _ => 0

abbrev bufTy : (tb : Table) → Fin (tcTables nBuf tb) → BufTy
  | .hbm, ⟨0, _⟩ => ⟨S100000, .i32⟩
  | .hbm, ⟨1, _⟩ => ⟨S2x3200000, .i32⟩
  | .hbm, ⟨2, _⟩ => ⟨S3200000, .f32⟩
  | .hbm, ⟨3, _⟩ => ⟨S100000, .i32⟩
  | .hbm, ⟨4, _⟩ => ⟨S1000x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S1x3200000, .i32⟩
  | .hbm, ⟨14, _⟩ => ⟨S3200000, .i32⟩
  | .hbm, ⟨15, _⟩ => ⟨S1x3200000, .i32⟩
  | .hbm, ⟨16, _⟩ => ⟨S3200000, .i32⟩
  | .hbm, ⟨17, _⟩ => ⟨S_, .f32⟩
  | .hbm, ⟨18, _⟩ => ⟨S100000, .f32⟩
  | .hbm, ⟨19, _⟩ => ⟨S3200000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S3200000, .i32⟩
  | .hbm, ⟨27, _⟩ => ⟨S3200000, .i1⟩
  | .hbm, ⟨28, _⟩ => ⟨S_, .i32⟩
  | .hbm, ⟨29, _⟩ => ⟨S3200000, .i32⟩
  | .hbm, ⟨30, _⟩ => ⟨S3200000, .i32⟩
  | .hbm, ⟨31, _⟩ => ⟨S3200000, .i32⟩
  | .hbm, ⟨32, _⟩ => ⟨S3200000x1, .i32⟩
  | .hbm, ⟨33, _⟩ => ⟨S3200000, .f32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S100000x1, .f32⟩
  | .hbm, ⟨46, _⟩ => ⟨S1000x64, .f32⟩
  | .hbm, ⟨47, _⟩ => ⟨S_, .i32⟩
  | .hbm, ⟨48, _⟩ => ⟨S_, .f32⟩
  | .hbm, ⟨49, _⟩ => ⟨S1024x64, .f32⟩
  | .hbm, ⟨50, _⟩ => ⟨S1024x64, .bf16⟩
  | .hbm, ⟨51, _⟩ => ⟨S100000x1, .i32⟩
  | .hbm, ⟨52, _⟩ => ⟨S100000x64, .f32⟩
  | .hbm, ⟨53, _⟩ => ⟨S_, .i32⟩
  | .hbm, ⟨54, _⟩ => ⟨S3200000, .i32⟩
  | .hbm, ⟨55, _⟩ => ⟨S3200000, .i1⟩
  | .hbm, ⟨56, _⟩ => ⟨S_, .i32⟩
  | .hbm, ⟨57, _⟩ => ⟨S3200000, .i32⟩
  | .hbm, ⟨58, _⟩ => ⟨S3200000, .i32⟩
  | .hbm, ⟨59, _⟩ => ⟨S3200000, .i32⟩
  | .hbm, ⟨60, _⟩ => ⟨S3200000x1, .i32⟩
  | .hbm, ⟨61, _⟩ => ⟨S3200000x64, .f32⟩
  | .hbm, ⟨62, _⟩ => ⟨S3200000x1, .f32⟩
  | .hbm, ⟨63, _⟩ => ⟨S3200000x64, .f32⟩
  | .hbm, ⟨64, _⟩ => ⟨S3200000x64, .f32⟩
  | .hbm, ⟨65, _⟩ => ⟨S_, .f32⟩
  | .hbm, ⟨66, _⟩ => ⟨S100000x64, .f32⟩
  | .hbm, ⟨67, _⟩ => ⟨S3200000x1, .i32⟩
  | .hbm, ⟨68, _⟩ => ⟨S100000x64, .f32⟩
  | .hbm, ⟨69, _⟩ => ⟨S1x64, .f32⟩
  | .hbm, ⟨70, _⟩ => ⟨S64x64, .bf16⟩
  | .hbm, ⟨71, _⟩ => ⟨S100000x64, .f32⟩
  | .hbm, ⟨72, _⟩ => ⟨S_, .i32⟩
  | .hbm, ⟨73, _⟩ => ⟨S3200000, .i32⟩
  | .hbm, ⟨74, _⟩ => ⟨S3200000, .i1⟩
  | .hbm, ⟨75, _⟩ => ⟨S_, .i32⟩
  | .hbm, ⟨76, _⟩ => ⟨S3200000, .i32⟩
  | .hbm, ⟨77, _⟩ => ⟨S3200000, .i32⟩
  | .hbm, ⟨78, _⟩ => ⟨S3200000, .i32⟩
  | .hbm, ⟨79, _⟩ => ⟨S3200000x1, .i32⟩
  | .hbm, ⟨80, _⟩ => ⟨S3200000x64, .f32⟩
  | .hbm, ⟨81, _⟩ => ⟨S3200000x1, .f32⟩
  | .hbm, ⟨82, _⟩ => ⟨S3200000x64, .f32⟩
  | .hbm, ⟨83, _⟩ => ⟨S3200000x64, .f32⟩
  | .hbm, ⟨84, _⟩ => ⟨S_, .f32⟩
  | .hbm, ⟨85, _⟩ => ⟨S100000x64, .f32⟩
  | .hbm, ⟨86, _⟩ => ⟨S3200000x1, .i32⟩
  | .hbm, ⟨87, _⟩ => ⟨S100000x64, .f32⟩
  | .hbm, ⟨88, _⟩ => ⟨S1x64, .f32⟩
  | .hbm, ⟨89, _⟩ => ⟨S100000x1, .i32⟩
  | .hbm, ⟨90, _⟩ => ⟨S128x64, .f32⟩
  | .hbm, ⟨91, _⟩ => ⟨S128x1, .f32⟩
  | .hbm, ⟨92, _⟩ => ⟨S64x64, .bf16⟩
  | .hbm, ⟨93, _⟩ => ⟨S1x64, .f32⟩
  | .hbm, ⟨94, _⟩ => ⟨S1x64, .f32⟩
  | .hbm, ⟨95, _⟩ => ⟨S1x1, .f32⟩
  | .hbm, ⟨96, _⟩ => ⟨S128x1, .f32⟩
  | .hbm, ⟨97, _⟩ => ⟨S128, .f32⟩
  | .local _ .vmem, ⟨0, _⟩ => ⟨S2000x1, .i32⟩
  | .local _ .vmem, ⟨1, _⟩ => ⟨S2000x1, .i32⟩
  | .local _ .vmem, ⟨2, _⟩ => ⟨S1024x64, .bf16⟩
  | .local _ .vmem, ⟨3, _⟩ => ⟨S2000x64, .f32⟩
  | .local _ .vmem, ⟨4, _⟩ => ⟨S2000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .bf16⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x1, .i32⟩
  | .local _ .vmem, ⟨23, _⟩ => ⟨S5000x1, .i32⟩
  | .local _ .vmem, ⟨24, _⟩ => ⟨S128x64, .f32⟩
  | .local _ .vmem, ⟨25, _⟩ => ⟨S128x1, .f32⟩
  | .local _ .vmem, ⟨26, _⟩ => ⟨S128x64, .f32⟩
  | .local _ .vmem, ⟨27, _⟩ => ⟨S128x1, .f32⟩
  | .local _ .vmem, ⟨28, _⟩ => ⟨S64x64, .bf16⟩
  | .local _ .vmem, ⟨29, _⟩ => ⟨S1x64, .f32⟩
  | .local _ .vmem, ⟨30, _⟩ => ⟨S1x64, .f32⟩
  | .local _ .vmem, ⟨31, _⟩ => ⟨S1x1, .f32⟩
  | .local _ .vmem, ⟨32, _⟩ => ⟨S128x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_c_6 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63_0 : Ref sig .tc := ⟨.hbm, 90, rfl⟩
abbrev main_v63_1 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg6_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem6_0 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem6_0 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  shapeCasts_S100000_S100000x1 : S100000.ShapeCasts S100000x1
  pads_S1000x64_S1024x64_0240_000 : S1000x64.Pads (![0, 0] : Fin 2 → Nat) ![24, 0] ![0, 0] S1024x64
  h_S_ : 0 < S_.numel
  bitsLt_bf16_f32 : FTy.bits .bf16 < FTy.bits .f32
  iota_S1x1024_d1_w32 : S1x1024.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x1024 : S2000x1.Broadcasts S2000x1024
  broadcasts_S1x1024_S2000x1024 : S1x1024.Broadcasts S2000x1024
  natLt_1_32 : 1 < 32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2000x64_S2000x64_0_0 : ∀ a, (![0, 0] : Fin 2 → Nat) a + S2000x64.size a ≤ S2000x64.size a
  h_S2000x64 : 0 < S2000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S128x64_S128x64_0_0 : ∀ a, (![0, 0] : Fin 2 → Nat) a + S128x64.size a ≤ S128x64.size a
  h_S128x64 : 0 < S128x64.numel
  inb_S128x1_S128x1_0_0 : ∀ a, (![0, 0] : Fin 2 → Nat) a + S128x1.size a ≤ S128x1.size a
  h_S128x1 : 0 < S128x1.numel
  iota_S1x128_d1_w32 : S1x128.Iotas .tc 32 [1]
  broadcasts_S5000x1_S5000x128 : S5000x1.Broadcasts S5000x128
  broadcasts_S1x128_S5000x128 : S1x128.Broadcasts S5000x128
  shapeCasts_S128x64_S128x64 : S128x64.ShapeCasts S128x64
  shapeCasts_S128x1_S128x1 : S128x1.ShapeCasts S128x1
  shapeCasts_S64x1_S1x64 : S64x1.ShapeCasts S1x64
  shapeCasts_S1_S1x1 : S1.ShapeCasts S1x1
  broadcasts_S128x1_S128x64 : S128x1.Broadcasts S128x64
  broadcasts_S1x64_S128x64 : S1x64.Broadcasts S128x64
  reduces_S128x64_S128 : S128x64.Reduces [1] S128
  shapeCasts_S128_S128x1 : S128.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S128x1 : S1x1.Broadcasts S128x1
  shapeCasts_S128x1_S128 : S128x1.ShapeCasts S128
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S1000x64_S64x64_S1000x64_1_0_0_1_n_n_wf : DotDims.WF S1000x64 S64x64 S1000x64 [1] [0] [0] [1] [] []
  dot_S2000x1024_S1024x64_S2000x64_1_0_0_1_n_n_wf : DotDims.WF S2000x1024 S1024x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  dot_S5000x128_S5000x1_S128x1_0_0_1_1_n_n_wf : DotDims.WF S5000x128 S5000x1 S128x1 [0] [0] [1] [1] [] []
  dot_S128x64_S64x64_S128x64_1_0_0_1_n_n_wf : DotDims.WF S128x64 S64x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .i32 = 32 ∨ (Rect.block (s := S100000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .bf16 = 32 ∨ (Rect.block (s := S1024x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .bf16 = 32 ∨ (Rect.block (s := S64x64) S64x64.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .i32 = 32 ∨ (Rect.block (s := S100000x1) S5000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x64.size a ≤ S128x64.size a
  hwx2_5 : ∀ i : grid2.Coords, EltTy.bits .f32 = 32 ∨ (Rect.block (s := S128x64) S128x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x1.size a ≤ S128x1.size a
  hwx2_6 : ∀ i : grid2.Coords, EltTy.bits .f32 = 32 ∨ (Rect.block (s := S128x1) S128x1.size (cc2_transform_6 i) (hinb2_6 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .bf16 = 32 ∨ (Rect.block (s := S64x64) S64x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x1.size a ≤ S128x1.size a
  hwx3_6 : ∀ i : grid3.Coords, EltTy.bits .f32 = 32 ∨ (Rect.block (s := S128x1) S128x1.size (cc3_transform_6 i) (hinb3_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S2000x1024_S1024x64_S2000x64_1_0_0_1_n_n : DotDims S2000x1024 S1024x64 S2000x64 where
  lhsContracting := [1]
  rhsContracting := [0]
  lhsNonContracting := [0]
  rhsNonContracting := [1]
  lhsBatch := []
  rhsBatch := []
  wf := dot_S2000x1024_S1024x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def dot_S5000x128_S5000x1_S128x1_0_0_1_1_n_n : DotDims S5000x128 S5000x1 S128x1 where
  lhsContracting := [0]
  rhsContracting := [0]
  lhsNonContracting := [1]
  rhsNonContracting := [1]
  lhsBatch := []
  rhsBatch := []
  wf := dot_S5000x128_S5000x1_S128x1_0_0_1_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf

abbrev win0_0 : Pipeline.Window sig grid0 :=
  Pipeline.Window.ofSpec (Memref.whole main_v30) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v62) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v63_0) S128x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v63_1) S128x1.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v63_0) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v63_1) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v65) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v67) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v68) S128x1.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000 : Shape := ⟨1, ![100000]⟩
abbrev S2x3200000 : Shape := ⟨2, ![2, 3200000]⟩
abbrev S3200000 : Shape := ⟨1, ![3200000]⟩
abbrev S1000x64 : Shape := ⟨2, ![1000, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x3200000 : Shape := ⟨2, ![1, 3200000]⟩
abbrev S_ : Shape := ⟨0, ![]⟩
abbrev S100000x1 : Shape := ⟨2, ![100000, 1]⟩
abbrev S100000x64 : Shape := ⟨2, ![100000, 64]⟩
abbrev S3200000x1 : Shape := ⟨2, ![3200000, 1]⟩
abbrev S3200000x64 : Shape := ⟨2, ![3200000, 64]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S100000, .i32⟩
  | 1 => ⟨S2x3200000, .i32⟩
  | 2 => ⟨S3200000, .f32⟩
  | 3 => ⟨S100000, .i32⟩
  | 4 => ⟨S1000x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x1, .f32⟩
  | 12 => ⟨S1, .f32⟩
  | 13 => ⟨S1x3200000, .i32⟩
  | 14 => ⟨S3200000, .i32⟩
  | 15 => ⟨S1x3200000, .i32⟩
  | 16 => ⟨S3200000, .i32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x64, .f32⟩
  | 26 => ⟨S100000x64, .f32⟩
  | 27 => ⟨S_, .f32⟩
  | 28 => ⟨S100000, .f32⟩
  | 29 => ⟨S3200000x1, .i32⟩
  | 30 => ⟨S100000, .f32⟩
  | 31 => ⟨S_, .f32⟩
  | 32 => ⟨S100000, .f32⟩
  | 33 => ⟨S100000, .f32⟩
  | 34 => ⟨S100000, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000, .f32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x64, .f32⟩
  | 64 => ⟨S3200000x1, .f32⟩
  | 65 => ⟨S3200000x64, .f32⟩
  | 66 => ⟨S3200000x64, .f32⟩
  | 67 => ⟨S_, .f32⟩
  | 68 => ⟨S100000x64, .f32⟩
  | 69 => ⟨S3200000x1, .i32⟩
  | 70 => ⟨S100000x64, .f32⟩
  | 71 => ⟨S100000, .f32⟩
  | 72 => ⟨S100000x1, .f32⟩
  | 73 => ⟨S100000x64, .f32⟩
  | 74 => ⟨S100000x64, .f32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000, .f32⟩
  | 85 => ⟨S3200000x1, .i32⟩
  | 86 => ⟨S100000, .f32⟩
  | 87 => ⟨S_, .f32⟩
  | 88 => ⟨S100000, .f32⟩
  | 89 => ⟨S100000, .f32⟩
  | 90 => ⟨S100000, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S3200000, .f32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000, .f32⟩
  | 110 => ⟨S3200000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x64, .f32⟩
  | 120 => ⟨S3200000x1, .f32⟩
  | 121 => ⟨S3200000x64, .f32⟩
  | 122 => ⟨S3200000x64, .f32⟩
  | 123 => ⟨S_, .f32⟩
  | 124 => ⟨S100000x64, .f32⟩
  | 125 => ⟨S3200000x1, .i32⟩
  | 126 => ⟨S100000x64, .f32⟩
  | 127 => ⟨S100000, .f32⟩
  | _ => ⟨S100000, .i32⟩

abbrev hbmTy0_1 (i : Nat) : BufTy := match i % 128 with
  | 0 => ⟨S100000x1, .f32⟩
  | 1 => ⟨S100000x64, .f32⟩
  | 2 => ⟨S100000x64, .f32⟩
  | 3 => ⟨S100000x64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S_, .f32⟩
  | 11 => ⟨S128x64, .f32⟩
  | 12 => ⟨S100000x1, .i32⟩
  | 13 => ⟨S128x64, .f32⟩
  | 14 => ⟨S_, .f32⟩
  | 15 => ⟨S100000, .f32⟩
  | 16 => ⟨S_, .f32⟩
  | 17 => ⟨S128, .f32⟩
  | 18 => ⟨S100000x1, .i32⟩
  | 19 => ⟨S128, .f32⟩
  | 20 => ⟨S_, .f32⟩
  | 21 => ⟨S128, .f32⟩
  | 22 => ⟨S128, .f32⟩
  | 23 => ⟨S128x1, .f32⟩
  | 24 => ⟨S128x64, .f32⟩
  | 25 => ⟨S128x64, .f32⟩
  | 26 => ⟨S128x64, .f32⟩
  | 27 => ⟨S1x64, .f32⟩
  | 28 => ⟨S128x64, .f32⟩
  | 29 => ⟨S128x64, .f32⟩
  | 30 => ⟨S_, .f32⟩
  | 31 => ⟨S128x64, .f32⟩
  | 32 => ⟨S128x64, .f32⟩
  | 33 => ⟨S128x1, .f32⟩
  | 34 => ⟨S1x1, .f32⟩
  | 35 => ⟨S128x1, .f32⟩
  | 36 => ⟨S128x1, .f32⟩
  | 37 => ⟨S128, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call0_cst : Ref sig .tc := ⟨.hbm, 79, rfl⟩
abbrev main_call0_v0 : Ref sig .tc := ⟨.hbm, 80, rfl⟩
abbrev main_v55 : Ref sig .tc := ⟨.hbm, 81, rfl⟩
abbrev main_v56 : Ref sig .tc := ⟨.hbm, 82, rfl⟩
abbrev main_cst_9 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_11 : Ref sig .tc := ⟨.hbm, 91, rfl⟩
abbrev main_v63 : Ref sig .tc := ⟨.hbm, 92, rfl⟩
abbrev main_v64 : Ref sig .tc := ⟨.hbm, 93, rfl⟩
abbrev main_c_12 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_c_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_15 : Ref sig .tc := ⟨.hbm, 111, rfl⟩
abbrev main_v79 : Ref sig .tc := ⟨.hbm, 112, rfl⟩
abbrev main_v80 : Ref sig .tc := ⟨.hbm, 113, rfl⟩
abbrev main_c_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_call1_cst : Ref sig .tc := ⟨.hbm, 135, rfl⟩
abbrev main_call1_v0 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_cst_19 : Ref sig .tc := ⟨.hbm, 142, rfl⟩
abbrev main_v104 : Ref sig .tc := ⟨.hbm, 143, rfl⟩
abbrev main_cst_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_21 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_call2_cst : Ref sig .tc := ⟨.hbm, 158, rfl⟩
abbrev main_call2_v0 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S100000_S100000x1_0 : S100000.BroadcastsInDim S100000x1 (![0] : Fin 1 → Fin S100000x1.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S1_S1x1_1 : S1.BroadcastsInDim S1x1 (![1] : Fin 1 → Fin S1x1.rank)
  bcast_S1x1_S128x1_0_1 : S1x1.BroadcastsInDim S128x1 (![0, 1] : Fin 2 → Fin S128x1.rank)
  shapeCasts_S128x1_S128 : S128x1.ShapeCasts S128
  gather_S1000x64_S100000x1_S100000x64_1_0_n_n_0_1_164_wf : GatherDims.WF S1000x64 S100000x1 S100000x64 [1] [0] [] [0] [] 1 ![1, 64]
  dot_S100000x64_S64x64_S100000x64_1_0_0_1_n_n_wf : DotDims.WF S100000x64 S64x64 S100000x64 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1
  dot_S128x64_S64x64_S128x64_1_0_0_1_n_n_wf : DotDims.WF S128x64 S64x64 S128x64 [1] [0] [0] [1] [] []
  dot_S128x64_S64x1_S128x1_1_0_0_1_n_n_wf : DotDims.WF S128x64 S64x1 S128x1 [1] [0] [0] [1] [] []

variable [Facts₀]

def gather_S1000x64_S100000x1_S100000x64_1_0_n_n_0_1_164 : GatherDims S1000x64 S100000x1 S100000x64 where
  offsetDims := [1]
  collapsedSliceDims := [0]
  operandBatchingDims := []
  startIndicesBatchingDims := []
  startIndexMap := [0]
  indexVectorDim := 1
  sliceSizes := ![1, 64]
  wf := gather_S1000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

class Facts : Prop extends Facts₀ where

variable [Facts]
-- ==== Proof.PreLabels.lean ====
/-
  What the precondition says of the node labels. The precondition is a conjunction, evaluated to the one-bit word 1:
  every float input finite, and every node label, read as a signed 32-bit integer, at least 0 and below 1000. Its last
  conjunct is an "and" over all 100000 labels of the two comparisons; a conjunction that is 1 has every part 1.
-/
import proofs.«426199_j76587856822555_1_alg».proof.Pre_finite_inputs
import proofs.«426199_j76587856822555_1_alg».proof.Proof.Gen.Pre_finite_inputs
import Idealize.ShloMosaic.Lib.ReduceAll
import Idealize.ShloMosaic.Lib.ValueIdx

namespace Cert.PreLabels

open Idealize.ShloMosaic Idealize.ShloMosaic.ValueIdx Cert.Pre_finite_inputs

/-- A rank-zero array has one index. -/
instance : Subsingleton S_.Idx := ⟨fun a b => funext fun d => d.elim0⟩

/-- Under the precondition every label lies in [0, 1000). -/
theorem labels_in_range {F : FTy → Type} [FloatOps F]
    (a0 : IVec S100000 32) (a1 : IVec S2x3200000 32) (a2 : FVec F S3200000 .f32) (a3 : IVec S100000 32)
    (a4 : FVec F S1000x64 .f32) (a5 : FVec F S64x64 .f32) (a6 : FVec F S64 .f32) (a7 : FVec F S64x64 .f32)
    (a8 : FVec F S64 .f32) (a9 : FVec F S64x64 .f32) (a10 : FVec F S64 .f32) (a11 : FVec F S64x1 .f32) (a12 : FVec F S1 .f32)
    (h : fn (F := F) a0 a1 a2 a3 a4 a5 a6 a7 a8 a9 a10 a11 a12 = fun _ => 1#1) (n : Fin 100000) :
    0 ≤ (a0 (ix1 n)).toInt ∧ (a0 (ix1 n)).toInt < 1000 := by
  have h0 := congrFun h ix0
  dsimp only [fn, fn_part1, fn_part2, fn_part3] at h0
  have h54 := (IntOp.andi_eq_one.1 h0).2
  have h53 := Host.reduce_andi_all _ _ _ _ _ h54 (ix1 n)
  obtain ⟨hge, hlt⟩ := IntOp.andi_eq_one.1 h53
  have hge' : (0#32 : BitVec 32).toInt ≤ (a0 (ix1 n)).toInt := IntOp.cmpi_sge.1 hge
  have hlt' : (a0 (ix1 n)).toInt < (1000#32 : BitVec 32).toInt := IntOp.cmpi_slt.1 hlt
  have e0 : (0#32 : BitVec 32).toInt = 0 := by decide
  have e1 : (1000#32 : BitVec 32).toInt = 1000 := by decide
  rw [e0] at hge'
  rw [e1] at hlt'
  exact ⟨hge', hlt'⟩

end Cert.PreLabels
-- ==== Proof.Spec.lean ====
/-
  The four dense stages of the graph network, each as one function of whole arrays, entry by entry.

  * embedRows: row n of the result is the row of a 1024-row table selected by the label of node n, written as the sum
    over all 1024 table rows of an indicator (label = row number) times the table row.
  * gcnTail: the tail of a graph-convolution layer at entry (n, j): the aggregated messages plus the node's own
    features scaled by the squared inverse root degree, plus the bias, clipped below at zero.
  * layerLin: that tail multiplied on the right by a 64 x 64 weight matrix.
  * poolSums, poolCounts: for each of the 128 graphs, the sum over all nodes of the indicator (graph of node n = g)
    times the tail's row, and times one.
  * mlpOut: per graph, the pooled sum divided by the count clipped below at one, an affine map clipped at zero, and a
    weighted sum over the 64 features plus a bias.
-/
import Idealize.ShloMosaic.PureOps.Ideal
import Idealize.ShloMosaic.Lib.ValueIdx

noncomputable section

namespace Cert.Spec

open Idealize.ShloMosaic Idealize.ShloMosaic.ValueIdx

/-- The indicator of equality of two 32-bit words, as an extended real. -/
def hot (a b : BitVec 32) : EReal := if a = b then 1 else 0

/-- Row n of the result: the sum over the 1024 rows k of the table of (label n = k) times row k. -/
def embedRows (lab : IVec ⟨2, ![100000, 1]⟩ 32) (tbl : FVec Ideal ⟨2, ![1024, 64]⟩ .bf16) :
    FVec Ideal ⟨2, ![100000, 64]⟩ .f32 :=
  fun i => ∑ k : Fin 1024, hot (lab (ix2 (i 0) 0)) (BitVec.ofNat 32 k.val) * tbl (ix2 k (i 1))

/-- The layer's tail at (n, j): max (agg + h * (d n * d n) + b j) 0. -/
def gcnTail (agg h : FVec Ideal ⟨2, ![100000, 64]⟩ .f32) (dcol : FVec Ideal ⟨2, ![100000, 1]⟩ .f32)
    (brow : FVec Ideal ⟨2, ![1, 64]⟩ .f32) : FVec Ideal ⟨2, ![100000, 64]⟩ .f32 :=
  fun i => max (agg i + h i * (dcol (ix2 (i 0) 0) * dcol (ix2 (i 0) 0)) + brow (ix2 0 (i 1)))
    (Ideal.ofBits .f32 0x00000000#32)

/-- The tail times a 64 x 64 matrix. -/
def layerLin (agg h : FVec Ideal ⟨2, ![100000, 64]⟩ .f32) (dcol : FVec Ideal ⟨2, ![100000, 1]⟩ .f32)
    (brow : FVec Ideal ⟨2, ![1, 64]⟩ .f32) (w : FVec Ideal ⟨2, ![64, 64]⟩ .bf16) :
    FVec Ideal ⟨2, ![100000, 64]⟩ .f32 :=
  fun i => ∑ k : Fin 64, gcnTail agg h dcol brow (ix2 (i 0) k) * w (ix2 k (i 1))

/-- Per graph g and feature j: the sum over the nodes n of (graph n = g) times the tail at (n, j). -/
def poolSums (agg h : FVec Ideal ⟨2, ![100000, 64]⟩ .f32) (dcol : FVec Ideal ⟨2, ![100000, 1]⟩ .f32)
    (brow : FVec Ideal ⟨2, ![1, 64]⟩ .f32) (bcol : IVec ⟨2, ![100000, 1]⟩ 32) : FVec Ideal ⟨2, ![128, 64]⟩ .f32 :=
  fun i => ∑ n : Fin 100000, hot (bcol (ix2 n 0)) (BitVec.ofNat 32 (i 0).val) * gcnTail agg h dcol brow (ix2 n (i 1))

/-- Per graph g: the sum over the nodes n of (graph n = g) times the bf16 word of one. -/
def poolCounts (bcol : IVec ⟨2, ![100000, 1]⟩ 32) : FVec Ideal ⟨2, ![128, 1]⟩ .f32 :=
  fun i => ∑ n : Fin 100000, hot (bcol (ix2 n 0)) (BitVec.ofNat 32 (i 0).val) * Ideal.ofBits .bf16 0x3F80#16

/-- The pooled mean's hidden unit k of graph g: max (sum_d (sums g d / max (cnt g) 1) * w3 d k + b3 k) 0. -/
def mlpHidden (sums : FVec Ideal ⟨2, ![128, 64]⟩ .f32) (cnt : FVec Ideal ⟨2, ![128, 1]⟩ .f32)
    (w3 : FVec Ideal ⟨2, ![64, 64]⟩ .bf16) (b3 : FVec Ideal ⟨2, ![1, 64]⟩ .f32) (g : Fin 128) (k : Fin 64) : EReal :=
  max ((∑ d : Fin 64, Ideal.div (sums (ix2 g d)) (max (cnt (ix2 g 0)) (Ideal.ofBits .f32 0x3F800000#32)) * w3 (ix2 d k))
    + b3 (ix2 0 k)) (Ideal.ofBits .f32 0x00000000#32)

/-- The output of graph g: sum_k hidden g k * w4 k, plus b4. -/
def mlpOut (sums : FVec Ideal ⟨2, ![128, 64]⟩ .f32) (cnt : FVec Ideal ⟨2, ![128, 1]⟩ .f32)
    (w3 : FVec Ideal ⟨2, ![64, 64]⟩ .bf16) (b3 w4 : FVec Ideal ⟨2, ![1, 64]⟩ .f32) (b4 : FVec Ideal ⟨2, ![1, 1]⟩ .f32) :
    FVec Ideal ⟨2, ![128, 1]⟩ .f32 :=
  fun i => (∑ k : Fin 64, mlpHidden sums cnt w3 b3 (i 0) k * w4 (ix2 0 k)) + b4 (ix2 0 0)

end Cert.Spec

end
-- ==== Proof.KEmbed.lean ====
/-
  The first kernel's output array. Its grid has 50 points; point t loads rows 2000 t .. 2000 t + 1999 of the label
  column and the whole 1024 x 64 table, and writes rows 2000 t .. 2000 t + 1999 of the output. The 50 blocks tile the
  100000 rows, so after the run the output array is one function of the two input arrays: Spec.embedRows.

  The body multiplies a one-hot matrix by the table. Entry (p, k) of the one-hot matrix is the indicator that the label
  of row p equals k (a comparison of the label column, repeated along the 1024 lanes, with the lane number, converted to
  a number), so entry (p, j) of the product is the sum over k of that indicator times the table's entry (k, j): the
  table row the label selects. Read through the windows' blocks this is block t of Spec.embedRows of the two arrays, and
  since row r lies in the block of point r / 2000 the write-backs leave the whole array at Spec.embedRows.
-/
import proofs.«426199_j76587856822555_1_alg».proof.Proof.Gen.KernelIdeal.Frame
import proofs.«426199_j76587856822555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KEmbed

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The indicator entry -/

/-- The signed conversion of the zero-extended one-bit equality test of two words is the indicator of their equality. -/
theorem sitofp_eq_hot (a b : BitVec 32) :
    FloatOps.sitofp (F := Ideal) .f32 ((IntOp.cmpi .eq a b).setWidth 32) = Cert.Spec.hot a b := by
  unfold Cert.Spec.hot
  by_cases h : a = b
  · subst h
    rw [if_pos rfl]
    have e : (IntOp.cmpi .eq a a).setWidth 32 = 1#32 := by simp [IntOp.cmpi]
    rw [e]
    show (((1#32 : BitVec 32).toInt : ℝ) : EReal) = 1
    simp
  · rw [if_neg h]
    have hb : (a == b) = false := beq_eq_false_iff_ne.mpr h
    have e : (IntOp.cmpi .eq a b).setWidth 32 = 0#32 := by simp [IntOp.cmpi, hb]
    rw [e]
    show (((0#32 : BitVec 32).toInt : ℝ) : EReal) = 0
    simp

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, k) of the one-hot matrix the body builds from a label column: the indicator that the label of row p is k. -/
theorem onehot_entry (v1 : IVec S2000x1 32) (p : Fin 2000) (k : Fin 1024) :
    (truncf .bf16 (sitofp (F := Ideal) .f32 (extui 32 (cmpi .eq
        (broadcastTo S2000x1024 (shapeCast S2000x1 v1 shapeCasts_S2000x1_S2000x1) broadcasts_S2000x1_S2000x1024)
        (broadcastTo S2000x1024 (iota .tc S1x1024 32 [1] iota_S1x1024_d1_w32) broadcasts_S1x1024_S2000x1024)) natLt_1_32))
      bitsLt_bf16_f32 : FVec Ideal S2000x1024 .bf16) (ix2 p k)
      = Cert.Spec.hot (v1 (ix2 p 0)) (BitVec.ofNat 32 k.val) := by
  show FloatOps.sitofp (F := Ideal) .f32 ((IntOp.cmpi .eq
      (broadcastTo S2000x1024 (shapeCast S2000x1 v1 shapeCasts_S2000x1_S2000x1) broadcasts_S2000x1_S2000x1024 (ix2 p k))
      (broadcastTo S2000x1024 (iota .tc S1x1024 32 [1] iota_S1x1024_d1_w32) broadcasts_S1x1024_S2000x1024 (ix2 p k))).setWidth 32) = _
  rw [broadcastTo_a1_ab_apply, broadcastTo_1b_ab_apply, shapeCast_self, iota_single_apply, sitofp_eq_hot]

/-! ## The body's product at an entry -/

/-- The product contracts the second axis of the one-hot matrix with the first axis of the table: at output entry i
    and contraction coordinate q the left operand is read at (i 0, q) and the right operand at (q, i 1). The four
    coordinates, one statement each. -/
theorem mm_lhs_0 (i : S2000x64.Idx) (q : dot_S2000x1024_S1024x64_S2000x64_1_0_0_1_n_n.contr.Idx) :
    (dot_S2000x1024_S1024x64_S2000x64_1_0_0_1_n_n.lhsIdx i q 0).val = (i 0).val := by
  unfold DotDims.lhsIdx
  rw [dif_neg (show ¬(0 : Fin S2000x1024.rank) ∈ dot_S2000x1024_S1024x64_S2000x64_1_0_0_1_n_n.lhsBatch by decide), dif_pos (show (0 : Fin S2000x1024.rank) ∈ dot_S2000x1024_S1024x64_S2000x64_1_0_0_1_n_n.lhsNonContracting by decide)]
  rfl
theorem mm_lhs_1 (i : S2000x64.Idx) (q : dot_S2000x1024_S1024x64_S2000x64_1_0_0_1_n_n.contr.Idx) :
    (dot_S2000x1024_S1024x64_S2000x64_1_0_0_1_n_n.lhsIdx i q 1).val = (q ⟨0, by decide⟩).val :=
  dot_S2000x1024_S1024x64_S2000x64_1_0_0_1_n_n.lhsIdx_val_of_single rfl i q
theorem mm_rhs_0 (i : S2000x64.Idx) (q : dot_S2000x1024_S1024x64_S2000x64_1_0_0_1_n_n.contr.Idx) :
    (dot_S2000x1024_S1024x64_S2000x64_1_0_0_1_n_n.rhsIdx i q 0).val = (q ⟨0, by decide⟩).val :=
  dot_S2000x1024_S1024x64_S2000x64_1_0_0_1_n_n.rhsIdx_val_of_single rfl i q
theorem mm_rhs_1 (i : S2000x64.Idx) (q : dot_S2000x1024_S1024x64_S2000x64_1_0_0_1_n_n.contr.Idx) :
    (dot_S2000x1024_S1024x64_S2000x64_1_0_0_1_n_n.rhsIdx i q 1).val = (i 1).val := by
  unfold DotDims.rhsIdx
  rw [dif_neg (show ¬(1 : Fin S1024x64.rank) ∈ dot_S2000x1024_S1024x64_S2000x64_1_0_0_1_n_n.rhsBatch by decide), dif_pos (show (1 : Fin S1024x64.rank) ∈ dot_S2000x1024_S1024x64_S2000x64_1_0_0_1_n_n.rhsNonContracting by decide)]
  rfl

/-- The body's result at (p, j), from a label block and the table: the sum over the table's rows k of the indicator
    (label of row p = k) times the table's entry (k, j). -/
theorem embed_pay (v1 : Vec Ideal S2000x1 .i32) (v9 : Vec Ideal S1024x64 .bf16) (p : Fin 2000) (j : Fin 64) :
    (k0_pay1 (F := Ideal) v1 v9) (ix2 p j)
      = ∑ k : Fin 1024, Cert.Spec.hot (v1 (ix2 p 0)) (BitVec.ofNat 32 k.val) * v9 (ix2 k j) := by
  unfold k0_pay1
  refine (Ideal.matmul_constant_zero_apply dot_S2000x1024_S1024x64_S2000x64_1_0_0_1_n_n none _ _ (ix2 p j)).trans ?_
  rw [← Equiv.sum_comp (contrEquiv1 dot_S2000x1024_S1024x64_S2000x64_1_0_0_1_n_n 1024 rfl rfl).symm]
  refine Finset.sum_congr rfl fun k _ => ?_
  have hk := contrEquiv1_symm_val dot_S2000x1024_S1024x64_S2000x64_1_0_0_1_n_n 1024 rfl rfl k
  have el : dot_S2000x1024_S1024x64_S2000x64_1_0_0_1_n_n.lhsIdx (ix2 p j) ((contrEquiv1 dot_S2000x1024_S1024x64_S2000x64_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S2000x1024_S1024x64_S2000x64_1_0_0_1_n_n.rhsIdx (ix2 p j) ((contrEquiv1 dot_S2000x1024_S1024x64_S2000x64_1_0_0_1_n_n 1024 rfl rfl).symm k) = ix2 k j := funext fun a => Fin.ext (by
    match a with
    | ⟨0, _⟩ => exact (mm_rhs_0 _ _).trans hk
    | ⟨1, _⟩ => exact mm_rhs_1 _ _)
  rw [el, er, onehot_entry, shapeCast_self]

/-! ## The blocks of the three windows -/

theorem zero_offsets : (![0, 0] : Fin 2 → Nat) = fun _ => 0 := funext fun a => by fin_cases a <;> rfl

/-- The index maps over the grid: at point t the label window and the output window are at block (t, 0), the table
    window at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The label window's block at point t is rows 2000 t .. 2000 t + 1999 of the label column. -/
theorem label_block (c : Dev nD) (t : Fin cfg0.N) (p : Fin 2000) (r : Fin 100000) (hr : r.val = 2000 * t.val + p.val) :
    (iblk0 V c 0 t : Vec Ideal S2000x1 .i32) (ix2 p 0) = (V c main_v30 : S100000x1.Idx → BitVec 32) (ix2 r 0) := by
  obtain ⟨e0, e1, -, -, -, -⟩ := block_indices t
  unfold iblk0
  rw [View.read_apply]
  show V c main_v30 _ = V c main_v30 _
  refine congrArg (V c main_v30) ?_
  funext a
  apply Fin.ext
  match a with
  | ⟨0, _⟩ => show win0_0.index t (0 : Fin 2) * 2000 + 1 * p.val = r.val; rw [e0, hr]; omega
  | ⟨1, _⟩ => show win0_0.index t (1 : Fin 2) * 1 + 1 * 0 = 0; rw [e1]

/-- The table window's block at every point is the whole table. -/
theorem table_block (c : Dev nD) (t : Fin cfg0.N) (k : Fin 1024) (j : Fin 64) :
    (iblk0 V c 1 t : Vec Ideal S1024x64 .bf16) (ix2 k j) = (V c main_v29 : S1024x64.Idx → EReal) (ix2 k j) := by
  obtain ⟨-, -, e2, e3, -, -⟩ := block_indices t
  unfold iblk0
  rw [View.read_apply]
  show V c main_v29 _ = V c main_v29 _
  refine congrArg (V c main_v29) ?_
  funext a
  apply Fin.ext
  match a with
  | ⟨0, _⟩ => show win0_1.index t (0 : Fin 2) * 1024 + 1 * k.val = k.val; rw [e2]; omega
  | ⟨1, _⟩ => show win0_1.index t (1 : Fin 2) * 64 + 1 * j.val = j.val; rw [e3]; omega

/-- The body's result on a label block that is rows 2000 n .. of a label column and a table block that is the whole table,
    at the block entry y, is the label-selected table row at the array entry i that lies 2000 n rows below y. -/
theorem body_entry (lab : IVec ⟨2, ![100000, 1]⟩ 32) (tbl : FVec Ideal ⟨2, ![1024, 64]⟩ .bf16)
    (x0 : Vec Ideal S2000x1 .i32) (x1 : Vec Ideal S1024x64 .bf16) (n : ℕ)
    (h0 : ∀ (p : Fin 2000) (r : Fin 100000), r.val = 2000 * n + p.val → x0 (ix2 p 0) = lab (ix2 r 0))
    (h1 : ∀ (k : Fin 1024) (j : Fin 64), x1 (ix2 k j) = tbl (ix2 k j))
    (y : S2000x64.Idx) (i : S100000x64.Idx) (hi0 : (i 0).val = 2000 * n + (y 0).val) (hi1 : (i 1).val = (y 1).val) :
    k0_pay1 (F := Ideal) x0 x1 y = Cert.Spec.embedRows lab tbl i := by
  obtain ⟨p, j, rfl⟩ : ∃ (p : Fin 2000) (j : Fin 64), y = ix2 p j := ⟨y 0, y 1, eq_ix2 y⟩
  obtain ⟨r, q, rfl⟩ : ∃ (r : Fin 100000) (q : Fin 64), i = ix2 r q := ⟨i 0, i 1, eq_ix2 i⟩
  obtain rfl : q = j := Fin.ext hi1
  rw [embed_pay]
  show _ = ∑ k : Fin 1024, Cert.Spec.hot (lab (ix2 r 0)) (BitVec.ofNat 32 k.val) * tbl (ix2 k q)
  refine Finset.sum_congr rfl fun k _ => ?_
  rw [h0 p r hi0, h1]

/-! ## What a point writes back, and the whole array -/

/-- Point t writes back block t of the label-selected table rows. -/
theorem flushed_eq (c : Dev nD) (t : Fin cfg0.N) :
    (dat0 V c).flushed 2 t
      = ((cfg0.win 2).blk t).view.read (Elt Ideal) (Cert.Spec.embedRows (V c main_v30) (V c main_v29)) := by
  show (cfg0.win 2).cut (grid0.coords t) ((dat0 V c).after 2 t) = _
  rw [after0_2]
  unfold out0_2
  rw [View.canon_unit_zero zero_offsets]
  simp only [View.ld_unit_zero (S := S2000x1) zero_offsets, View.ld_unit_zero (S := S1024x64) zero_offsets]
  obtain ⟨-, -, -, -, e4, e5⟩ := block_indices t
  funext y
  show k0_pay1 (F := Ideal) (iblk0 V c 0 t) (iblk0 V c 1 t) y
    = Cert.Spec.embedRows (V c main_v30) (V c main_v29) (((cfg0.win 2).blk t).view.emb y)
  refine body_entry (V c main_v30) (V c main_v29) (iblk0 V c 0 t) (iblk0 V c 1 t) t.val
    (label_block V c t) (table_block V c t) y (((cfg0.win 2).blk t).view.emb y) ?_ ?_
  · show win0_2.index t (0 : Fin 2) * 2000 + 1 * (y 0).val = 2000 * t.val + (y 0).val
    rw [e4]; omega
  · show win0_2.index t (1 : Fin 2) * 64 + 1 * (y 1).val = (y 1).val
    rw [e5]; omega

/-- An entry of the output array is in point t's block iff each coordinate is in the block's range on its axis. -/
theorem mem_block (t : Fin cfg0.N) (i : S100000x64.Idx) :
    i ∈ ((cfg0.win 2).blk t).view.set ↔ ∀ a : Fin 2, win0_2.index t a * S2000x64.size a ≤ (i a).val
      ∧ (i a).val < win0_2.index t a * S2000x64.size a + S2000x64.size a := by
  show i ∈ ((View.whole main_v31).slice (win0_2.rect t)).set ↔ _
  rw [View.set_slice_whole, Rect.mem_set_unit]
  exact Iff.rfl

/-- Row r of the output array lies in the block of point r / 2000: the 50 blocks tile the 100000 rows. -/
theorem blocks_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, e4, e5⟩ := block_indices ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val
      ∧ (i 0).val < win0_2.index ⟨(i 0).val / 2000, ht⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, ht⟩ (1 : Fin 2) * 64 ≤ (i 1).val
      ∧ (i 1).val < win0_2.index ⟨(i 0).val / 2000, ht⟩ (1 : Fin 2) * 64 + 64
    rw [e5]; omega

/-- After the run of the first kernel from contents V, its output array (window 2) is the label-selected table rows. -/
theorem embed_value (c : Dev nD) :
    (dat0 (F := Ideal) V c).arrAt 2 cfg0.N = Cert.Spec.embedRows (V c main_v30) (V c main_v29) :=
  (dat0 (F := Ideal) V c).arrAt_eq_of_cover 2 (Cert.Spec.embedRows (V c main_v30) (V c main_v29))
    (fun t _ => flushed_eq V c t) blocks_cover

end Cert.KernelIdeal.KEmbed

end
-- ==== Proof.KLayer.lean ====
/-
  The second kernel's output array. Its grid has 20 points; point t loads rows 5000 t .. 5000 t + 4999 of the
  aggregated messages, of the node features and of the inverse-root-degree column, the whole bias row and the whole
  64 x 64 weight matrix, and writes the same rows of the output. The 20 blocks tile the 100000 rows, so after the run
  the output array is one function of the five input arrays: Spec.layerLin.
-/
import proofs.«426199_j76587856822555_1_alg».proof.Proof.Gen.KernelIdeal.Frame
import proofs.«426199_j76587856822555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KLayer

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## Layout facts -/

/-- The offsets of a whole-block rectangle are zero on both axes. -/
theorem off_zero : (![0, 0] : Fin 2 → Nat) = fun _ => 0 :=
  funext fun a => by match a with | ⟨0, _⟩ => rfl | ⟨1, _⟩ => rfl

/-- An [a, 1] column broadcast to [a, b] reads, at (p, c), the column's entry of row p. -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product's operand indices

For the product of a 5000 x 64 block with the 64 x 64 weights, at output index i and contraction index q the left
operand is read at (i 0, q) and the right operand at (q, i 1). -/

theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## The body's arithmetic at an entry -/

/-- Entry (p, j) of what the body computes from a column block d, the blocks agg and h, the bias row b and the weights w:
    the sum over k of max (agg (p, k) + h (p, k) * (d p * d p) + b k) 0 times w (k, j). -/
theorem body_entry (d : FVec Ideal S5000x1 .f32) (agg h : FVec Ideal S5000x64 .f32) (b : FVec Ideal S1x64 .f32)
    (w : FVec Ideal S64x64 .bf16) (p : Fin 5000) (j : Fin 64) :
    k1_pay1 (F := Ideal) d d agg h b w (ix2 p j)
      = ∑ k : Fin 64, max (agg (ix2 p k) + h (ix2 p k) * (d (ix2 p 0) * d (ix2 p 0)) + b (ix2 0 k))
          (Ideal.ofBits .f32 0x00000000#32) * w (ix2 k j) := by
  unfold k1_pay1
  simp only [matmul, shapeCast_self]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p j) ((contrEquiv1 dot_S5000x64_S64x64_S5000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S5000x64_S64x64_S5000x64_1_0_0_1_n_n.rhsIdx (ix2 p j) ((contrEquiv1 dot_S5000x64_S64x64_S5000x64_1_0_0_1_n_n 64 rfl rfl).symm k) = ix2 k j := funext fun a => Fin.ext (by
    match a with
    | ⟨0, _⟩ => exact (rhs_axis0 _ _).trans hk
    | ⟨1, _⟩ => exact rhs_axis1 _ _)
  rw [el, er, truncf_apply, maximumf_apply, addf_apply, addf_apply, mulf_apply, bcast_col_apply, mulf_apply,
    broadcastTo_1b_ab_apply, broadcast_apply]
  rfl

/-! ## The windows' block indices over the grid -/

/-- At point t the three row-tiled inputs and the output sit at block (t, 0); the bias row and the weights at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 5000 t + p of the array, below 100000 because there are 20 blocks. -/
theorem row_lt (t : Fin cfg1.N) (p : Fin 5000) : 5000 * t.val + p.val < 100000 := by
  have ht : t.val < 20 := lt_of_lt_of_eq t.isLt N_1
  have hp : p.val < 5000 := p.isLt
  omega

/-- The array row that row p of block t is. -/
abbrev row (t : Fin cfg1.N) (p : Fin 5000) : Fin 100000 := ⟨5000 * t.val + p.val, row_lt t p⟩

/-! ## The input blocks at a point, at their literal types -/

/-- Rows 5000 t .. 5000 t + 4999 of the aggregated messages. -/
abbrev aggBlk (c : Dev nD) (t : Fin cfg1.N) : FVec Ideal S5000x64 .f32 := iblk1 V c 0 t
/-- The same rows of the node features. -/
abbrev hBlk (c : Dev nD) (t : Fin cfg1.N) : FVec Ideal S5000x64 .f32 := iblk1 V c 1 t
/-- The same rows of the inverse-root-degree column. -/
abbrev dBlk (c : Dev nD) (t : Fin cfg1.N) : FVec Ideal S5000x1 .f32 := iblk1 V c 2 t
/-- The whole bias row. -/
abbrev bBlk (c : Dev nD) (t : Fin cfg1.N) : FVec Ideal S1x64 .f32 := iblk1 V c 3 t
/-- The whole weight matrix. -/
abbrev wBlk (c : Dev nD) (t : Fin cfg1.N) : FVec Ideal S64x64 .bf16 := iblk1 V c 4 t

/-- Entry (p, q) of the aggregated-messages block at t is entry (5000 t + p, q) of the array. -/
theorem aggBlk_apply (c : Dev nD) (t : Fin cfg1.N) (p : Fin 5000) (q : Fin 64) :
    aggBlk V c t (ix2 p q) = (V c main_v44 : S100000x64.Idx → EReal) (ix2 (row t p) q) := by
  obtain ⟨e0, e1, -⟩ := block_index t
  unfold aggBlk iblk1
  rw [View.read_apply]
  show V c main_v44 _ = V c main_v44 _
  congr 1
  funext a
  apply Fin.ext
  match a with
  | ⟨0, _⟩ => show win1_0.index t (0 : Fin 2) * 5000 + 1 * p.val = 5000 * t.val + p.val; omega
  | ⟨1, _⟩ => show win1_0.index t (1 : Fin 2) * 64 + 1 * q.val = q.val; omega

/-- Entry (p, q) of the node-features block at t is entry (5000 t + p, q) of the array. -/
theorem hBlk_apply (c : Dev nD) (t : Fin cfg1.N) (p : Fin 5000) (q : Fin 64) :
    hBlk V c t (ix2 p q) = (V c main_v31 : S100000x64.Idx → EReal) (ix2 (row t p) q) := by
  obtain ⟨-, -, e0, e1, -⟩ := block_index t
  unfold hBlk iblk1
  rw [View.read_apply]
  show V c main_v31 _ = V c main_v31 _
  congr 1
  funext a
  apply Fin.ext
  match a with
  | ⟨0, _⟩ => show win1_1.index t (0 : Fin 2) * 5000 + 1 * p.val = 5000 * t.val + p.val; omega
  | ⟨1, _⟩ => show win1_1.index t (1 : Fin 2) * 64 + 1 * q.val = q.val; omega

/-- Entry (p, 0) of the column block at t is entry (5000 t + p, 0) of the column. -/
theorem dBlk_apply (c : Dev nD) (t : Fin cfg1.N) (p : Fin 5000) :
    dBlk V c t (ix2 p 0) = (V c main_v26 : S100000x1.Idx → EReal) (ix2 (row t p) 0) := by
  obtain ⟨-, -, -, -, e0, e1, -⟩ := block_index t
  unfold dBlk iblk1
  rw [View.read_apply]
  show V c main_v26 _ = V c main_v26 _
  congr 1
  funext a
  apply Fin.ext
  match a with
  | ⟨0, _⟩ => show win1_2.index t (0 : Fin 2) * 5000 + 1 * p.val = 5000 * t.val + p.val; omega
  | ⟨1, _⟩ => show win1_2.index t (1 : Fin 2) * 1 + 1 * 0 = 0; omega

/-- The bias block at any point is the whole bias row. -/
theorem bBlk_apply (c : Dev nD) (t : Fin cfg1.N) (q : Fin 64) :
    bBlk V c t (ix2 0 q) = (V c main_v45 : S1x64.Idx → EReal) (ix2 0 q) := by
  obtain ⟨-, -, -, -, -, -, e0, e1, -⟩ := block_index t
  unfold bBlk iblk1
  rw [View.read_apply]
  show V c main_v45 _ = V c main_v45 _
  congr 1
  funext a
  apply Fin.ext
  match a with
  | ⟨0, _⟩ => show win1_3.index t (0 : Fin 2) * 1 + 1 * 0 = 0; omega
  | ⟨1, _⟩ => show win1_3.index t (1 : Fin 2) * 64 + 1 * q.val = q.val; omega

/-- The weight block at any point is the whole weight matrix. -/
theorem wBlk_apply (c : Dev nD) (t : Fin cfg1.N) (k q : Fin 64) :
    wBlk V c t (ix2 k q) = (V c main_v46 : S64x64.Idx → EReal) (ix2 k q) := by
  obtain ⟨-, -, -, -, -, -, -, -, e0, e1, -⟩ := block_index t
  unfold wBlk iblk1
  rw [View.read_apply]
  show V c main_v46 _ = V c main_v46 _
  congr 1
  funext a
  apply Fin.ext
  match a with
  | ⟨0, _⟩ => show win1_4.index t (0 : Fin 2) * 64 + 1 * k.val = k.val; omega
  | ⟨1, _⟩ => show win1_4.index t (1 : Fin 2) * 64 + 1 * q.val = q.val; omega

/-! ## What a point writes back -/

/-- Entry (p, q) of the output block at t sits at entry (5000 t + p, q) of the output array. -/
theorem outBlk_row (t : Fin cfg1.N) (p : Fin 5000) (q : Fin 64) :
    (((cfg1.win 5).blk t).view.emb (ix2 p q) : S100000x64.Idx) = ix2 (row t p) q := by
  obtain ⟨-, -, -, -, -, -, -, -, -, -, e0, e1⟩ := block_index t
  funext a
  apply Fin.ext
  match a with
  | ⟨0, _⟩ => show win1_5.index t (0 : Fin 2) * 5000 + 1 * p.val = 5000 * t.val + p.val; omega
  | ⟨1, _⟩ => show win1_5.index t (1 : Fin 2) * 64 + 1 * q.val = q.val; omega

/-- Point t writes back rows 5000 t .. 5000 t + 4999 of the layer's tail times the weights. -/
theorem written_back (c : Dev nD) (t : Fin cfg1.N) :
    (dat1 (F := Ideal) V c).flushed 5 t = ((cfg1.win 5).blk t).view.read (Elt Ideal)
      (Cert.Spec.layerLin (V c main_v44) (V c main_v31) (V c main_v26) (V c main_v45) (V c main_v46)) := by
  show (cfg1.win 5).cut (grid1.coords t) ((dat1 V c).after 5 t) = _
  rw [after1_5]
  unfold out1_5
  rw [View.canon_unit_zero off_zero]
  simp only [View.ld_unit_zero (S := S5000x64) off_zero, View.ld_unit_zero (S := S5000x1) off_zero,
    View.ld_unit_zero (S := S1x64) off_zero, View.ld_unit_zero (S := S64x64) off_zero]
  funext y
  obtain ⟨p, q, rfl⟩ : ∃ (p : Fin 5000) (q : Fin 64), y = ix2 p q := ⟨y 0, y 1, eq_ix2 y⟩
  show k1_pay1 (F := Ideal) (dBlk V c t) (dBlk V c t) (aggBlk V c t) (hBlk V c t) (bBlk V c t) (wBlk V c t) (ix2 p q)
      = Cert.Spec.layerLin (V c main_v44) (V c main_v31) (V c main_v26) (V c main_v45) (V c main_v46)
          (((cfg1.win 5).blk t).view.emb (ix2 p q))
  refine (body_entry (dBlk V c t) (aggBlk V c t) (hBlk V c t) (bBlk V c t) (wBlk V c t) p q).trans ?_
  refine Eq.trans ?_ (congrArg (Cert.Spec.layerLin (V c main_v44) (V c main_v31) (V c main_v26) (V c main_v45) (V c main_v46))
    (outBlk_row t p q).symm)
  show _ = ∑ k : Fin 64, Cert.Spec.gcnTail (V c main_v44) (V c main_v31) (V c main_v26) (V c main_v45) (ix2 (row t p) k)
      * (V c main_v46 : S64x64.Idx → EReal) (ix2 k q)
  refine Finset.sum_congr rfl fun k _ => ?_
  rw [aggBlk_apply, hBlk_apply, dBlk_apply, bBlk_apply, wBlk_apply]
  rfl

/-! ## The blocks tile the array -/

/-- Row r of the output array lies in the block of point r / 5000, which is written back. -/
theorem blocks_cover (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := N_1
  let t : Fin cfg1.N := ⟨(i 0).val / 5000, by rw [hN]; omega⟩
  have htv : t.val = (i 0).val / 5000 := rfl
  obtain ⟨-, -, -, -, -, -, -, -, -, -, e0, e1⟩ := block_index t
  refine ⟨t, flush1_5 t, ?_⟩
  show i ∈ ((View.whole main_v47).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- After the run of the second kernel from contents V, its output array (window 5) is the layer's tail times the weights. -/
theorem layer_value (c : Dev nD) :
    (dat1 (F := Ideal) V c).arrAt 5 cfg1.N
      = Cert.Spec.layerLin (V c main_v44) (V c main_v31) (V c main_v26) (V c main_v45) (V c main_v46) :=
  (dat1 (F := Ideal) V c).arrAt_eq_of_cover 5 _ (fun t _ => written_back V c t) blocks_cover

end Cert.KernelIdeal.KLayer

end
-- ==== Proof.LibTiles.lean ====
/-
  Regrouping finite sums over index sets that are cut into tiles. A sum over a · b consecutive indices is
  the sum over the a tiles of the sums over the b indices of a tile; for 4096 = 4 · 1024 the outer sum,
  written out from a zero start, is ((((0 + S₀) + S₁) + S₂) + S₃). A sum over 8192 = 4096 + 4096
  indices is the sum over the lower half plus the sum over the upper half. A sum over the index set
  of an n × 1 array is the sum over its n rows.
-/
import Mathlib.Algebra.BigOperators.Fin
import Mathlib.Data.Fintype.BigOperators
import Mathlib.Logic.Equiv.Fin.Basic
import Idealize.ShloMosaic.Lib.ValueIdx

namespace Cert.LibTiles

open Idealize.ShloMosaic Idealize.ShloMosaic.ValueIdx

variable {M : Type*} [AddCommMonoid M]

/-! ## Tiles of equal length -/

/-- Index k of tile j, among a tiles of length b, lies below a · b: j · b + k < (j + 1) · b ≤ a · b. -/
theorem tile_lt {a b : ℕ} (j : Fin a) (k : Fin b) : j.val * b + k.val < a * b :=
  calc j.val * b + k.val < j.val * b + b := Nat.add_lt_add_left k.isLt _
    _ = (j.val + 1) * b := (Nat.succ_mul _ _).symm
    _ ≤ a * b := Nat.mul_le_mul_right b j.isLt

/-- A sum over a · b indices is the sum over the a tiles of the sum over each tile's b indices:
    (j, k) ↦ j · b + k is a bijection from pairs onto the indices below a · b. -/
theorem tile_sum (a b : ℕ) (f : Fin (a * b) → M) :
    ∑ i : Fin (a * b), f i = ∑ j : Fin a, ∑ k : Fin b, f ⟨j.val * b + k.val, tile_lt j k⟩ := by
  rw [← Equiv.sum_comp finProdFinEquiv f, Fintype.sum_prod_type]
  refine Finset.sum_congr rfl fun j _ => Finset.sum_congr rfl fun k _ => ?_
  congr 1
  apply Fin.ext
  show k.val + b * j.val = j.val * b + k.val
  rw [Nat.mul_comm, Nat.add_comm]

/-! ## 4096 = 4 · 1024 -/

/-- Index q of tile j, among 4 tiles of length 1024, lies below 4096. -/
theorem tile_lt_4096 (j : Fin 4) (q : Fin 1024) : j.val * 1024 + q.val < 4096 :=
  tile_lt j q

/-- The same bound with the tile's number a natural number below 4. -/
theorem tile_lt_nat {j : ℕ} (hj : j < 4) (q : Fin 1024) : j * 1024 + q.val < 4096 :=
  tile_lt_4096 ⟨j, hj⟩ q

/-- A sum over 4096 indices is the sum over 4 tiles of the sums over each tile's 1024 indices. -/
theorem tile_sum_4096 (f : Fin 4096 → M) :
    ∑ c : Fin 4096, f c =
      ∑ j : Fin 4, ∑ q : Fin 1024, f ⟨j.val * 1024 + q.val, tile_lt_4096 j q⟩ :=
  tile_sum 4 1024 f

/-- With S j the sum over tile j, the sum over 4096 indices is the four tile sums added one after the
    other onto zero. -/
theorem tile_sum_4096_of (f : Fin 4096 → M) (S : Fin 4 → M)
    (hS : ∀ j : Fin 4, S j = ∑ q : Fin 1024, f ⟨j.val * 1024 + q.val, tile_lt_4096 j q⟩) :
    ∑ c : Fin 4096, f c = (((0 + S 0) + S 1) + S 2) + S 3 := by
  rw [tile_sum_4096, Fin.sum_univ_four, zero_add, hS 0, hS 1, hS 2, hS 3]

/-- The same with the tile sums written out, the tile's number a numeral. -/
theorem tile_sum_4096_acc (f : Fin 4096 → M) :
    ∑ c : Fin 4096, f c =
      (((0 + ∑ q : Fin 1024, f ⟨0 * 1024 + q.val, tile_lt_nat (by decide) q⟩)
          + ∑ q : Fin 1024, f ⟨1 * 1024 + q.val, tile_lt_nat (by decide) q⟩)
          + ∑ q : Fin 1024, f ⟨2 * 1024 + q.val, tile_lt_nat (by decide) q⟩)
          + ∑ q : Fin 1024, f ⟨3 * 1024 + q.val, tile_lt_nat (by decide) q⟩ := by
  rw [tile_sum_4096, Fin.sum_univ_four, zero_add]
  rfl

/-! ## 8192 = 4096 + 4096 -/

/-- An index of the lower half lies below 8192. -/
theorem lo_lt (r : Fin 4096) : r.val < 8192 := lt_trans r.isLt (by decide)

/-- An index of the upper half lies below 8192. -/
theorem hi_lt (r : Fin 4096) : 4096 + r.val < 8192 := Nat.add_lt_add_left r.isLt 4096

/-- A sum over 8192 indices is the sum over the lower 4096 plus the sum over the upper 4096. -/
theorem sum_halves (f : Fin 8192 → M) :
    ∑ i : Fin 8192, f i =
      (∑ r : Fin 4096, f ⟨r.val, lo_lt r⟩) + ∑ r : Fin 4096, f ⟨4096 + r.val, hi_lt r⟩ :=
  Fin.sum_univ_add (a := 4096) (b := 4096) f

/-- If f is g on the lower half and h on the upper half, the sum of f is the sum of g plus the sum of h. -/
theorem sum_halves_of (f : Fin 8192 → M) (g h : Fin 4096 → M)
    (hg : ∀ r : Fin 4096, f ⟨r.val, lo_lt r⟩ = g r)
    (hh : ∀ r : Fin 4096, f ⟨4096 + r.val, hi_lt r⟩ = h r) :
    ∑ i : Fin 8192, f i = (∑ r : Fin 4096, g r) + ∑ r : Fin 4096, h r := by
  rw [sum_halves]
  congr 1
  · exact Finset.sum_congr rfl fun r _ => hg r
  · exact Finset.sum_congr rfl fun r _ => hh r

/-- The lower half alone: where f vanishes on the upper half, its sum is the sum over the lower half. -/
theorem sum_lo_of_hi_zero (f : Fin 8192 → M) (hz : ∀ r : Fin 4096, f ⟨4096 + r.val, hi_lt r⟩ = 0) :
    ∑ i : Fin 8192, f i = ∑ r : Fin 4096, f ⟨r.val, lo_lt r⟩ := by
  rw [sum_halves, Finset.sum_eq_zero (fun r _ => hz r), add_zero]

/-- The upper half alone: where f vanishes on the lower half, its sum is the sum over the upper half. -/
theorem sum_hi_of_lo_zero (f : Fin 8192 → M) (hz : ∀ r : Fin 4096, f ⟨r.val, lo_lt r⟩ = 0) :
    ∑ i : Fin 8192, f i = ∑ r : Fin 4096, f ⟨4096 + r.val, hi_lt r⟩ := by
  rw [sum_halves, Finset.sum_eq_zero (fun r _ => hz r), zero_add]

/-! ## One column -/

/-- A sum over the index set of an n × 1 array is the sum over its rows: the column coordinate has the
    one value 0. -/
theorem one_col {n : ℕ} (g : (⟨2, ![n, 1]⟩ : Shape).Idx → M) :
    ∑ i : (⟨2, ![n, 1]⟩ : Shape).Idx, g i = ∑ r : Fin n, g (ix2 r 0) := by
  rw [sum_idx2]
  exact Finset.sum_congr rfl fun r _ => Fin.sum_univ_one _

end Cert.LibTiles
-- ==== Proof.KPool.lean ====
/-
  The third kernel's two output arrays. Its grid has 20 points; both outputs are one block each that every point
  revisits: point 0 clears them, and every point adds its 5000 rows' contribution. After the last point the sums array
  holds, per graph and feature, the sum over all 100000 nodes; the counts array the number of nodes per graph.
-/
import proofs.«426199_j76587856822555_1_alg».proof.Proof.Gen.KernelIdeal.Frame
import proofs.«426199_j76587856822555_1_alg».proof.Proof.Spec
import proofs.«426199_j76587856822555_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KPool

open Cert.KernelIdeal Cert.KernelIdeal.Gen
open Idealize.ShloMosaic Idealize.ShloMosaic.TcCoe Idealize.ShloMosaic.ValueIdx
open Idealize.ShloMosaic.Pipeline (Dat Cfg Window)
open Idealize.ShloMosaic.Tactic

variable (V : (c : Dev nD) → (b : Ref sig .tc) → Buf (Elt Ideal) ((c : Thread nD τ).loc b))

/-- The zero offsets of a whole block. -/
theorem hz : (![0, 0] : Fin 2 → Nat) = fun _ => 0 := funext fun a => by fin_cases a <;> rfl

section Pieces
variable {F : FTy → Type} [FloatOps F]

/-! What each of the two control cases leaves in each output block, as the body's arithmetic of the input blocks:
    the one store that covers the block decides it, and a load of a block reads the whole block. -/

/-- At a grid point that does not clear, the sums block ends at the update of what it held (xo5) by the point's
    five input blocks. -/
theorem sums_later (c : Dev nD) (i : grid2.Coords)
    (a1 : Memref sig .tc .vmem S5000x64 .f32) (h1 : a1.IsWhole) (a2 : Memref sig .tc .vmem S5000x64 .f32) (h2 : a2.IsWhole)
    (a3 : Memref sig .tc .vmem S5000x1 .f32) (h3 : a3.IsWhole) (a4 : Memref sig .tc .vmem S1x64 .f32) (h4 : a4.IsWhole)
    (a5 : Memref sig .tc .vmem S5000x1 .i32) (h5 : a5.IsWhole) (a6 : Memref sig .tc .vmem S128x64 .f32) (h6 : a6.IsWhole)
    (a7 : Memref sig .tc .vmem S128x1 .f32) (h7 : a7.IsWhole) (hc : ¬cond2_0 i)
    (x0 x1 : Vec F S5000x64 .f32) (x2 : Vec F S5000x1 .f32) (x3 : Vec F S1x64 .f32) (x4 : Vec F S5000x1 .i32)
    (xo5 : Vec F S128x64 .f32) (xo6 : Vec F S128x1 .f32) :
    out2_B_5 c i a1 h1 a2 h2 a3 h3 a4 h4 a5 h5 a6 h6 a7 h7 hc x0 x1 x2 x3 x4 xo5 xo6 = k2_pay6 x2 x2 x0 x1 x3 x4 xo5 := by
  unfold out2_B_5
  rw [View.read_writes_eq_canon _ _ _ (cover2_B_5 c i a1 h1 a2 h2 a3 h3 a4 h4 a5 h5 a6 h6 a7 h7 hc x0 x1 x2 x3 x4 xo5 xo6)]
  unfold kernelRun2_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x1) hz, View.ld_unit_zero (S := S5000x64) hz, View.ld_unit_zero (S := S1x64) hz,
    View.ld_unit_zero (S := S128x64) hz, View.ld_unit_zero (S := S128x1) hz]

/-- At a grid point that does not clear, the counts block ends at what it held (xo6) plus the point's counts. -/
theorem counts_later (c : Dev nD) (i : grid2.Coords)
    (a1 : Memref sig .tc .vmem S5000x64 .f32) (h1 : a1.IsWhole) (a2 : Memref sig .tc .vmem S5000x64 .f32) (h2 : a2.IsWhole)
    (a3 : Memref sig .tc .vmem S5000x1 .f32) (h3 : a3.IsWhole) (a4 : Memref sig .tc .vmem S1x64 .f32) (h4 : a4.IsWhole)
    (a5 : Memref sig .tc .vmem S5000x1 .i32) (h5 : a5.IsWhole) (a6 : Memref sig .tc .vmem S128x64 .f32) (h6 : a6.IsWhole)
    (a7 : Memref sig .tc .vmem S128x1 .f32) (h7 : a7.IsWhole) (hc : ¬cond2_0 i)
    (x0 x1 : Vec F S5000x64 .f32) (x2 : Vec F S5000x1 .f32) (x3 : Vec F S1x64 .f32) (x4 : Vec F S5000x1 .i32)
    (xo5 : Vec F S128x64 .f32) (xo6 : Vec F S128x1 .f32) :
    out2_B_6 c i a1 h1 a2 h2 a3 h3 a4 h4 a5 h5 a6 h6 a7 h7 hc x0 x1 x2 x3 x4 xo5 xo6 = k2_pay1 (k2_pay5 x4) xo6 := by
  unfold out2_B_6
  rw [View.read_writes_eq_canon _ _ _ (cover2_B_6 c i a1 h1 a2 h2 a3 h3 a4 h4 a5 h5 a6 h6 a7 h7 hc x0 x1 x2 x3 x4 xo5 xo6)]
  unfold kernelRun2_B
  dsimp only
  sl_unfold_words
  rw [View.canon_unit_zero hz]
  simp only [View.readAt_eq_ld, h1.read_unread, h2.read_unread, h3.read_unread, h4.read_unread, h5.read_unread, h6.read_unread, h7.read_unread,
    View.ld_unit_zero (S := S5000x1) hz, View.ld_unit_zero (S := S5000x64) hz, View.ld_unit_zero (S := S1x64) hz,
    View.ld_unit_zero (S := S128x64) hz, View.ld_unit_zero (S := S128x1) hz]

/-- At the clearing grid point the sums block ends at the update of the zero block by the point's input blocks. -/
theorem sums_first (c : Dev nD) (i : grid2.Coords)
    (a1 : Memref sig .tc .vmem S5000x64 .f32) (h1 : a1.IsWhole) (a2 : Memref sig .tc .vmem S5000x64 .f32) (h2 : a2.IsWhole)
    (a3 : Memref sig .tc .vmem S5000x1 .f32) (h3 : a3.IsWhole) (a4 : Memref sig .tc .vmem S1x64 .f32) (h4 : a4.IsWhole)
    (a5 : Memref sig .tc .vmem S5000x1 .i32) (h5 : a5.IsWhole) (a6 : Memref sig .tc .vmem S128x64 .f32) (h6 : a6.IsWhole)
    (a7 : Memref sig .tc .vmem S128x1 .f32) (h7 : a7.IsWhole) (hc : cond2_0 i)
    (x0 x1 : Vec F S5000x64 .f32) (x2 : Vec F S5000x1 .f32) (x3 : Vec F S1x64 .f32) (x4 : Vec F S5000x1 .i32) :
    out2_A_5 c i a1 h1 a2 h2 a3 h3 a4 h4 a5 h5 a6 h6 a7 h7 hc x0 x1 x2 x3 x4 = k2_pay6 x2 x2 x0 x1 x3 x4 (k2_pay2 (F := F)) := by
  unfold out2_A_5
  rw [View.read_writes_eq_canon _ _ _ (cover2_A_5 c i a1 h1 a2 h2 a3 h3 a4 h4 a5 h5 a6 h6 a7 h7 hc x0 x1 x2 x3 x4)]
  unfold kernelRun2_A
  dsimp only
  sl_unfold_words
  rw [View.canon_cons_unit_zero (S := S128x64) hz, View.readCov_unit_zero (S := S128x64) _ hz]
  simp only [View.readAt_eq_ld, h1.read_unread, h2.read_unread, h3.read_unread, h4.read_unread, h5.read_unread, h6.read_unread, h7.read_unread,
    View.ld_unit_zero (S := S5000x1) hz, View.ld_unit_zero (S := S5000x64) hz, View.ld_unit_zero (S := S1x64) hz,
    View.ld_unit_zero (S := S128x64) hz, View.ld_unit_zero (S := S128x1) hz]

/-- At the clearing grid point the counts block ends at the zero column plus the point's counts. -/
theorem counts_first (c : Dev nD) (i : grid2.Coords)
    (a1 : Memref sig .tc .vmem S5000x64 .f32) (h1 : a1.IsWhole) (a2 : Memref sig .tc .vmem S5000x64 .f32) (h2 : a2.IsWhole)
    (a3 : Memref sig .tc .vmem S5000x1 .f32) (h3 : a3.IsWhole) (a4 : Memref sig .tc .vmem S1x64 .f32) (h4 : a4.IsWhole)
    (a5 : Memref sig .tc .vmem S5000x1 .i32) (h5 : a5.IsWhole) (a6 : Memref sig .tc .vmem S128x64 .f32) (h6 : a6.IsWhole)
    (a7 : Memref sig .tc .vmem S128x1 .f32) (h7 : a7.IsWhole) (hc : cond2_0 i)
    (x0 x1 : Vec F S5000x64 .f32) (x2 : Vec F S5000x1 .f32) (x3 : Vec F S1x64 .f32) (x4 : Vec F S5000x1 .i32) :
    out2_A_6 c i a1 h1 a2 h2 a3 h3 a4 h4 a5 h5 a6 h6 a7 h7 hc x0 x1 x2 x3 x4 = k2_pay1 (k2_pay5 x4) (k2_pay3 (F := F)) := by
  unfold out2_A_6
  rw [View.read_writes_eq_canon _ _ _ (cover2_A_6 c i a1 h1 a2 h2 a3 h3 a4 h4 a5 h5 a6 h6 a7 h7 hc x0 x1 x2 x3 x4)]
  unfold kernelRun2_A
  dsimp only
  sl_unfold_words
  rw [View.canon_cons_unit_zero (S := S128x1) hz, View.readCov_unit_zero (S := S128x1) _ hz]
  simp only [View.readAt_eq_ld, h1.read_unread, h2.read_unread, h3.read_unread, h4.read_unread, h5.read_unread, h6.read_unread, h7.read_unread,
    View.ld_unit_zero (S := S5000x1) hz, View.ld_unit_zero (S := S5000x64) hz, View.ld_unit_zero (S := S1x64) hz,
    View.ld_unit_zero (S := S128x64) hz, View.ld_unit_zero (S := S128x1) hz]

end Pieces

section Words

/-- The float read of the widened one-bit equality test of two words is the indicator of their equality. -/
theorem hot_word (a b : BitVec 32) :
    FloatOps.sitofp (F := Ideal) .f32 ((IntOp.cmpi .eq a b).setWidth 32) = Cert.Spec.hot a b := by
  unfold Cert.Spec.hot
  by_cases h : a = b
  · subst h
    rw [if_pos rfl]
    have e : IntOp.cmpi .eq a a = 1#1 := by simp [IntOp.cmpi]
    rw [e]
    show ((((1#1 : BitVec 1).setWidth 32).toInt : ℝ) : EReal) = 1
    rw [show ((1#1 : BitVec 1).setWidth 32).toInt = 1 from by decide]
    simp
  · rw [if_neg h]
    have e : IntOp.cmpi .eq a b = 0#1 := by
      show BitVec.ofBool (a == b) = 0#1
      rw [beq_false_of_ne h]; rfl
    rw [e]
    show ((((0#1 : BitVec 1).setWidth 32).toInt : ℝ) : EReal) = 0
    rw [show ((0#1 : BitVec 1).setWidth 32).toInt = 0 from by decide]
    simp

end Words

section Payloads

/-- The graph column spread along the 128 lanes reads, at row p of any lane, the graph word of row p. -/
theorem labcol_apply (lab : IVec S5000x1 32) (p : Fin 5000) (g : Fin 128) :
    broadcastTo S5000x128 (shapeCast S5000x1 lab shapeCasts_S5000x1_S5000x1) broadcasts_S5000x1_S5000x128 (ix2 p g)
      = lab (ix2 p 0) := by
  rw [shapeCast_self]
  exact broadcastTo_apply lab broadcasts_S5000x1_S5000x128 (ix2 p g) (ix2 p 0) (fun a => match a with
    | ⟨0, _⟩ => by show p.val = if (5000 : Nat) = 1 then 0 else p.val; rw [if_neg (by decide)]
    | ⟨1, _⟩ => by show (0 : Nat) = if (1 : Nat) = 1 then 0 else g.val; rw [if_pos rfl])

/-- The lane numbers spread along the 5000 rows read, at lane g of any row, the word of g. -/
theorem lane_apply (p : Fin 5000) (g : Fin 128) :
    broadcastTo S5000x128 (iota .tc S1x128 32 [1] iota_S1x128_d1_w32) broadcasts_S1x128_S5000x128 (ix2 p g)
      = BitVec.ofNat 32 g.val := by
  refine (broadcastTo_apply _ broadcasts_S1x128_S5000x128 (ix2 p g) (ix2 0 g) (fun a => match a with
    | ⟨0, _⟩ => by show (0 : Nat) = if (1 : Nat) = 1 then 0 else p.val; rw [if_pos rfl]
    | ⟨1, _⟩ => by show g.val = if (128 : Nat) = 1 then 0 else g.val; rw [if_neg (by decide)])).trans ?_
  exact iota_single_apply .tc S1x128 32 1 iota_S1x128_d1_w32 (ix2 0 g)

/-- The one-hot block at (row p, lane g): the indicator that row p's graph word is g. -/
theorem onehot_apply (lab : IVec S5000x1 32) (p : Fin 5000) (g : Fin 128) :
    k2_pay4 (F := Ideal) lab (ix2 p g) = Cert.Spec.hot (lab (ix2 p 0)) (BitVec.ofNat 32 g.val) := by
  unfold k2_pay4
  exact (congrArg₂ (fun a b => FloatOps.sitofp (F := Ideal) .f32 ((IntOp.cmpi .eq a b).setWidth 32))
    (labcol_apply lab p g) (lane_apply p g)).trans (hot_word _ _)

end Payloads

section Contraction

/-! The two contractions run over the FIRST axis of both operands: the result at (g, j) multiplies the left operand's
    column g with the right operand's column j, row by row. -/

theorem lhs_sums_0 (i : S128x64.Idx) (q : dot_S5000x128_S5000x64_S128x64_0_0_1_1_n_n.contr.Idx) :
    (dot_S5000x128_S5000x64_S128x64_0_0_1_1_n_n.lhsIdx i q 0).val = (q ⟨0, by decide⟩).val :=
  dot_S5000x128_S5000x64_S128x64_0_0_1_1_n_n.lhsIdx_val_of_single rfl i q
theorem lhs_sums_1 (i : S128x64.Idx) (q : dot_S5000x128_S5000x64_S128x64_0_0_1_1_n_n.contr.Idx) :
    (dot_S5000x128_S5000x64_S128x64_0_0_1_1_n_n.lhsIdx i q 1).val = (i 0).val := by
  unfold DotDims.lhsIdx
  rw [dif_neg (show ¬(1 : Fin S5000x128.rank) ∈ dot_S5000x128_S5000x64_S128x64_0_0_1_1_n_n.lhsBatch by decide), dif_pos (show (1 : Fin S5000x128.rank) ∈ dot_S5000x128_S5000x64_S128x64_0_0_1_1_n_n.lhsNonContracting by decide)]
  rfl
theorem rhs_sums_0 (i : S128x64.Idx) (q : dot_S5000x128_S5000x64_S128x64_0_0_1_1_n_n.contr.Idx) :
    (dot_S5000x128_S5000x64_S128x64_0_0_1_1_n_n.rhsIdx i q 0).val = (q ⟨0, by decide⟩).val :=
  dot_S5000x128_S5000x64_S128x64_0_0_1_1_n_n.rhsIdx_val_of_single rfl i q
theorem rhs_sums_1 (i : S128x64.Idx) (q : dot_S5000x128_S5000x64_S128x64_0_0_1_1_n_n.contr.Idx) :
    (dot_S5000x128_S5000x64_S128x64_0_0_1_1_n_n.rhsIdx i q 1).val = (i 1).val := by
  unfold DotDims.rhsIdx
  rw [dif_neg (show ¬(1 : Fin S5000x64.rank) ∈ dot_S5000x128_S5000x64_S128x64_0_0_1_1_n_n.rhsBatch by decide), dif_pos (show (1 : Fin S5000x64.rank) ∈ dot_S5000x128_S5000x64_S128x64_0_0_1_1_n_n.rhsNonContracting by decide)]
  rfl

/-- The sums' contraction into a zero accumulator at (g, j): the sum over the 5000 rows p of left (p, g) times right (p, j). -/
theorem sums_matmul_apply (oh : FVec Ideal S5000x128 .bf16) (x : FVec Ideal S5000x64 .bf16) (g : Fin 128) (j : Fin 64) :
    matmul dot_S5000x128_S5000x64_S128x64_0_0_1_1_n_n none oh x (constant (F := Ideal) S128x64 .f32 0x00000000#32) (ix2 g j)
      = ∑ p : Fin 5000, oh (ix2 p g) * x (ix2 p j) := by
  show FloatOps.matmul dot_S5000x128_S5000x64_S128x64_0_0_1_1_n_n none oh x (constant (F := Ideal) S128x64 .f32 0x00000000#32) (ix2 g j) = _
  rw [Ideal.matmul_constant_zero_apply, ← Equiv.sum_comp (ValueIdx.contrEquiv1 dot_S5000x128_S5000x64_S128x64_0_0_1_1_n_n 5000 rfl rfl).symm]
  refine Finset.sum_congr rfl fun k _ => ?_
  have hk := ValueIdx.contrEquiv1_symm_val dot_S5000x128_S5000x64_S128x64_0_0_1_1_n_n 5000 rfl rfl k
  have el : dot_S5000x128_S5000x64_S128x64_0_0_1_1_n_n.lhsIdx (ix2 g j) ((ValueIdx.contrEquiv1 dot_S5000x128_S5000x64_S128x64_0_0_1_1_n_n 5000 rfl rfl).symm k) = ix2 k g := funext fun a => Fin.ext (by
    match a with
    | ⟨0, _⟩ => exact (lhs_sums_0 _ _).trans hk
    | ⟨1, _⟩ => exact lhs_sums_1 _ _)
  have er : dot_S5000x128_S5000x64_S128x64_0_0_1_1_n_n.rhsIdx (ix2 g j) ((ValueIdx.contrEquiv1 dot_S5000x128_S5000x64_S128x64_0_0_1_1_n_n 5000 rfl rfl).symm k) = ix2 k j := funext fun a => Fin.ext (by
    match a with
    | ⟨0, _⟩ => exact (rhs_sums_0 _ _).trans hk
    | ⟨1, _⟩ => exact rhs_sums_1 _ _)
  rw [el, er]

theorem lhs_counts_0 (i : S128x1.Idx) (q : dot_S5000x128_S5000x1_S128x1_0_0_1_1_n_n.contr.Idx) :
    (dot_S5000x128_S5000x1_S128x1_0_0_1_1_n_n.lhsIdx i q 0).val = (q ⟨0, by decide⟩).val :=
  dot_S5000x128_S5000x1_S128x1_0_0_1_1_n_n.lhsIdx_val_of_single rfl i q
theorem lhs_counts_1 (i : S128x1.Idx) (q : dot_S5000x128_S5000x1_S128x1_0_0_1_1_n_n.contr.Idx) :
    (dot_S5000x128_S5000x1_S128x1_0_0_1_1_n_n.lhsIdx i q 1).val = (i 0).val := by
  unfold DotDims.lhsIdx
  rw [dif_neg (show ¬(1 : Fin S5000x128.rank) ∈ dot_S5000x128_S5000x1_S128x1_0_0_1_1_n_n.lhsBatch by decide), dif_pos (show (1 : Fin S5000x128.rank) ∈ dot_S5000x128_S5000x1_S128x1_0_0_1_1_n_n.lhsNonContracting by decide)]
  rfl
theorem rhs_counts_0 (i : S128x1.Idx) (q : dot_S5000x128_S5000x1_S128x1_0_0_1_1_n_n.contr.Idx) :
    (dot_S5000x128_S5000x1_S128x1_0_0_1_1_n_n.rhsIdx i q 0).val = (q ⟨0, by decide⟩).val :=
  dot_S5000x128_S5000x1_S128x1_0_0_1_1_n_n.rhsIdx_val_of_single rfl i q
theorem rhs_counts_1 (i : S128x1.Idx) (q : dot_S5000x128_S5000x1_S128x1_0_0_1_1_n_n.contr.Idx) :
    (dot_S5000x128_S5000x1_S128x1_0_0_1_1_n_n.rhsIdx i q 1).val = (i 1).val := by
  unfold DotDims.rhsIdx
  rw [dif_neg (show ¬(1 : Fin S5000x1.rank) ∈ dot_S5000x128_S5000x1_S128x1_0_0_1_1_n_n.rhsBatch by decide), dif_pos (show (1 : Fin S5000x1.rank) ∈ dot_S5000x128_S5000x1_S128x1_0_0_1_1_n_n.rhsNonContracting by decide)]
  rfl

/-- The counts' contraction into a zero accumulator at (g, 0): the sum over the 5000 rows p of left (p, g) times right (p, 0). -/
theorem counts_matmul_apply (oh : FVec Ideal S5000x128 .bf16) (x : FVec Ideal S5000x1 .bf16) (g : Fin 128) :
    matmul dot_S5000x128_S5000x1_S128x1_0_0_1_1_n_n none oh x (constant (F := Ideal) S128x1 .f32 0x00000000#32) (ix2 g 0)
      = ∑ p : Fin 5000, oh (ix2 p g) * x (ix2 p 0) := by
  show FloatOps.matmul dot_S5000x128_S5000x1_S128x1_0_0_1_1_n_n none oh x (constant (F := Ideal) S128x1 .f32 0x00000000#32) (ix2 g 0) = _
  rw [Ideal.matmul_constant_zero_apply, ← Equiv.sum_comp (ValueIdx.contrEquiv1 dot_S5000x128_S5000x1_S128x1_0_0_1_1_n_n 5000 rfl rfl).symm]
  refine Finset.sum_congr rfl fun k _ => ?_
  have hk := ValueIdx.contrEquiv1_symm_val dot_S5000x128_S5000x1_S128x1_0_0_1_1_n_n 5000 rfl rfl k
  have el : dot_S5000x128_S5000x1_S128x1_0_0_1_1_n_n.lhsIdx (ix2 g 0) ((ValueIdx.contrEquiv1 dot_S5000x128_S5000x1_S128x1_0_0_1_1_n_n 5000 rfl rfl).symm k) = ix2 k g := funext fun a => Fin.ext (by
    match a with
    | ⟨0, _⟩ => exact (lhs_counts_0 _ _).trans hk
    | ⟨1, _⟩ => exact lhs_counts_1 _ _)
  have er : dot_S5000x128_S5000x1_S128x1_0_0_1_1_n_n.rhsIdx (ix2 g 0) ((ValueIdx.contrEquiv1 dot_S5000x128_S5000x1_S128x1_0_0_1_1_n_n 5000 rfl rfl).symm k) = ix2 k 0 := funext fun a => Fin.ext (by
    match a with
    | ⟨0, _⟩ => exact (rhs_counts_0 _ _).trans hk
    | ⟨1, _⟩ => exact rhs_counts_1 _ _)
  rw [el, er]

end Contraction

section Steps

/-- A column spread along 64 features reads, at (p, j), the column's row p. -/
theorem colcast_apply {α : Type} (v : S5000x1.Idx → α) (p : Fin 5000) (j : Fin 64) :
    broadcastTo S5000x64 v broadcasts_S5000x1_S5000x64 (ix2 p j) = v (ix2 p 0) :=
  broadcastTo_apply v broadcasts_S5000x1_S5000x64 (ix2 p j) (ix2 p 0) (fun a => match a with
    | ⟨0, _⟩ => by show p.val = if (5000 : Nat) = 1 then 0 else p.val; rw [if_neg (by decide)]
    | ⟨1, _⟩ => by show (0 : Nat) = if (1 : Nat) = 1 then 0 else j.val; rw [if_pos rfl])

/-- A row spread along 5000 rows reads, at (p, j), the row's entry j. -/
theorem rowcast_apply {α : Type} (v : S1x64.Idx → α) (p : Fin 5000) (j : Fin 64) :
    broadcastTo S5000x64 v broadcasts_S1x64_S5000x64 (ix2 p j) = v (ix2 0 j) :=
  broadcastTo_apply v broadcasts_S1x64_S5000x64 (ix2 p j) (ix2 0 j) (fun a => match a with
    | ⟨0, _⟩ => by show (0 : Nat) = if (1 : Nat) = 1 then 0 else p.val; rw [if_pos rfl]
    | ⟨1, _⟩ => by show j.val = if (64 : Nat) = 1 then 0 else j.val; rw [if_neg (by decide)])

/-- The layer's tail inside one tile of 5000 rows, at (p, j): max (agg + h * (d p * d p) + b j) 0. -/
def tileTail (agg h : FVec Ideal S5000x64 .f32) (d : FVec Ideal S5000x1 .f32) (b : FVec Ideal S1x64 .f32)
    (p : Fin 5000) (j : Fin 64) : EReal :=
  max (agg (ix2 p j) + h (ix2 p j) * (d (ix2 p 0) * d (ix2 p 0)) + b (ix2 0 j)) (Ideal.ofBits .f32 0x00000000#32)

/-- The sums' update at (g, j): what the block held plus, over the tile's rows p, the indicator (graph of p = g) times
    the tail at (p, j). -/
theorem sums_step_apply (d : FVec Ideal S5000x1 .f32) (agg h : FVec Ideal S5000x64 .f32) (b : FVec Ideal S1x64 .f32)
    (lab : IVec S5000x1 32) (acc : FVec Ideal S128x64 .f32) (g : Fin 128) (j : Fin 64) :
    k2_pay6 (F := Ideal) d d agg h b lab acc (ix2 g j)
      = acc (ix2 g j) + ∑ p : Fin 5000, Cert.Spec.hot (lab (ix2 p 0)) (BitVec.ofNat 32 g.val) * tileTail agg h d b p j := by
  unfold k2_pay6
  refine (congrArg₂ (· + ·) (congrFun (shapeCast_self acc shapeCasts_S128x64_S128x64) (ix2 g j))
    ((sums_matmul_apply _ _ g j).trans (Finset.sum_congr rfl fun p _ =>
      congrArg₂ (· * ·) (onehot_apply lab p g) ?_))).trans rfl
  show max (shapeCast S5000x64 agg shapeCasts_S5000x64_S5000x64 (ix2 p j)
      + shapeCast S5000x64 h shapeCasts_S5000x64_S5000x64 (ix2 p j)
        * broadcastTo S5000x64 (mulf (F := Ideal) (φ := .f32) (shapeCast S5000x1 d shapeCasts_S5000x1_S5000x1) (shapeCast S5000x1 d shapeCasts_S5000x1_S5000x1)) broadcasts_S5000x1_S5000x64 (ix2 p j)
      + broadcastTo S5000x64 (shapeCast S1x64 b shapeCasts_S1x64_S1x64) broadcasts_S1x64_S5000x64 (ix2 p j))
      (Ideal.ofBits .f32 0x00000000#32) = tileTail agg h d b p j
  rw [colcast_apply, rowcast_apply, shapeCast_self, shapeCast_self, shapeCast_self, shapeCast_self]
  rfl

/-- The counts' update at (g, 0): what the block held plus, over the tile's rows p, the indicator (graph of p = g)
    times the bf16 word of one. -/
theorem counts_step_apply (lab : IVec S5000x1 32) (acc : FVec Ideal S128x1 .f32) (g : Fin 128) :
    k2_pay1 (F := Ideal) (k2_pay5 (F := Ideal) lab) acc (ix2 g 0)
      = acc (ix2 g 0) + ∑ p : Fin 5000, Cert.Spec.hot (lab (ix2 p 0)) (BitVec.ofNat 32 g.val) * Ideal.ofBits .bf16 0x3F80#16 := by
  unfold k2_pay1 k2_pay5
  exact congrArg₂ (· + ·) (congrFun (shapeCast_self acc shapeCasts_S128x1_S128x1) (ix2 g 0))
    ((counts_matmul_apply _ _ g).trans (Finset.sum_congr rfl fun p _ =>
      congrArg₂ (· * ·) (onehot_apply lab p g) rfl))

end Steps

section Tiles

/-! The arrays the kernel reads, and their blocks at a grid point, under their literal types. -/

abbrev aggArr (c : Dev nD) : FVec Ideal S100000x64 .f32 := V c main_v60
abbrev ownArr (c : Dev nD) : FVec Ideal S100000x64 .f32 := V c main_v47
abbrev degArr (c : Dev nD) : FVec Ideal S100000x1 .f32 := V c main_v26
abbrev biasArr (c : Dev nD) : FVec Ideal S1x64 .f32 := V c main_v61
abbrev graphArr (c : Dev nD) : IVec S100000x1 32 := V c main_v62

abbrev aggBlk (c : Dev nD) (t : Fin cfg2.N) : FVec Ideal S5000x64 .f32 := iblk2 V c 0 t
abbrev ownBlk (c : Dev nD) (t : Fin cfg2.N) : FVec Ideal S5000x64 .f32 := iblk2 V c 1 t
abbrev degBlk (c : Dev nD) (t : Fin cfg2.N) : FVec Ideal S5000x1 .f32 := iblk2 V c 2 t
abbrev biasBlk (c : Dev nD) (t : Fin cfg2.N) : FVec Ideal S1x64 .f32 := iblk2 V c 3 t
abbrev graphBlk (c : Dev nD) (t : Fin cfg2.N) : IVec S5000x1 32 := iblk2 V c 4 t

/-- Row p of tile s, among 20 tiles of 5000 rows: node s * 5000 + p. -/
abbrev tileRow (s : ℕ) (hs : s < 20) (p : Fin 5000) : Fin 100000 :=
  ⟨s * 5000 + p.val, by have := p.isLt; omega⟩

/-- The block index of every window at grid point t: the four tiled inputs sit at block (t, 0), the bias row and the
    two outputs at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Block t of the aggregated messages at (p, j) is the array at (t * 5000 + p, j). -/
theorem agg_read (c : Dev nD) (t : Fin cfg2.N) (ht : t.val < 20) (p : Fin 5000) (j : Fin 64) :
    aggBlk V c t (ix2 p j) = aggArr V c (ix2 (tileRow t.val ht p) j) := by
  obtain ⟨e0, e1, -⟩ := block_index t
  show V c main_v60 (((cfg2.win 0).blk t).view.emb (ix2 p j)) = V c main_v60 (ix2 (tileRow t.val ht p) j)
  refine congrArg (V c main_v60) (funext fun a => Fin.ext ?_)
  match a with
  | ⟨0, _⟩ => show win2_0.index t (0 : Fin 2) * 5000 + 1 * p.val = t.val * 5000 + p.val; omega
  | ⟨1, _⟩ => show win2_0.index t (1 : Fin 2) * 64 + 1 * j.val = j.val; omega

/-- Block t of the nodes' own features at (p, j) is the array at (t * 5000 + p, j). -/
theorem own_read (c : Dev nD) (t : Fin cfg2.N) (ht : t.val < 20) (p : Fin 5000) (j : Fin 64) :
    ownBlk V c t (ix2 p j) = ownArr V c (ix2 (tileRow t.val ht p) j) := by
  obtain ⟨-, -, e0, e1, -⟩ := block_index t
  show V c main_v47 (((cfg2.win 1).blk t).view.emb (ix2 p j)) = V c main_v47 (ix2 (tileRow t.val ht p) j)
  refine congrArg (V c main_v47) (funext fun a => Fin.ext ?_)
  match a with
  | ⟨0, _⟩ => show win2_1.index t (0 : Fin 2) * 5000 + 1 * p.val = t.val * 5000 + p.val; omega
  | ⟨1, _⟩ => show win2_1.index t (1 : Fin 2) * 64 + 1 * j.val = j.val; omega

/-- Block t of the degree column at (p, 0) is the array at (t * 5000 + p, 0). -/
theorem deg_read (c : Dev nD) (t : Fin cfg2.N) (ht : t.val < 20) (p : Fin 5000) :
    degBlk V c t (ix2 p 0) = degArr V c (ix2 (tileRow t.val ht p) 0) := by
  obtain ⟨-, -, -, -, e0, e1, -⟩ := block_index t
  show V c main_v26 (((cfg2.win 2).blk t).view.emb (ix2 p 0)) = V c main_v26 (ix2 (tileRow t.val ht p) 0)
  refine congrArg (V c main_v26) (funext fun a => Fin.ext ?_)
  match a with
  | ⟨0, _⟩ => show win2_2.index t (0 : Fin 2) * 5000 + 1 * p.val = t.val * 5000 + p.val; omega
  | ⟨1, _⟩ => show win2_2.index t (1 : Fin 2) * 1 + 1 * 0 = 0; omega

/-- The bias row's one block is the whole row. -/
theorem bias_read (c : Dev nD) (t : Fin cfg2.N) (j : Fin 64) :
    biasBlk V c t (ix2 0 j) = biasArr V c (ix2 0 j) := by
  obtain ⟨-, -, -, -, -, -, e0, e1, -⟩ := block_index t
  show V c main_v61 (((cfg2.win 3).blk t).view.emb (ix2 0 j)) = V c main_v61 (ix2 0 j)
  refine congrArg (V c main_v61) (funext fun a => Fin.ext ?_)
  match a with
  | ⟨0, _⟩ => show win2_3.index t (0 : Fin 2) * 1 + 1 * 0 = 0; omega
  | ⟨1, _⟩ => show win2_3.index t (1 : Fin 2) * 64 + 1 * j.val = j.val; omega

/-- Block t of the graph column at (p, 0) is the array at (t * 5000 + p, 0). -/
theorem graph_read (c : Dev nD) (t : Fin cfg2.N) (ht : t.val < 20) (p : Fin 5000) :
    graphBlk V c t (ix2 p 0) = graphArr V c (ix2 (tileRow t.val ht p) 0) := by
  obtain ⟨-, -, -, -, -, -, -, -, e0, e1, -⟩ := block_index t
  show V c main_v62 (((cfg2.win 4).blk t).view.emb (ix2 p 0)) = V c main_v62 (ix2 (tileRow t.val ht p) 0)
  refine congrArg (V c main_v62) (funext fun a => Fin.ext ?_)
  match a with
  | ⟨0, _⟩ => show win2_4.index t (0 : Fin 2) * 5000 + 1 * p.val = t.val * 5000 + p.val; omega
  | ⟨1, _⟩ => show win2_4.index t (1 : Fin 2) * 1 + 1 * 0 = 0; omega

/-- The tail inside tile t at (p, j) is the whole arrays' tail at node t * 5000 + p. -/
theorem tail_read (c : Dev nD) (t : Fin cfg2.N) (ht : t.val < 20) (p : Fin 5000) (j : Fin 64) :
    tileTail (aggBlk V c t) (ownBlk V c t) (degBlk V c t) (biasBlk V c t) p j
      = Cert.Spec.gcnTail (aggArr V c) (ownArr V c) (degArr V c) (biasArr V c) (ix2 (tileRow t.val ht p) j) := by
  unfold tileTail
  rw [agg_read V c t ht, own_read V c t ht, deg_read V c t ht, bias_read V c t]
  rfl

/-- Tile s's share of the sums at (g, j): over its 5000 nodes, the indicator (graph of the node = g) times the tail
    at (node, j). Past the 20 tiles it is zero. -/
def sumsTile (c : Dev nD) (s : ℕ) (g : Fin 128) (j : Fin 64) : EReal :=
  if hs : s < 20 then
    ∑ p : Fin 5000, Cert.Spec.hot (graphArr V c (ix2 (tileRow s hs p) 0)) (BitVec.ofNat 32 g.val)
      * Cert.Spec.gcnTail (aggArr V c) (ownArr V c) (degArr V c) (biasArr V c) (ix2 (tileRow s hs p) j)
  else 0

/-- Tile s's share of the counts at g: over its 5000 nodes, the indicator (graph of the node = g) times one. -/
def countsTile (c : Dev nD) (s : ℕ) (g : Fin 128) : EReal :=
  if hs : s < 20 then
    ∑ p : Fin 5000, Cert.Spec.hot (graphArr V c (ix2 (tileRow s hs p) 0)) (BitVec.ofNat 32 g.val)
      * Ideal.ofBits .bf16 0x3F80#16
  else 0

/-- Grid point t adds tile t's share to whatever the sums block held. -/
theorem sums_point (c : Dev nD) (t : Fin cfg2.N) (ht : t.val < 20) (acc : FVec Ideal S128x64 .f32)
    (g : Fin 128) (j : Fin 64) :
    k2_pay6 (F := Ideal) (degBlk V c t) (degBlk V c t) (aggBlk V c t) (ownBlk V c t) (biasBlk V c t) (graphBlk V c t) acc (ix2 g j)
      = acc (ix2 g j) + sumsTile V c t.val g j := by
  refine (sums_step_apply (degBlk V c t) (aggBlk V c t) (ownBlk V c t) (biasBlk V c t) (graphBlk V c t) acc g j).trans ?_
  unfold sumsTile
  rw [dif_pos ht]
  refine congrArg (acc (ix2 g j) + ·) (Finset.sum_congr rfl fun p _ => ?_)
  rw [graph_read V c t ht, tail_read V c t ht]

/-- Grid point t adds tile t's share to whatever the counts block held. -/
theorem counts_point (c : Dev nD) (t : Fin cfg2.N) (ht : t.val < 20) (acc : FVec Ideal S128x1 .f32) (g : Fin 128) :
    k2_pay1 (F := Ideal) (k2_pay5 (F := Ideal) (graphBlk V c t)) acc (ix2 g 0)
      = acc (ix2 g 0) + countsTile V c t.val g := by
  refine (counts_step_apply (graphBlk V c t) acc g).trans ?_
  unfold countsTile
  rw [dif_pos ht]
  refine congrArg (acc (ix2 g 0) + ·) (Finset.sum_congr rfl fun p _ => ?_)
  rw [graph_read V c t ht]

end Tiles

section Carried

/-- After grid point n the sums block holds, at (g, j), the shares of tiles 0 … n added up: point 0 clears the block
    and adds tile 0's share; every later point adds its tile's share to what the point before left. -/
theorem sums_inv (c : Dev nD) : ∀ (n : ℕ) (h : n < cfg2.N) (g : Fin 128) (j : Fin 64),
    (outsAt2 V c n h).1 (ix2 g j) = ∑ s ∈ Finset.range (n + 1), sumsTile V c s g j
  | 0, h, g, j => by
    rw [outsAt2_A V c ⟨0, h⟩ (Nat.zero_mod 20)]
    dsimp only
    refine (congrFun (sums_first (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr (Nat.zero_mod 20))
      (iblk2 V c 0 ⟨0, h⟩) (iblk2 V c 1 ⟨0, h⟩) (iblk2 V c 2 ⟨0, h⟩) (iblk2 V c 3 ⟨0, h⟩) (iblk2 V c 4 ⟨0, h⟩)) (ix2 g j)).trans ?_
    refine (sums_point V c ⟨0, h⟩ (by show (0 : ℕ) < 20; decide) (k2_pay2 (F := Ideal)) g j).trans ?_
    rw [Finset.sum_range_one]
    show Ideal.ofBits .f32 0x00000000#32 + _ = _
    rw [Ideal.ofBits_zero_f32, zero_add]
  | n + 1, h, g, j => by
    have hN : cfg2.N = 20 := N_2
    have hB : ¬(⟨n + 1, h⟩ : Fin cfg2.N).val % 20 = 0 := by dsimp only; omega
    rw [outsAt2_B V c ⟨n + 1, h⟩ hB]
    dsimp only
    refine (congrFun (sums_later (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
      (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun hh => hB ((hcond2_0 ⟨n + 1, h⟩).mp hh))
      (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
      (outsAt2 V c n (Nat.lt_of_succ_lt h)).1 (outsAt2 V c n (Nat.lt_of_succ_lt h)).2) (ix2 g j)).trans ?_
    refine (sums_point V c ⟨n + 1, h⟩ (by dsimp only; omega) (outsAt2 V c n (Nat.lt_of_succ_lt h)).1 g j).trans ?_
    rw [Finset.sum_range_succ _ (n + 1), sums_inv c n (Nat.lt_of_succ_lt h) g j]

/-- After grid point n the counts block holds, at g, the shares of tiles 0 … n added up. -/
theorem counts_inv (c : Dev nD) : ∀ (n : ℕ) (h : n < cfg2.N) (g : Fin 128),
    (outsAt2 V c n h).2 (ix2 g 0) = ∑ s ∈ Finset.range (n + 1), countsTile V c s g
  | 0, h, g => by
    rw [outsAt2_A V c ⟨0, h⟩ (Nat.zero_mod 20)]
    dsimp only
    refine (congrFun (counts_first (F := Ideal) c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩)
      (ms2_3 ⟨0, h⟩) (hs2_3 ⟨0, h⟩) (ms2_4 ⟨0, h⟩) (hs2_4 ⟨0, h⟩) (ms2_5 ⟨0, h⟩) (hs2_5 ⟨0, h⟩) (ms2_6 ⟨0, h⟩) (hs2_6 ⟨0, h⟩) ((hcond2_0 ⟨0, h⟩).mpr (Nat.zero_mod 20))
      (iblk2 V c 0 ⟨0, h⟩) (iblk2 V c 1 ⟨0, h⟩) (iblk2 V c 2 ⟨0, h⟩) (iblk2 V c 3 ⟨0, h⟩) (iblk2 V c 4 ⟨0, h⟩)) (ix2 g 0)).trans ?_
    refine (counts_point V c ⟨0, h⟩ (by show (0 : ℕ) < 20; decide) (k2_pay3 (F := Ideal)) g).trans ?_
    rw [Finset.sum_range_one]
    show Ideal.ofBits .f32 0x00000000#32 + _ = _
    rw [Ideal.ofBits_zero_f32, zero_add]
  | n + 1, h, g => by
    have hN : cfg2.N = 20 := N_2
    have hB : ¬(⟨n + 1, h⟩ : Fin cfg2.N).val % 20 = 0 := by dsimp only; omega
    rw [outsAt2_B V c ⟨n + 1, h⟩ hB]
    dsimp only
    refine (congrFun (counts_later (F := Ideal) c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩)
      (ms2_3 ⟨n + 1, h⟩) (hs2_3 ⟨n + 1, h⟩) (ms2_4 ⟨n + 1, h⟩) (hs2_4 ⟨n + 1, h⟩) (ms2_5 ⟨n + 1, h⟩) (hs2_5 ⟨n + 1, h⟩) (ms2_6 ⟨n + 1, h⟩) (hs2_6 ⟨n + 1, h⟩) (fun hh => hB ((hcond2_0 ⟨n + 1, h⟩).mp hh))
      (iblk2 V c 0 ⟨n + 1, h⟩) (iblk2 V c 1 ⟨n + 1, h⟩) (iblk2 V c 2 ⟨n + 1, h⟩) (iblk2 V c 3 ⟨n + 1, h⟩) (iblk2 V c 4 ⟨n + 1, h⟩)
      (outsAt2 V c n (Nat.lt_of_succ_lt h)).1 (outsAt2 V c n (Nat.lt_of_succ_lt h)).2) (ix2 g 0)).trans ?_
    refine (counts_point V c ⟨n + 1, h⟩ (by dsimp only; omega) (outsAt2 V c n (Nat.lt_of_succ_lt h)).2 g).trans ?_
    rw [Finset.sum_range_succ _ (n + 1), counts_inv c n (Nat.lt_of_succ_lt h) g]

/-- After the last point the sums block is the pooled sums: the 20 tiles of 5000 nodes are all 100000 nodes. -/
theorem sums_total (c : Dev nD) (h : 19 < cfg2.N) :
    (outsAt2 V c 19 h).1
      = Cert.Spec.poolSums (V c main_v60) (V c main_v47) (V c main_v26) (V c main_v61) (V c main_v62) := by
  funext i
  obtain ⟨g, j, rfl⟩ : ∃ (g : Fin 128) (j : Fin 64), i = ix2 g j := ⟨i 0, i 1, eq_ix2 i⟩
  refine (sums_inv V c 19 h g j).trans ?_
  have key := Cert.LibTiles.tile_sum 20 5000 (fun n : Fin 100000 =>
    Cert.Spec.hot (graphArr V c (ix2 n 0)) (BitVec.ofNat 32 g.val)
      * Cert.Spec.gcnTail (aggArr V c) (ownArr V c) (degArr V c) (biasArr V c) (ix2 n j))
  show ∑ s ∈ Finset.range 20, sumsTile V c s g j = _
  rw [Finset.sum_range]
  exact (Finset.sum_congr rfl fun s _ => by unfold sumsTile; rw [dif_pos s.isLt]).trans key.symm

/-- After the last point the counts block is the pooled counts. -/
theorem counts_total (c : Dev nD) (h : 19 < cfg2.N) :
    (outsAt2 V c 19 h).2 = Cert.Spec.poolCounts (V c main_v62) := by
  funext i
  obtain ⟨g, z, rfl⟩ : ∃ (g : Fin 128) (z : Fin 1), i = ix2 g z := ⟨i 0, i 1, eq_ix2 i⟩
  obtain rfl : z = 0 := Subsingleton.elim _ _
  refine (counts_inv V c 19 h g).trans ?_
  have key := Cert.LibTiles.tile_sum 20 5000 (fun n : Fin 100000 =>
    Cert.Spec.hot (graphArr V c (ix2 n 0)) (BitVec.ofNat 32 g.val) * Ideal.ofBits .bf16 0x3F80#16)
  show ∑ s ∈ Finset.range 20, countsTile V c s g = _
  rw [Finset.sum_range]
  exact (Finset.sum_congr rfl fun s _ => by unfold countsTile; rw [dif_pos s.isLt]).trans key.symm

end Carried

section WriteBack

/-- The only write-back of the sums, at the last grid point, writes the pooled sums: the block at (0, 0) is the whole
    array, and what the block holds then is `sums_total`. -/
theorem sums_flushed (c : Dev nD) (t : Fin cfg2.N) (hf : (cfg2.win 5).flush t = true) :
    (dat2 (F := Ideal) V c).flushed 5 t = ((cfg2.win 5).blk t).view.read (Elt Ideal)
      (Cert.Spec.poolSums (V c main_v60) (V c main_v47) (V c main_v26) (V c main_v61) (V c main_v62)) := by
  have hN : cfg2.N = 20 := N_2
  obtain ⟨e0, e1⟩ : win2_5.index t (0 : Fin 2) = 0 ∧ win2_5.index t (1 : Fin 2) = 0 :=
    ⟨(block_index t).2.2.2.2.2.2.2.2.2.2.1, (block_index t).2.2.2.2.2.2.2.2.2.2.2.1⟩
  obtain ⟨n, hn⟩ := t
  have h19 : n = 19 := by have := (flush2_5 ⟨n, hn⟩).mp hf; dsimp only at this; omega
  subst h19
  show (cfg2.win 5).cut (grid2.coords ⟨19, hn⟩) ((dat2 (F := Ideal) V c).after 5 ⟨19, hn⟩) = _
  rw [after2_5, sums_total V c hn]
  have hz' : (fun a => win2_5.index ⟨19, hn⟩ a * main_v63_0.ty.shape.size a) = fun _ => 0 := funext fun a => by
    match a with
    | ⟨0, _⟩ => show win2_5.index ⟨19, hn⟩ (0 : Fin 2) * 128 = 0; rw [e0]
    | ⟨1, _⟩ => show win2_5.index ⟨19, hn⟩ (1 : Fin 2) * 64 = 0; rw [e1]
  exact (Memref.read_access_unit_zero (Elt Ideal) main_v63_0 hz' (fun a => by rw [congrFun hz' a]; simp) _).symm

/-- The only write-back of the counts, at the last grid point, writes the pooled counts. -/
theorem counts_flushed (c : Dev nD) (t : Fin cfg2.N) (hf : (cfg2.win 6).flush t = true) :
    (dat2 (F := Ideal) V c).flushed 6 t = ((cfg2.win 6).blk t).view.read (Elt Ideal)
      (Cert.Spec.poolCounts (V c main_v62)) := by
  have hN : cfg2.N = 20 := N_2
  obtain ⟨e0, e1⟩ : win2_6.index t (0 : Fin 2) = 0 ∧ win2_6.index t (1 : Fin 2) = 0 :=
    ⟨(block_index t).2.2.2.2.2.2.2.2.2.2.2.2.1, (block_index t).2.2.2.2.2.2.2.2.2.2.2.2.2⟩
  obtain ⟨n, hn⟩ := t
  have h19 : n = 19 := by have := (flush2_6 ⟨n, hn⟩).mp hf; dsimp only at this; omega
  subst h19
  show (cfg2.win 6).cut (grid2.coords ⟨19, hn⟩) ((dat2 (F := Ideal) V c).after 6 ⟨19, hn⟩) = _
  rw [after2_6, counts_total V c hn]
  have hz' : (fun a => win2_6.index ⟨19, hn⟩ a * main_v63_1.ty.shape.size a) = fun _ => 0 := funext fun a => by
    match a with
    | ⟨0, _⟩ => show win2_6.index ⟨19, hn⟩ (0 : Fin 2) * 128 = 0; rw [e0]
    | ⟨1, _⟩ => show win2_6.index ⟨19, hn⟩ (1 : Fin 2) * 1 = 0; rw [e1]
  exact (Memref.read_access_unit_zero (Elt Ideal) main_v63_1 hz' (fun a => by rw [congrFun hz' a]; simp) _).symm

/-- The last grid point. -/
abbrev lastPoint : Fin cfg2.N := ⟨19, by rw [show cfg2.N = 20 from N_2]; decide⟩

end WriteBack

/-- After the run of the third kernel from contents V, window 5 holds the per-graph sums. -/
theorem pool_sums_value (c : Dev nD) :
    (dat2 (F := Ideal) V c).arrAt 5 cfg2.N
      = Cert.Spec.poolSums (V c main_v60) (V c main_v47) (V c main_v26) (V c main_v61) (V c main_v62) :=
  (dat2 (F := Ideal) V c).arrAt_eq_of_cover 5 _ (sums_flushed V c) fun i =>
    ⟨lastPoint, (flush2_5 lastPoint).mpr rfl, by
      show i ∈ ((View.whole main_v63_0).slice (win2_5.rect lastPoint)).set
      rw [View.set_slice_whole, Rect.mem_set_unit]
      have e0 : win2_5.index lastPoint (0 : Fin 2) = 0 := (block_index lastPoint).2.2.2.2.2.2.2.2.2.2.1
      have e1 : win2_5.index lastPoint (1 : Fin 2) = 0 := (block_index lastPoint).2.2.2.2.2.2.2.2.2.2.2.1
      have h0 : (i 0 : Nat) < 128 := (i 0).isLt
      have h1 : (i 1 : Nat) < 64 := (i 1).isLt
      intro a
      match a with
      | ⟨0, _⟩ =>
        show win2_5.index lastPoint (0 : Fin 2) * 128 ≤ (i 0 : Nat) ∧ (i 0 : Nat) < win2_5.index lastPoint (0 : Fin 2) * 128 + 128
        omega
      | ⟨1, _⟩ =>
        show win2_5.index lastPoint (1 : Fin 2) * 64 ≤ (i 1 : Nat) ∧ (i 1 : Nat) < win2_5.index lastPoint (1 : Fin 2) * 64 + 64
        omega⟩

/-- After the run of the third kernel from contents V, window 6 holds the per-graph counts. -/
theorem pool_counts_value (c : Dev nD) :
    (dat2 (F := Ideal) V c).arrAt 6 cfg2.N = Cert.Spec.poolCounts (V c main_v62) :=
  (dat2 (F := Ideal) V c).arrAt_eq_of_cover 6 _ (counts_flushed V c) fun i =>
    ⟨lastPoint, (flush2_6 lastPoint).mpr rfl, by
      show i ∈ ((View.whole main_v63_1).slice (win2_6.rect lastPoint)).set
      rw [View.set_slice_whole, Rect.mem_set_unit]
      have e0 : win2_6.index lastPoint (0 : Fin 2) = 0 := (block_index lastPoint).2.2.2.2.2.2.2.2.2.2.2.2.1
      have e1 : win2_6.index lastPoint (1 : Fin 2) = 0 := (block_index lastPoint).2.2.2.2.2.2.2.2.2.2.2.2.2
      have h0 : (i 0 : Nat) < 128 := (i 0).isLt
      have h1 : (i 1 : Nat) < 1 := (i 1).isLt
      intro a
      match a with
      | ⟨0, _⟩ =>
        show win2_6.index lastPoint (0 : Fin 2) * 128 ≤ (i 0 : Nat) ∧ (i 0 : Nat) < win2_6.index lastPoint (0 : Fin 2) * 128 + 128
        omega
      | ⟨1, _⟩ =>
        show win2_6.index lastPoint (1 : Fin 2) * 1 ≤ (i 1 : Nat) ∧ (i 1 : Nat) < win2_6.index lastPoint (1 : Fin 2) * 1 + 1
        omega⟩

end Cert.KernelIdeal.KPool

end
-- ==== Proof.KMlp.lean ====
/-
  The fourth kernel's output array. Its grid is one point that loads every operand whole and writes the whole
  128 x 1 output: Spec.mlpOut of the six input arrays.
-/
import proofs.«426199_j76587856822555_1_alg».proof.Proof.Gen.KernelIdeal.Frame
import proofs.«426199_j76587856822555_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KMlp

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The zero offsets of a whole block, as a constant function. -/
theorem offsets_zero : (![0, 0] : Fin 2 → Nat) = fun _ => 0 := funext fun a => by fin_cases a <;> rfl

/-! ## The hidden layer's product: rows of the pooled means times columns of the weights -/

theorem lhs_hidden_0 (i : S128x64.Idx) (q : dot_S128x64_S64x64_S128x64_1_0_0_1_n_n.contr.Idx) :
    (dot_S128x64_S64x64_S128x64_1_0_0_1_n_n.lhsIdx i q 0).val = (i 0).val := by
  unfold DotDims.lhsIdx
  rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
  rfl
theorem lhs_hidden_1 (i : S128x64.Idx) (q : dot_S128x64_S64x64_S128x64_1_0_0_1_n_n.contr.Idx) :
    (dot_S128x64_S64x64_S128x64_1_0_0_1_n_n.lhsIdx i q 1).val = (q ⟨0, by decide⟩).val :=
  dot_S128x64_S64x64_S128x64_1_0_0_1_n_n.lhsIdx_val_of_single rfl i q
theorem rhs_hidden_0 (i : S128x64.Idx) (q : dot_S128x64_S64x64_S128x64_1_0_0_1_n_n.contr.Idx) :
    (dot_S128x64_S64x64_S128x64_1_0_0_1_n_n.rhsIdx i q 0).val = (q ⟨0, by decide⟩).val :=
  dot_S128x64_S64x64_S128x64_1_0_0_1_n_n.rhsIdx_val_of_single rfl i q
theorem rhs_hidden_1 (i : S128x64.Idx) (q : dot_S128x64_S64x64_S128x64_1_0_0_1_n_n.contr.Idx) :
    (dot_S128x64_S64x64_S128x64_1_0_0_1_n_n.rhsIdx i q 1).val = (i 1).val := by
  unfold DotDims.rhsIdx
  rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
  rfl

/-- The product into a zero accumulator at (g, k): the sum over the 64 features d of l (g, d) * r (d, k). -/
theorem hidden_matmul_apply (l : FVec Ideal S128x64 .bf16) (r : FVec Ideal S64x64 .bf16) (g : Fin 128) (k : Fin 64) :
    matmul dot_S128x64_S64x64_S128x64_1_0_0_1_n_n none l r (constant (F := Ideal) S128x64 .f32 0x00000000#32) (ix2 g k)
      = ∑ d : Fin 64, l (ix2 g d) * r (ix2 d k) := by
  refine (Ideal.matmul_constant_zero_apply dot_S128x64_S64x64_S128x64_1_0_0_1_n_n none l r (ix2 g k)).trans ?_
  rw [← Equiv.sum_comp (ValueIdx.contrEquiv1 dot_S128x64_S64x64_S128x64_1_0_0_1_n_n 64 rfl rfl).symm]
  refine Finset.sum_congr rfl fun d _ => ?_
  have hd := ValueIdx.contrEquiv1_symm_val dot_S128x64_S64x64_S128x64_1_0_0_1_n_n 64 rfl rfl d
  have el : dot_S128x64_S64x64_S128x64_1_0_0_1_n_n.lhsIdx (ix2 g k) ((ValueIdx.contrEquiv1 dot_S128x64_S64x64_S128x64_1_0_0_1_n_n 64 rfl rfl).symm d) = ix2 g d := funext fun a => Fin.ext (by
    match a with
    | ⟨0, _⟩ => exact lhs_hidden_0 _ _
    | ⟨1, _⟩ => exact (lhs_hidden_1 _ _).trans hd)
  have er : dot_S128x64_S64x64_S128x64_1_0_0_1_n_n.rhsIdx (ix2 g k) ((ValueIdx.contrEquiv1 dot_S128x64_S64x64_S128x64_1_0_0_1_n_n 64 rfl rfl).symm d) = ix2 d k := funext fun a => Fin.ext (by
    match a with
    | ⟨0, _⟩ => exact (rhs_hidden_0 _ _).trans hd
    | ⟨1, _⟩ => exact rhs_hidden_1 _ _)
  rw [el, er]

/-! ## The layout operations of the body, each at one entry -/

/-- A 128 x 1 column spread over 64 columns reads, at (g, k), the column's entry g. -/
theorem column_spread_apply (v : FVec Ideal S128x1 .f32) (g : Fin 128) (k : Fin 64) :
    broadcastTo S128x64 v broadcasts_S128x1_S128x64 (ix2 g k) = v (ix2 g (0 : Fin 1)) := by
  refine broadcastTo_apply v broadcasts_S128x1_S128x64 (ix2 g k) (ix2 g (0 : Fin 1)) fun ax => ?_
  match ax with
  | ⟨0, _⟩ => rfl
  | ⟨1, _⟩ => rfl

/-- The sum over the 64 columns of row g. -/
theorem row_sum_apply (src : FVec Ideal S128x64 .f32) (g : Fin 128)
    (hacc : (0x00000000#32 : BitVec 32) = 0x00000000#32) :
    multiReduction (F := Ideal) .add [1] S128 src 0x00000000#32 reduces_S128x64_S128 (.inl rfl) hacc (ix1 g)
      = ∑ k : Fin 64, src (ix2 g k) := by
  refine (Ideal.multiReduction_add_single src 0x00000000#32 reduces_S128x64_S128 (.inl rfl) hacc (ix1 g)).trans ?_
  refine Finset.sum_congr rfl fun k _ => congrArg src (funext fun a => ?_)
  match a with
  | ⟨0, _⟩ => exact Fin.ext rfl
  | ⟨1, _⟩ => exact Fin.ext rfl

/-- A vector of 128 entries laid out as a 128 x 1 column reads, at (g, 0), entry g. -/
theorem as_column_apply (v : FVec Ideal S128 .f32) (g : Fin 128) :
    shapeCast S128x1 v shapeCasts_S128_S128x1 (ix2 g (0 : Fin 1)) = v (ix1 g) :=
  shapeCast_apply v shapeCasts_S128_S128x1 (ix2 g (0 : Fin 1)) (ix1 g) (by
    rw [Shape.rowMajor_val_two, Shape.rowMajor_val_one]
    show g.val = g.val * 1 + 0
    omega)

/-! ## The body's arithmetic at one graph -/

/-- The stored value at (g, 0) is the per-graph output: the order of the operations is the body's own. -/
theorem payload_apply (x0 : FVec Ideal S128x64 .f32) (x1 : FVec Ideal S128x1 .f32) (x2 : FVec Ideal S64x64 .bf16)
    (x3 x4 : FVec Ideal S1x64 .f32) (x5 : FVec Ideal S1x1 .f32) (g : Fin 128) :
    k3_pay1 (F := Ideal) x0 x1 x2 x3 x4 x5 (ix2 g (0 : Fin 1)) = Cert.Spec.mlpOut x0 x1 x2 x3 x4 x5 (ix2 g (0 : Fin 1)) := by
  unfold k3_pay1
  simp only [shapeCast_self]
  rw [addf_apply, as_column_apply, row_sum_apply, broadcastTo_1b_ab_apply]
  unfold Cert.Spec.mlpOut Cert.Spec.mlpHidden
  refine congrArg (· + x5 (ix2 0 0)) (Finset.sum_congr rfl fun k _ => ?_)
  rw [mulf_apply, maximumf_apply, addf_apply, hidden_matmul_apply, broadcastTo_1b_ab_apply, broadcastTo_1b_ab_apply,
    broadcast_apply]
  refine congrArg (fun s => max (s + x3 (ix2 0 k)) _ * x4 (ix2 0 k)) (Finset.sum_congr rfl fun d _ => ?_)
  rw [truncf_apply, divf_apply, column_spread_apply, maximumf_apply, broadcast_apply]
  rfl

/-- The stored value as a whole column: the per-graph output of the loaded arrays. -/
theorem payload_eq (x0 : FVec Ideal S128x64 .f32) (x1 : FVec Ideal S128x1 .f32) (x2 : FVec Ideal S64x64 .bf16)
    (x3 x4 : FVec Ideal S1x64 .f32) (x5 : FVec Ideal S1x1 .f32) :
    k3_pay1 (F := Ideal) x0 x1 x2 x3 x4 x5 = Cert.Spec.mlpOut x0 x1 x2 x3 x4 x5 := by
  funext j
  obtain ⟨g, u, rfl⟩ : ∃ (g : Fin 128) (u : Fin 1), j = ix2 g u := ⟨j 0, j 1, eq_ix2 j⟩
  obtain rfl : u = 0 := Subsingleton.elim _ _
  exact payload_apply x0 x1 x2 x3 x4 x5 g

/-! ## From the one block to the array -/

/-- Every window's block index is (0, 0) at every point of the grid. -/
theorem block_index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Window 0's block at the one point is the whole of the pooled sums. -/
theorem block0_eq (c : Dev nD) (t : Fin cfg3.N) :
    (iblk3 V c 0 t : S128x64.Idx → Elt Ideal .f32) = V c main_v63_0 := by
  obtain ⟨e00, e01, e10, e11, e20, e21, e30, e31, e40, e41, e50, e51, e60, e61⟩ := block_index_zero t
  funext y
  unfold iblk3
  rw [View.read_apply]
  show V c main_v63_0 _ = V c main_v63_0 y
  refine congrArg (V c main_v63_0) (funext fun a => Fin.ext ?_)
  match a with
  | ⟨0, _⟩ => show win3_0.index t (0 : Fin 2) * 128 + 1 * (y 0).val = (y 0).val; omega
  | ⟨1, _⟩ => show win3_0.index t (1 : Fin 2) * 64 + 1 * (y 1).val = (y 1).val; omega

/-- Window 1's block at the one point is the whole of the pooled counts. -/
theorem block1_eq (c : Dev nD) (t : Fin cfg3.N) :
    (iblk3 V c 1 t : S128x1.Idx → Elt Ideal .f32) = V c main_v63_1 := by
  obtain ⟨e00, e01, e10, e11, e20, e21, e30, e31, e40, e41, e50, e51, e60, e61⟩ := block_index_zero t
  funext y
  unfold iblk3
  rw [View.read_apply]
  show V c main_v63_1 _ = V c main_v63_1 y
  refine congrArg (V c main_v63_1) (funext fun a => Fin.ext ?_)
  match a with
  | ⟨0, _⟩ => show win3_1.index t (0 : Fin 2) * 128 + 1 * (y 0).val = (y 0).val; omega
  | ⟨1, _⟩ => show win3_1.index t (1 : Fin 2) * 1 + 1 * (y 1).val = (y 1).val; omega

/-- Window 2's block at the one point is the whole of the hidden layer's weights. -/
theorem block2_eq (c : Dev nD) (t : Fin cfg3.N) :
    (iblk3 V c 2 t : S64x64.Idx → Elt Ideal .bf16) = V c main_v64 := by
  obtain ⟨e00, e01, e10, e11, e20, e21, e30, e31, e40, e41, e50, e51, e60, e61⟩ := block_index_zero t
  funext y
  unfold iblk3
  rw [View.read_apply]
  show V c main_v64 _ = V c main_v64 y
  refine congrArg (V c main_v64) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- Window 3's block at the one point is the whole of the hidden layer's bias row. -/
theorem block3_eq (c : Dev nD) (t : Fin cfg3.N) :
    (iblk3 V c 3 t : S1x64.Idx → Elt Ideal .f32) = V c main_v65 := by
  obtain ⟨e00, e01, e10, e11, e20, e21, e30, e31, e40, e41, e50, e51, e60, e61⟩ := block_index_zero t
  funext y
  unfold iblk3
  rw [View.read_apply]
  show V c main_v65 _ = V c main_v65 y
  refine congrArg (V c main_v65) (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Window 4's block at the one point is the whole of the output layer's weight row. -/
theorem block4_eq (c : Dev nD) (t : Fin cfg3.N) :
    (iblk3 V c 4 t : S1x64.Idx → Elt Ideal .f32) = V c main_v66 := by
  obtain ⟨e00, e01, e10, e11, e20, e21, e30, e31, e40, e41, e50, e51, e60, e61⟩ := block_index_zero t
  funext y
  unfold iblk3
  rw [View.read_apply]
  show V c main_v66 _ = V c main_v66 y
  refine congrArg (V c main_v66) (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-- Window 5's block at the one point is the whole of the output layer's bias. -/
theorem block5_eq (c : Dev nD) (t : Fin cfg3.N) :
    (iblk3 V c 5 t : S1x1.Idx → Elt Ideal .f32) = V c main_v67 := by
  obtain ⟨e00, e01, e10, e11, e20, e21, e30, e31, e40, e41, e50, e51, e60, e61⟩ := block_index_zero t
  funext y
  unfold iblk3
  rw [View.read_apply]
  show V c main_v67 _ = V c main_v67 y
  refine congrArg (V c main_v67) (funext fun a => Fin.ext ?_)
  match a with
  | ⟨0, _⟩ => show win3_5.index t (0 : Fin 2) * 1 + 1 * (y 0).val = (y 0).val; omega
  | ⟨1, _⟩ => show win3_5.index t (1 : Fin 2) * 1 + 1 * (y 1).val = (y 1).val; omega

/-- What the one point writes back is the whole per-graph output read through its block. -/
theorem flushed_eq (c : Dev nD) (t : Fin cfg3.N) :
    (dat3 (F := Ideal) V c).flushed 6 t = ((cfg3.win 6).blk t).view.read (Elt Ideal)
      (Cert.Spec.mlpOut (V c main_v63_0) (V c main_v63_1) (V c main_v64) (V c main_v65) (V c main_v66) (V c main_v67)) := by
  show (cfg3.win 6).cut (grid3.coords t) ((dat3 V c).after 6 t) = _
  rw [after3_6]
  unfold out3_6
  rw [View.canon_unit_zero offsets_zero]
  simp only [View.ld_unit_zero (S := S128x64) offsets_zero, View.ld_unit_zero (S := S128x1) offsets_zero,
    View.ld_unit_zero (S := S64x64) offsets_zero, View.ld_unit_zero (S := S1x64) offsets_zero,
    View.ld_unit_zero (S := S1x1) offsets_zero]
  rw [payload_eq, block0_eq V c t, block1_eq V c t, block2_eq V c t, block3_eq V c t, block4_eq V c t, block5_eq V c t]
  obtain ⟨e00, e01, e10, e11, e20, e21, e30, e31, e40, e41, e50, e51, e60, e61⟩ := block_index_zero t
  generalize Cert.Spec.mlpOut (V c main_v63_0) (V c main_v63_1) (V c main_v64) (V c main_v65) (V c main_v66) (V c main_v67) = G
  funext y
  show G y = G (((cfg3.win 6).blk t).view.emb y)
  refine congrArg G (funext fun a => Fin.ext ?_)
  match a with
  | ⟨0, _⟩ => show (y 0).val = win3_6.index t (0 : Fin 2) * 128 + 1 * (y 0).val; omega
  | ⟨1, _⟩ => show (y 1).val = win3_6.index t (1 : Fin 2) * 1 + 1 * (y 1).val; omega

/-- After the run of the fourth kernel from contents V, its output array (window 6) is the per-graph output. -/
theorem mlp_value (c : Dev nD) :
    (dat3 (F := Ideal) V c).arrAt 6 cfg3.N
      = Cert.Spec.mlpOut (V c main_v63_0) (V c main_v63_1) (V c main_v64) (V c main_v65) (V c main_v66) (V c main_v67) := by
  refine (dat3 (F := Ideal) V c).arrAt_eq_of_cover 6 _ (fun t _ => flushed_eq V c t) fun i => ?_
  have hN : 0 < cfg3.N := by decide
  obtain ⟨e00, e01, e10, e11, e20, e21, e30, e31, e40, e41, e50, e51, e60, e61⟩ := block_index_zero ⟨0, hN⟩
  refine ⟨⟨0, hN⟩, flush3_6 _, ?_⟩
  show i ∈ ((View.whole main_v68).slice (win3_6.rect ⟨0, hN⟩)).set
  rw [View.set_slice_whole, Rect.mem_set_unit]
  intro a
  have h0 : (i 0 : Nat) < 128 := (i 0).isLt
  have h1 : (i 1 : Nat) < 1 := (i 1).isLt
  match a with
  | ⟨0, _⟩ => show win3_6.index ⟨0, hN⟩ (0 : Fin 2) * 128 ≤ (i 0 : Nat) ∧ (i 0 : Nat) < win3_6.index ⟨0, hN⟩ (0 : Fin 2) * 128 + 128; omega
  | ⟨1, _⟩ => show win3_6.index ⟨0, hN⟩ (1 : Fin 2) * 1 ≤ (i 1 : Nat) ∧ (i 1 : Nat) < win3_6.index ⟨0, hN⟩ (1 : Fin 2) * 1 + 1; omega

end Cert.KernelIdeal.KMlp

end
-- ==== Proof.RefStages.lean ====
/-
  The reference program's repeated stretches, each as one function of the arrays it starts from: the message
  aggregation over the edges, a layer's tail (self term, bias, clip at zero), a layer's linear map, the per-graph sums
  and counts, and the head (mean, hidden layer, output). The reference's own intermediate values are these functions
  applied to one another, by unfolding.
-/
import proofs.«426199_j76587856822555_1_alg».proof.Proof.Gen.ReferenceIdeal.Read

noncomputable section

namespace Cert.RefStages

open Cert.ReferenceIdeal Cert.ReferenceIdeal.Gen Cert.ReferenceIdeal.Read
open Idealize.ShloMosaic Idealize.ShloMosaic.TcCoe Idealize.ShloMosaic.ValueIdx

variable {F : FTy → Type} [FloatOps F]

/-- The all-zero 100000 x 64 array the reference scatters into and clips against. -/
def zeros : FVec F S100000x64 .f32 := (broadcastInDim S100000x64 ![] bcast_S_S100000x64 (constant (F := F) S_ .f32 0x00000000#32))

/-- Messages aggregated over the edges: row dst e receives row srcN e of h scaled by nrm e, summed over the edges e. -/
def agg (h : FVec F S100000x64 .f32) (srcN dst : IVec S3200000 32) (nrm : FVec F S3200000 .f32) : FVec F S100000x64 .f32 :=
  Host.scatterAdd scatter_S100000x64_S3200000x1_S3200000x64_1_0_0_1 (zeros (F := F))
    (broadcastInDim S3200000x1 ![0] bcast_S3200000_S3200000x1_0 dst)
    (mulf (Host.gather gather_S100000x64_S3200000x1_S3200000x64_1_0_n_n_0_1_164 h (broadcastInDim S3200000x1 ![0] bcast_S3200000_S3200000x1_0 srcN))
      (broadcastInDim S3200000x64 ![0, 1] bcast_S3200000x1_S3200000x64_0_1 (broadcastInDim S3200000x1 ![0] bcast_S3200000_S3200000x1_0 nrm)))

/-- A layer's tail: aggregated messages plus the self term h * dinv^2, plus the bias, clipped below at zero. -/
def tail (ag h : FVec F S100000x64 .f32) (dinv : FVec F S100000 .f32) (b : FVec F S64 .f32) : FVec F S100000x64 .f32 :=
  maximumf (addf (addf ag (mulf h (broadcastInDim S100000x64 ![0, 1] bcast_S100000x1_S100000x64_0_1 (broadcastInDim S100000x1 ![0] bcast_S100000_S100000x1_0 (mulf dinv dinv)))))
    (broadcastInDim S100000x64 ![0, 1] bcast_S1x64_S100000x64_0_1 (broadcastInDim S1x64 ![1] bcast_S64_S1x64_1 b))) (zeros (F := F))

/-- A layer's tail times the next layer's 64 x 64 weights. -/
def layer (ag h : FVec F S100000x64 .f32) (dinv : FVec F S100000 .f32) (b : FVec F S64 .f32) (w : FVec F S64x64 .f32) : FVec F S100000x64 .f32 :=
  Host.dotGeneral dot_S100000x64_S64x64_S100000x64_1_0_0_1_n_n none (tail ag h dinv b) w

/-- Per-graph sums of node rows: row batch n receives row n of x. -/
def sums (x : FVec F S100000x64 .f32) (batch : IVec S100000 32) : FVec F S128x64 .f32 :=
  Host.scatterAdd scatter_S128x64_S100000x1_S100000x64_1_0_0_1 (broadcastInDim S128x64 ![] bcast_S_S128x64 (constant (F := F) S_ .f32 0x00000000#32))
    (broadcastInDim S100000x1 ![0] bcast_S100000_S100000x1_0 batch) x

/-- Per-graph node counts: entry batch n receives one. -/
def counts (batch : IVec S100000 32) : FVec F S128 .f32 :=
  Host.scatterAdd scatter_S128_S100000x1_S100000_n_0_0_1 (broadcastInDim S128 ![] bcast_S_S128 (constant (F := F) S_ .f32 0x00000000#32))
    (broadcastInDim S100000x1 ![0] bcast_S100000_S100000x1_0 batch) (broadcastInDim S100000 ![] bcast_S_S100000 (constant (F := F) S_ .f32 0x3F800000#32))

/-- The head: the per-graph mean, a hidden layer clipped at zero, the output weights and bias, as a flat array. -/
def head (s : FVec F S128x64 .f32) (cn : FVec F S128 .f32) (x9 : FVec F S64x64 .f32) (x10 : FVec F S64 .f32)
    (x11 : FVec F S64x1 .f32) (x12 : FVec F S1 .f32) : FVec F S128 .f32 :=
  shapeCast _ (addf (Host.dotGeneral dot_S128x64_S64x1_S128x1_1_0_0_1_n_n none
      (maximumf (addf (Host.dotGeneral dot_S128x64_S64x64_S128x64_1_0_0_1_n_n none
          (Host.divf s (broadcastInDim S128x64 ![0, 1] bcast_S128x1_S128x64_0_1 (broadcastInDim S128x1 ![0] bcast_S128_S128x1_0
            (maximumf cn (broadcastInDim S128 ![] bcast_S_S128 (constant (F := F) S_ .f32 0x3F800000#32)))))) x9)
        (broadcastInDim S128x64 ![0, 1] bcast_S1x64_S128x64_0_1 (broadcastInDim S1x64 ![1] bcast_S64_S1x64_1 x10)))
        (broadcastInDim S128x64 ![] bcast_S_S128x64 (constant (F := F) S_ .f32 0x00000000#32))) x11)
    (broadcastInDim S128x1 ![0, 1] bcast_S1x1_S128x1_0_1 (broadcastInDim S1x1 ![1] bcast_S1_S1x1_1 x12))) shapeCasts_S128x1_S128

section Unfold
variable (x0 : IVec S100000 32) (x1 : IVec S2x3200000 32) (x2 : FVec F S3200000 .f32) (x3 : IVec S100000 32)
  (x4 : FVec F S1000x64 .f32) (x5 : FVec F S64x64 .f32) (x6 : FVec F S64 .f32) (x7 : FVec F S64x64 .f32) (x8 : FVec F S64 .f32)
  (x9 : FVec F S64x64 .f32) (x10 : FVec F S64 .f32) (x11 : FVec F S64x1 .f32) (x12 : FVec F S1 .f32)

/-- The first layer's aggregated messages. -/
theorem v46_eq : val_main_v46 (F := F) x0 x1 x2 x4 x5
    = agg (val_main_v11 (F := F) x0 x4 x5) (val_main_v38 (F := F) x1) (val_main_v3 (F := F) x1) (val_main_v33 (F := F) x1 x2) := rfl

/-- The second layer's input features. -/
theorem v56_eq : val_main_v56 (F := F) x0 x1 x2 x4 x5 x6 x7
    = layer (val_main_v46 (F := F) x0 x1 x2 x4 x5) (val_main_v11 (F := F) x0 x4 x5) (val_main_v17 (F := F) x1 x2) x6 x7 := rfl

/-- The second layer's aggregated messages. -/
theorem v91_eq : val_main_v91 (F := F) x0 x1 x2 x4 x5 x6 x7
    = agg (val_main_v56 (F := F) x0 x1 x2 x4 x5 x6 x7) (val_main_v38 (F := F) x1) (val_main_v3 (F := F) x1) (val_main_v33 (F := F) x1 x2) := rfl

/-- The second layer's output. -/
theorem v100_eq : val_main_v100 (F := F) x0 x1 x2 x4 x5 x6 x7 x8
    = tail (val_main_v91 (F := F) x0 x1 x2 x4 x5 x6 x7) (val_main_v56 (F := F) x0 x1 x2 x4 x5 x6 x7) (val_main_v17 (F := F) x1 x2) x8 := rfl

/-- The per-graph sums. -/
theorem v103_eq : val_main_v103 (F := F) x0 x1 x2 x3 x4 x5 x6 x7 x8 = sums (val_main_v100 (F := F) x0 x1 x2 x4 x5 x6 x7 x8) x3 := rfl

/-- The per-graph counts. -/
theorem v107_eq : val_main_v107 (F := F) x3 = counts (F := F) x3 := rfl

/-- The result. -/
theorem v122_eq : val_main_v122 (F := F) x0 x1 x2 x3 x4 x5 x6 x7 x8 x9 x10 x11 x12
    = head (val_main_v103 (F := F) x0 x1 x2 x3 x4 x5 x6 x7 x8) (val_main_v107 (F := F) x3) x9 x10 x11 x12 := rfl

end Unfold

end Cert.RefStages

end
-- ==== Proof.MPool.lean ====
/-
  Per-graph sums and counts written with indicators, against the reference's accumulating scatters: the update of
  node n lands on graph g exactly when the graph word of n, read signed, is g.
-/
import proofs.«426199_j76587856822555_1_alg».proof.Proof.Gen.ReferenceIdeal.Read
import proofs.«426199_j76587856822555_1_alg».proof.Proof.RefStages
import proofs.«426199_j76587856822555_1_alg».proof.Proof.Spec
import Idealize.ShloMosaic.Lib.ValueLayout

noncomputable section

namespace Cert.MPool

open Cert.ReferenceIdeal Cert.ReferenceIdeal.Gen Cert.ReferenceIdeal.Read
open Idealize.ShloMosaic Idealize.ShloMosaic.TcCoe Idealize.ShloMosaic.ValueIdx
open Cert.RefStages

/-- The record of the per-graph row sums: the operand is 128 x 64, one graph word per node, updates 100000 x 64. -/
abbrev dS := scatter_S128x64_S100000x1_S100000x64_1_0_0_1

/-- On the graph axis the window of update u starts at the graph word of node u 0, read signed. -/
theorem dS_start0 (u : S100000x64.Idx) (idx : IVec S100000x1 32) :
    dS.start u idx 0 = (idx (ix2 (u 0) 0)).toInt := by
  unfold ScatterDims.start
  rw [dif_pos (by decide)]
  congr 2
  funext b
  match b with
  | ⟨0, _⟩ => rfl
  | ⟨1, _⟩ => rfl

/-- On the feature axis every window starts at zero. -/
theorem dS_start1 (u : S100000x64.Idx) (idx : IVec S100000x1 32) :
    dS.start u idx 1 = 0 := by
  unfold ScatterDims.start
  rw [dif_neg (by decide)]

/-- The graph axis is an inserted axis: the window coordinate there is zero. -/
theorem dS_window0 (u : S100000x64.Idx) : dS.window u 0 = 0 := by
  unfold ScatterDims.window
  rw [dif_neg (by decide)]

/-- On the feature axis the window coordinate is the update's column. -/
theorem dS_window1 (u : S100000x64.Idx) : dS.window u 1 = (u 1).val := by
  unfold ScatterDims.window
  rw [dif_pos (by decide)]
  rfl

/-- The core reading of the row-sum record: the update at (n, j') lands on (g, j) exactly when j' = j and the graph word
    of node n, read signed, is g. -/
theorem dS_resultIdx (n : Fin 100000) (j' : Fin 64) (idx : IVec S100000x1 32) (g : Fin 128) (j : Fin 64) :
    dS.resultIdx? (ix2 n j') idx = some (ix2 g j) ↔ (j' = j ∧ (idx (ix2 n 0)).toInt = (g.val : Int)) := by
  unfold ScatterDims.resultIdx?
  constructor
  · intro h
    split at h
    · rename_i hb
      have h0 := hb 0
      have e := Option.some.inj h
      have e0 := congrArg (fun f => (f 0).val) e
      have e1 := congrArg (fun f => (f 1).val) e
      simp only [dS_start0, dS_start1, dS_window0, dS_window1] at h0 e0 e1
      change _ = g.val at e0
      change _ = j.val at e1
      change 0 ≤ (idx (ix2 n 0)).toInt + _ ∧ _ at h0
      change ((idx (ix2 n 0)).toInt + _).toNat = _ at e0
      change ((0 : Int) + ((j'.val : Nat) : Int)).toNat = _ at e1
      refine ⟨Fin.ext (by omega), by omega⟩
    · exact absurd h (by simp)
  · rintro ⟨rfl, ht⟩
    have hb : ∀ a, 0 ≤ dS.start (ix2 n j') idx a + dS.window (ix2 n j') a ∧ dS.start (ix2 n j') idx a + dS.window (ix2 n j') a < S128x64.size a := by
      intro a
      match a with
      | ⟨0, _⟩ =>
        show 0 ≤ dS.start (ix2 n j') idx 0 + dS.window (ix2 n j') 0 ∧ dS.start (ix2 n j') idx 0 + dS.window (ix2 n j') 0 < (128 : Nat)
        rw [dS_start0, dS_window0]
        change 0 ≤ (idx (ix2 n 0)).toInt + _ ∧ (idx (ix2 n 0)).toInt + _ < _
        have := g.isLt
        omega
      | ⟨1, _⟩ =>
        show 0 ≤ dS.start (ix2 n j') idx 1 + dS.window (ix2 n j') 1 ∧ dS.start (ix2 n j') idx 1 + dS.window (ix2 n j') 1 < (64 : Nat)
        rw [dS_start1, dS_window1]
        change 0 ≤ (0:Int) + ((j'.val : Nat) : Int) ∧ (0:Int) + ((j'.val : Nat) : Int) < _
        have := j'.isLt
        omega
    rw [dif_pos hb]
    congr 1
    funext a
    match a with
    | ⟨0, _⟩ =>
      apply Fin.ext
      show (dS.start (ix2 n j') idx 0 + dS.window (ix2 n j') 0).toNat = g.val
      rw [dS_start0, dS_window0]
      change ((idx (ix2 n 0)).toInt + _).toNat = _
      omega
    | ⟨1, _⟩ =>
      apply Fin.ext
      show (dS.start (ix2 n j') idx 1 + dS.window (ix2 n j') 1).toNat = j'.val
      rw [dS_start1, dS_window1]
      change ((0:Int) + ((j'.val : Nat) : Int)).toNat = _
      omega

/-- A graph number below 128, as a 32-bit word, reads back signed as itself. -/
theorem toInt_ofNat_small (g : Nat) (hg : g < 128) : (BitVec.ofNat 32 g).toInt = (g : Int) := by
  rw [BitVec.toInt_eq_toNat_of_lt (by rw [BitVec.toNat_ofNat]; omega), BitVec.toNat_ofNat]
  omega

/-- A 32-bit word is the word of a graph number g below 128 exactly when its signed reading is g. -/
theorem word_eq_iff (w : BitVec 32) (g : Nat) (hg : g < 128) : w = BitVec.ofNat 32 g ↔ w.toInt = (g : Int) := by
  rw [← toInt_ofNat_small g hg]
  exact BitVec.toInt_inj.symm

/-- The updates landing on (g, j): one per node whose graph word reads g, namely that node's entry in column j. -/
theorem dS_landing (x : FVec Ideal S100000x64 .f32) (idx : IVec S100000x1 32) (g : Fin 128) (j : Fin 64) :
    (∑ u ∈ Finset.univ.filter (fun u => dS.resultIdx? u idx = some (ix2 g j)), x u)
      = ∑ n : Fin 100000, if (idx (ix2 n 0)).toInt = (g.val : Int) then x (ix2 n j) else 0 := by
  rw [Finset.sum_filter, sum_idx2]
  refine Finset.sum_congr rfl fun n _ => ?_
  rw [Finset.sum_eq_single j]
  · exact if_congr ((dS_resultIdx n j idx g j).trans ⟨fun h => h.2, fun h => ⟨rfl, h⟩⟩) rfl rfl
  · intro j' _ hne
    rw [if_neg]
    intro h
    exact hne ((dS_resultIdx n j' idx g j).1 h).1
  · intro h
    exact absurd (Finset.mem_univ j) h

/-- The column form of the graph array read at node n. -/
theorem bcastCol_apply (batch : IVec S100000 32) (n : Fin 100000) :
    (broadcastInDim S100000x1 ![0] bcast_S100000_S100000x1_0 batch) (ix2 n 0) = batch (ix1 n) :=
  broadcastInDim_apply _ _ batch (ix2 n 0) (ix1 n) (fun a => match a with
    | ⟨0, _⟩ => by
      show n.val = if (100000 : Nat) = 1 then 0 else n.val
      rw [if_neg (by decide)])

/-- The indicator sums are the reference's per-graph sums of any node array x. -/
theorem sums_eq (x : FVec Ideal S100000x64 .f32) (batch : IVec S100000 32) (bcol : IVec S100000x1 32)
    (hbc : ∀ n : Fin 100000, bcol (ix2 n 0) = batch (ix1 n)) :
    (fun i : (⟨2, ![128, 64]⟩ : Shape).Idx => ∑ n : Fin 100000, Cert.Spec.hot (bcol (ix2 n 0)) (BitVec.ofNat 32 (i 0).val) * x (ix2 n (i 1)))
      = sums (F := Ideal) x batch := by
  funext i
  obtain ⟨g, j, rfl⟩ : ∃ (g : Fin 128) (j : Fin 64), i = ix2 g j := ⟨i 0, i 1, eq_ix2 i⟩
  show (∑ n : Fin 100000, Cert.Spec.hot (bcol (ix2 n 0)) (BitVec.ofNat 32 g.val) * x (ix2 n j))
    = Ideal.ofBits .f32 0x00000000#32
      + ∑ u ∈ Finset.univ.filter (fun u => dS.resultIdx? u (broadcastInDim S100000x1 ![0] bcast_S100000_S100000x1_0 batch) = some (ix2 g j)), x u
  rw [Ideal.ofBits_zero_f32, zero_add, dS_landing]
  refine Finset.sum_congr rfl fun n _ => ?_
  rw [bcastCol_apply, hbc n]
  unfold Cert.Spec.hot
  rw [ite_mul, one_mul, zero_mul]
  exact if_congr (word_eq_iff _ g.val g.isLt) rfl rfl

/-- The f32 word 0x3F800000 is the number one. -/
theorem one_f32 : Ideal.ofBits .f32 0x3F800000#32 = 1 := by
  simp [Ideal.ofBits, Ideal.ieee]
  exact_mod_cast (by norm_num : (8388608 : ℝ) * ((2 : ℝ) ^ 23)⁻¹ = 1)

/-- The bf16 word 0x3F80 is the number one. -/
theorem one_bf16 : Ideal.ofBits .bf16 0x3F80#16 = 1 := by
  simp [Ideal.ofBits, Ideal.ieee]
  exact_mod_cast (by norm_num : (128 : ℝ) * ((2 : ℝ) ^ 7)⁻¹ = 1)

/-- The record of the per-graph counts: the operand is flat of length 128, one graph word per node, one update per node. -/
abbrev dC := scatter_S128_S100000x1_S100000_n_0_0_1

/-- The window of update u starts at the graph word of node u 0, read signed. -/
theorem dC_start0 (u : S100000.Idx) (idx : IVec S100000x1 32) :
    dC.start u idx 0 = (idx (ix2 (u 0) 0)).toInt := by
  unfold ScatterDims.start
  rw [dif_pos (by decide)]
  congr 2
  funext b
  match b with
  | ⟨0, _⟩ => rfl
  | ⟨1, _⟩ => rfl

/-- The one operand axis is an inserted axis: the window coordinate there is zero. -/
theorem dC_window0 (u : S100000.Idx) : dC.window u 0 = 0 := by
  unfold ScatterDims.window
  rw [dif_neg (by decide)]

/-- The update of node n lands on graph g exactly when the graph word of n, read signed, is g. -/
theorem dC_resultIdx (n : Fin 100000) (idx : IVec S100000x1 32) (g : Fin 128) :
    dC.resultIdx? (ix1 n) idx = some (ix1 g) ↔ (idx (ix2 n 0)).toInt = (g.val : Int) := by
  unfold ScatterDims.resultIdx?
  constructor
  · intro h
    split at h
    · rename_i hb
      have h0 := hb 0
      have e := Option.some.inj h
      have e0 := congrArg (fun f => (f 0).val) e
      simp only [dC_start0, dC_window0] at h0 e0
      change _ = g.val at e0
      change 0 ≤ (idx (ix2 n 0)).toInt + _ ∧ _ at h0
      change ((idx (ix2 n 0)).toInt + _).toNat = _ at e0
      omega
    · exact absurd h (by simp)
  · intro ht
    have hb : ∀ a, 0 ≤ dC.start (ix1 n) idx a + dC.window (ix1 n) a ∧ dC.start (ix1 n) idx a + dC.window (ix1 n) a < S128.size a := by
      intro a
      match a with
      | ⟨0, _⟩ =>
        show 0 ≤ dC.start (ix1 n) idx 0 + dC.window (ix1 n) 0 ∧ dC.start (ix1 n) idx 0 + dC.window (ix1 n) 0 < (128 : Nat)
        rw [dC_start0, dC_window0]
        change 0 ≤ (idx (ix2 n 0)).toInt + _ ∧ (idx (ix2 n 0)).toInt + _ < _
        have := g.isLt
        omega
    rw [dif_pos hb]
    congr 1
    funext a
    match a with
    | ⟨0, _⟩ =>
      apply Fin.ext
      show (dC.start (ix1 n) idx 0 + dC.window (ix1 n) 0).toNat = g.val
      rw [dC_start0, dC_window0]
      change ((idx (ix2 n 0)).toInt + _).toNat = _
      omega

/-- A rank-1 index set is its one coordinate range, so a sum over it is the sum over the coordinate. -/
theorem sum_idx1 {M : Type*} [AddCommMonoid M] {n0 : Nat} (f : (⟨1, ![n0]⟩ : Shape).Idx → M) :
    ∑ i, f i = ∑ a : Fin n0, f (ix1 a) := by
  refine (Equiv.sum_comp (⟨fun a => ix1 a, fun i => i 0, fun a => rfl, fun i => (eq_ix1 i).symm⟩ : Fin n0 ≃ (⟨1, ![n0]⟩ : Shape).Idx) f).symm

/-- The updates landing on graph g: one per node whose graph word reads g. -/
theorem dC_landing (y : FVec Ideal S100000 .f32) (idx : IVec S100000x1 32) (g : Fin 128) :
    (∑ u ∈ Finset.univ.filter (fun u => dC.resultIdx? u idx = some (ix1 g)), y u)
      = ∑ n : Fin 100000, if (idx (ix2 n 0)).toInt = (g.val : Int) then y (ix1 n) else 0 := by
  rw [Finset.sum_filter, sum_idx1]
  refine Finset.sum_congr rfl fun n _ => ?_
  exact if_congr (dC_resultIdx n idx g) rfl rfl

/-- The indicator counts are the reference's per-graph counts. -/
theorem counts_eq (batch : IVec S100000 32) (bcol : IVec S100000x1 32)
    (hbc : ∀ n : Fin 100000, bcol (ix2 n 0) = batch (ix1 n)) (g : Fin 128) :
    Cert.Spec.poolCounts bcol (ix2 g 0) = counts (F := Ideal) batch (ix1 g) := by
  show (∑ n : Fin 100000, Cert.Spec.hot (bcol (ix2 n 0)) (BitVec.ofNat 32 g.val) * Ideal.ofBits .bf16 0x3F80#16)
    = Ideal.ofBits .f32 0x00000000#32
      + ∑ u ∈ Finset.univ.filter (fun u => dC.resultIdx? u (broadcastInDim S100000x1 ![0] bcast_S100000_S100000x1_0 batch) = some (ix1 g)),
          (broadcastInDim S100000 ![] bcast_S_S100000 (constant (F := Ideal) S_ .f32 0x3F800000#32)) u
  rw [Ideal.ofBits_zero_f32, zero_add, dC_landing]
  refine Finset.sum_congr rfl fun n _ => ?_
  rw [bcastCol_apply, hbc n]
  show Cert.Spec.hot (batch (ix1 n)) (BitVec.ofNat 32 g.val) * Ideal.ofBits .bf16 0x3F80#16
    = if (batch (ix1 n)).toInt = (g.val : Int) then Ideal.ofBits .f32 0x3F800000#32 else 0
  unfold Cert.Spec.hot
  rw [one_bf16, one_f32, ite_mul, one_mul, zero_mul]
  exact if_congr (word_eq_iff _ g.val g.isLt) rfl rfl

end Cert.MPool

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.MEmbed.lean ====
/-
  Selecting table rows by label, against the reference's gather followed by a matrix product. With every label in
  [0, 1000) the indicator sum over the 1024 table rows keeps exactly row label n, and the table's row k < 1000 is row k
  of emb times W1; the reference gathers row label n of emb (no wrap, no clamp inside the range) and multiplies by W1.
-/
import proofs.«426199_j76587856822555_1_alg».proof.Proof.Gen.ReferenceIdeal.Read
import proofs.«426199_j76587856822555_1_alg».proof.Proof.RefStages
import proofs.«426199_j76587856822555_1_alg».proof.Proof.Spec
import proofs.«426199_j76587856822555_1_alg».proof.Proof.LibGatherRows
import Idealize.ShloMosaic.Lib.ValueLayout

noncomputable section

namespace Cert.MEmbed

open Cert.ReferenceIdeal Cert.ReferenceIdeal.Gen Cert.ReferenceIdeal.Read
open Idealize.ShloMosaic Idealize.ShloMosaic.TcCoe Idealize.ShloMosaic.ValueIdx
open Idealize.ShloMosaic.GatherRows
open Cert.RefStages

/-- A 32-bit word whose signed reading lies in [0, 1000) has the same unsigned reading, below 1000. -/
theorem toNat_of_range (L : BitVec 32) (h0 : 0 ≤ L.toInt) (h1 : L.toInt < 1000) :
    L.toNat < 1000 ∧ L.toInt = (L.toNat : Int) := by
  have hlt := L.isLt
  have hc := BitVec.toInt_eq_toNat_cond L
  split at hc <;> omega

/-- The signed comparison of a non-negative word with zero is the zero bit. -/
theorem slt_zero_of_nonneg (L : BitVec 32) (h0 : 0 ≤ L.toInt) : IntOp.cmpi .slt L 0#32 = 0#1 := by
  have hn : ¬ L.toInt < (0#32 : BitVec 32).toInt := by
    rw [show (0#32 : BitVec 32).toInt = 0 from by decide]; omega
  simp only [IntOp.cmpi, BitVec.slt, decide_eq_false hn]
  rfl

/-- The reference's start-index column at row n: the wrap of negative labels leaves a non-negative label as it is. -/
theorem start_eq (x0 : IVec S100000 32) (n : Fin 100000) (h0 : 0 ≤ (x0 (ix1 n)).toInt) :
    val_main_v9 (F := Ideal) x0 (ix2 n 0) = x0 (ix1 n) := by
  have hidx : idx_main_v9 (ix2 n (0 : Fin 1)) = ix1 n := by
    funext a; match a with | ⟨0, _⟩ => rfl
  rw [val_main_v9_apply, hidx, val_main_v8_apply, val_main_v5_apply, val_main_v4_apply, val_main_c_apply,
    slt_zero_of_nonneg _ h0, select_zero]

/-- The reference's gathered rows at (n, d): row label n of emb, column d, for a label in [0, 1000). -/
theorem gathered (x0 : IVec S100000 32) (x4 : FVec Ideal S1000x64 .f32) (n : Fin 100000) (d : Fin 64)
    (h0 : 0 ≤ (x0 (ix1 n)).toInt) (h1 : (x0 (ix1 n)).toInt < 1000) (hm : (x0 (ix1 n)).toNat < 1000) :
    val_main_v10 (F := Ideal) x0 x4 (ix2 n d) = x4 (ix2 ⟨(x0 (ix1 n)).toNat, hm⟩ d) := by
  unfold val_main_v10
  rw [show gather_S1000x64_S100000x1_S100000x64_1_0_n_n_0_1_164
      = rowDims 1000 100000 64 Facts₀.gather_S1000x64_S100000x1_S100000x64_1_0_n_n_0_1_164_wf from rfl,
    gather_rows_apply, start_eq x0 n h0]
  have hrow : (⟨min (x0 (ix1 n)).toInt.toNat (1000 - 1), clamp_lt (rows_pos Facts₀.gather_S1000x64_S100000x1_S100000x64_1_0_n_n_0_1_164_wf) _⟩ : Fin 1000)
      = ⟨(x0 (ix1 n)).toNat, hm⟩ := by
    refine Fin.ext ?_
    show min (x0 (ix1 n)).toInt.toNat (1000 - 1) = (x0 (ix1 n)).toNat
    have := (toNat_of_range _ h0 h1).2
    omega
  rw [hrow]

/-- Label-selected rows of a table whose first 1000 rows are emb times W1 are the reference's first-layer features. -/
theorem embed_eq (x0 : IVec S100000 32) (x4 : FVec Ideal S1000x64 .f32) (x5 : FVec Ideal S64x64 .f32)
    (lab : IVec S100000x1 32) (tbl : FVec Ideal ⟨2, ![1024, 64]⟩ .bf16)
    (hlab : ∀ n : Fin 100000, lab (ix2 n 0) = x0 (ix1 n))
    (htbl : ∀ (k : Fin 1000) (j : Fin 64), tbl (ix2 ⟨k.val, Nat.lt_trans k.isLt (by decide)⟩ j) = ∑ d : Fin 64, x4 (ix2 k d) * x5 (ix2 d j))
    (hrange : ∀ n : Fin 100000, 0 ≤ (x0 (ix1 n)).toInt ∧ (x0 (ix1 n)).toInt < 1000) :
    Cert.Spec.embedRows lab tbl = val_main_v11 (F := Ideal) x0 x4 x5 := by
  funext i
  obtain ⟨n, j, rfl⟩ : ∃ (n : Fin 100000) (j : Fin 64), i = ix2 n j := ⟨i 0, i 1, eq_ix2 i⟩
  obtain ⟨h0, h1⟩ := hrange n
  obtain ⟨hm, hint⟩ := toNat_of_range (x0 (ix1 n)) h0 h1
  -- the indicator sum keeps the one table row whose number is the label
  have hL : Cert.Spec.embedRows lab tbl (ix2 n j)
      = ∑ d : Fin 64, x4 (ix2 ⟨(x0 (ix1 n)).toNat, hm⟩ d) * x5 (ix2 d j) := by
    show (∑ k : Fin 1024, Cert.Spec.hot (lab (ix2 n 0)) (BitVec.ofNat 32 k.val) * tbl (ix2 k j)) = _
    rw [hlab n, Finset.sum_eq_single (⟨(x0 (ix1 n)).toNat, Nat.lt_trans hm (by decide)⟩ : Fin 1024)]
    · rw [show Cert.Spec.hot (x0 (ix1 n)) (BitVec.ofNat 32 (x0 (ix1 n)).toNat) = 1 from
        if_pos (by rw [BitVec.ofNat_toNat, BitVec.setWidth_eq]), one_mul]
      exact htbl ⟨(x0 (ix1 n)).toNat, hm⟩ j
    · intro k _ hk
      have hne : x0 (ix1 n) ≠ BitVec.ofNat 32 k.val := by
        intro he
        apply hk
        refine Fin.ext ?_
        have ht := congrArg BitVec.toNat he
        rw [BitVec.toNat_ofNat] at ht
        have hk' := k.isLt
        show k.val = (x0 (ix1 n)).toNat
        omega
      rw [show Cert.Spec.hot (x0 (ix1 n)) (BitVec.ofNat 32 k.val) = 0 from if_neg hne, zero_mul]
    · intro h; exact absurd (Finset.mem_univ _) h
  rw [hL, val_main_v11_apply]
  refine Finset.sum_congr rfl fun d _ => ?_
  have hl : lidx_main_v11 (ix2 n j) d = ix2 n d := by
    funext a; match a with | ⟨0, _⟩ => rfl | ⟨1, _⟩ => rfl
  have hr : ridx_main_v11 (ix2 n j) d = ix2 d j := by
    funext a; match a with | ⟨0, _⟩ => rfl | ⟨1, _⟩ => rfl
  rw [hl, hr, gathered x0 x4 n d h0 h1 hm]

end Cert.MEmbed

end
-- ==== Proof.MLayer.lean ====
/-
  A layer's tail times a weight matrix, entry by entry, against the reference's chain of whole-array operations:
  the same sums of the same products.
-/
import proofs.«426199_j76587856822555_1_alg».proof.Proof.Gen.ReferenceIdeal.Read
import proofs.«426199_j76587856822555_1_alg».proof.Proof.RefStages
import proofs.«426199_j76587856822555_1_alg».proof.Proof.Spec
import Idealize.ShloMosaic.Lib.ValueLayout

noncomputable section

namespace Cert.MLayer

open Cert.ReferenceIdeal Cert.ReferenceIdeal.Gen Cert.ReferenceIdeal.Read
open Idealize.ShloMosaic Idealize.ShloMosaic.TcCoe Idealize.ShloMosaic.ValueIdx
open Cert.RefStages

/-- A vector spread along a new unit second axis, read at (n, 0): entry n of the vector. -/
theorem col_apply {α : Type} (y : S100000.Idx → α) (n : Fin 100000) :
    broadcastInDim S100000x1 ![0] bcast_S100000_S100000x1_0 y (ix2 n 0) = y (ix1 n) :=
  broadcastInDim_apply _ bcast_S100000_S100000x1_0 y (ix2 n 0) (ix1 n) (fun a => match a with
    | ⟨0, _⟩ => by show n.val = if (100000 : Nat) = 1 then 0 else n.val; rw [if_neg (by decide)])

/-- A column repeated across the 64 features, read at (n, j): the column's entry (n, 0). -/
theorem colwide_apply {α : Type} (y : S100000x1.Idx → α) (n : Fin 100000) (j : Fin 64) :
    broadcastInDim S100000x64 ![0, 1] bcast_S100000x1_S100000x64_0_1 y (ix2 n j) = y (ix2 n 0) :=
  broadcastInDim_apply _ bcast_S100000x1_S100000x64_0_1 y (ix2 n j) (ix2 n 0) (fun a => match a with
    | ⟨0, _⟩ => by show n.val = if (100000 : Nat) = 1 then 0 else n.val; rw [if_neg (by decide)]
    | ⟨1, _⟩ => by show 0 = if (1 : Nat) = 1 then 0 else j.val; rw [if_pos rfl])

/-- A vector laid out as a single row, read at (0, j): entry j of the vector. -/
theorem row_apply {α : Type} (y : S64.Idx → α) (j : Fin 64) :
    broadcastInDim S1x64 ![1] bcast_S64_S1x64_1 y (ix2 0 j) = y (ix1 j) :=
  broadcastInDim_apply _ bcast_S64_S1x64_1 y (ix2 0 j) (ix1 j) (fun a => match a with
    | ⟨0, _⟩ => by show j.val = if (64 : Nat) = 1 then 0 else j.val; rw [if_neg (by decide)])

/-- A row repeated down the 100000 nodes, read at (n, j): the row's entry (0, j). -/
theorem rowtall_apply {α : Type} (y : S1x64.Idx → α) (n : Fin 100000) (j : Fin 64) :
    broadcastInDim S100000x64 ![0, 1] bcast_S1x64_S100000x64_0_1 y (ix2 n j) = y (ix2 0 j) :=
  broadcastInDim_apply _ bcast_S1x64_S100000x64_0_1 y (ix2 n j) (ix2 0 j) (fun a => match a with
    | ⟨0, _⟩ => by show 0 = if (1 : Nat) = 1 then 0 else n.val; rw [if_pos rfl]
    | ⟨1, _⟩ => by show j.val = if (64 : Nat) = 1 then 0 else j.val; rw [if_neg (by decide)])

/-- The all-zero array read anywhere: the zero word. -/
theorem zeros_apply (i : S100000x64.Idx) : zeros (F := Ideal) i = Ideal.ofBits .f32 0x00000000#32 := by
  unfold zeros
  rw [broadcastInDim_apply _ bcast_S_S100000x64 (constant (F := Ideal) S_ .f32 0x00000000#32) i ix0 (fun a => a.elim0)]
  rfl

/-- The entrywise tail is the reference's tail. -/
theorem tail_eq (ag h : FVec Ideal S100000x64 .f32) (dinv : FVec Ideal S100000 .f32) (b : FVec Ideal S64 .f32)
    (dcol : FVec Ideal S100000x1 .f32) (brow : FVec Ideal S1x64 .f32)
    (hd : ∀ n : Fin 100000, dcol (ix2 n 0) = dinv (ix1 n)) (hb : ∀ j : Fin 64, brow (ix2 0 j) = b (ix1 j)) :
    Cert.Spec.gcnTail ag h dcol brow = tail (F := Ideal) ag h dinv b := by
  funext i
  obtain ⟨n, j, rfl⟩ : ∃ (n : Fin 100000) (j : Fin 64), i = ix2 n j := ⟨i 0, i 1, eq_ix2 i⟩
  unfold Cert.Spec.gcnTail tail
  rw [maximumf_apply, addf_apply, addf_apply, mulf_apply, zeros_apply, colwide_apply, col_apply, rowtall_apply,
    row_apply, mulf_apply]
  show max (ag (ix2 n j) + h (ix2 n j) * (dcol (ix2 n 0) * dcol (ix2 n 0)) + brow (ix2 0 j)) _ = _
  rw [hd, hb]

/-- The entrywise layer is the reference's layer. -/
theorem layer_eq (ag h : FVec Ideal S100000x64 .f32) (dinv : FVec Ideal S100000 .f32) (b : FVec Ideal S64 .f32)
    (w : FVec Ideal S64x64 .f32) (dcol : FVec Ideal S100000x1 .f32) (brow : FVec Ideal S1x64 .f32) (wb : FVec Ideal S64x64 .bf16)
    (hd : ∀ n : Fin 100000, dcol (ix2 n 0) = dinv (ix1 n)) (hb : ∀ j : Fin 64, brow (ix2 0 j) = b (ix1 j))
    (hw : ∀ i, wb i = w i) :
    Cert.Spec.layerLin ag h dcol brow wb = layer (F := Ideal) ag h dinv b w := by
  funext i
  obtain ⟨n, j, rfl⟩ : ∃ (n : Fin 100000) (j : Fin 64), i = ix2 n j := ⟨i 0, i 1, eq_ix2 i⟩
  unfold Cert.Spec.layerLin layer
  show (∑ k : Fin 64, Cert.Spec.gcnTail ag h dcol brow (ix2 n k) * wb (ix2 k j)) = _
  rw [tail_eq ag h dinv b dcol brow hd hb]
  generalize tail (F := Ideal) ag h dinv b = y
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 n j)
      ((contrEquiv1 dot_S100000x64_S64x64_S100000x64_1_0_0_1_n_n 64 rfl rfl).symm k) = ix2 n k :=
    funext fun a => Fin.ext (by
      match a with
      | ⟨0, _⟩ => exact lhs_main_v56_0 _ _
      | ⟨1, _⟩ => exact (lhs_main_v56_1 _ _).trans hk)
  have er : dot_S100000x64_S64x64_S100000x64_1_0_0_1_n_n.rhsIdx (ix2 n j)
      ((contrEquiv1 dot_S100000x64_S64x64_S100000x64_1_0_0_1_n_n 64 rfl rfl).symm k) = ix2 k j :=
    funext fun a => Fin.ext (by
      match a with
      | ⟨0, _⟩ => exact (rhs_main_v56_0 _ _).trans hk
      | ⟨1, _⟩ => exact rhs_main_v56_1 _ _)
  rw [el, er, hw]

end Cert.MLayer

end
-- ==== Proof.MHead.lean ====
/-
  The head entry by entry, against the reference's chain: the same quotient, the same two sums of products.
-/
import proofs.«426199_j76587856822555_1_alg».proof.Proof.Gen.ReferenceIdeal.Read
import proofs.«426199_j76587856822555_1_alg».proof.Proof.RefStages
import proofs.«426199_j76587856822555_1_alg».proof.Proof.Spec
import Idealize.ShloMosaic.Lib.ValueLayout

noncomputable section

namespace Cert.MHead

open Cert.ReferenceIdeal Cert.ReferenceIdeal.Gen Cert.ReferenceIdeal.Read
open Idealize.ShloMosaic Idealize.ShloMosaic.TcCoe Idealize.ShloMosaic.ValueIdx
open Cert.RefStages

/-- A 128 x 1 column flattened to 128 entries: entry g is the column's entry (g, 0), the two having the same
    row-major position g. -/
theorem flat_apply (y : FVec Ideal S128x1 .f32) (g : Fin 128) :
    shapeCast S128 y shapeCasts_S128x1_S128 (ix1 g) = y (ix2 g 0) :=
  shapeCast_apply y shapeCasts_S128x1_S128 (ix1 g) (ix2 g 0)
    (by rewrite [Shape.rowMajor_val_two, Shape.rowMajor_val_one]; show g.val * 1 + 0 = g.val; omega)

/-- The host's quotient at an index is the quotient of the two entries. -/
theorem quot_apply (a b : FVec Ideal S128x64 .f32) (i : S128x64.Idx) : Host.divf a b i = Ideal.div (a i) (b i) := rfl

/-- A 128 x 64 array times a 64 x 1 column, at (g, 0): the sum over the 64 shared positions k of entry (g, k) of the
    array times entry (k, 0) of the column. -/
theorem dotOut_apply (y : FVec Ideal S128x64 .f32) (w : FVec Ideal S64x1 .f32) (g : Fin 128) :
    Host.dotGeneral dot_S128x64_S64x1_S128x1_1_0_0_1_n_n none y w (ix2 g 0) = ∑ k : Fin 64, y (ix2 g k) * w (ix2 k 0) := by
  simp only [Host.dotGeneral]
  rw [Ideal.dotGeneral_apply, ← Equiv.sum_comp (contrEquiv1 dot_S128x64_S64x1_S128x1_1_0_0_1_n_n 64 rfl rfl).symm]
  refine Finset.sum_congr rfl fun k _ => ?_
  have hk := contrEquiv1_symm_val dot_S128x64_S64x1_S128x1_1_0_0_1_n_n 64 rfl rfl k
  have el : dot_S128x64_S64x1_S128x1_1_0_0_1_n_n.lhsIdx (ix2 g 0) ((contrEquiv1 dot_S128x64_S64x1_S128x1_1_0_0_1_n_n 64 rfl rfl).symm k) = ix2 g k :=
    funext fun a => Fin.ext (by
      match a with
      | ⟨0, _⟩ => exact lhs_main_v118_0 _ _
      | ⟨1, _⟩ => exact (lhs_main_v118_1 _ _).trans hk)
  have er : dot_S128x64_S64x1_S128x1_1_0_0_1_n_n.rhsIdx (ix2 g 0) ((contrEquiv1 dot_S128x64_S64x1_S128x1_1_0_0_1_n_n 64 rfl rfl).symm k) = ix2 k 0 :=
    funext fun a => Fin.ext (by
      match a with
      | ⟨0, _⟩ => exact (rhs_main_v118_0 _ _).trans hk
      | ⟨1, _⟩ => exact rhs_main_v118_1 _ _)
  rw [el, er]

/-- A 128 x 64 array times a 64 x 64 matrix, at (g, k): the sum over the 64 shared positions d of entry (g, d) of the
    array times entry (d, k) of the matrix. -/
theorem dotHid_apply (y : FVec Ideal S128x64 .f32) (w : FVec Ideal S64x64 .f32) (g : Fin 128) (k : Fin 64) :
    Host.dotGeneral dot_S128x64_S64x64_S128x64_1_0_0_1_n_n none y w (ix2 g k) = ∑ d : Fin 64, y (ix2 g d) * w (ix2 d k) := by
  simp only [Host.dotGeneral]
  rw [Ideal.dotGeneral_apply, ← Equiv.sum_comp (contrEquiv1 dot_S128x64_S64x64_S128x64_1_0_0_1_n_n 64 rfl rfl).symm]
  refine Finset.sum_congr rfl fun d _ => ?_
  have hd := contrEquiv1_symm_val dot_S128x64_S64x64_S128x64_1_0_0_1_n_n 64 rfl rfl d
  have el : dot_S128x64_S64x64_S128x64_1_0_0_1_n_n.lhsIdx (ix2 g k) ((contrEquiv1 dot_S128x64_S64x64_S128x64_1_0_0_1_n_n 64 rfl rfl).symm d) = ix2 g d :=
    funext fun a => Fin.ext (by
      match a with
      | ⟨0, _⟩ => exact lhs_main_v113_0 _ _
      | ⟨1, _⟩ => exact (lhs_main_v113_1 _ _).trans hd)
  have er : dot_S128x64_S64x64_S128x64_1_0_0_1_n_n.rhsIdx (ix2 g k) ((contrEquiv1 dot_S128x64_S64x64_S128x64_1_0_0_1_n_n 64 rfl rfl).symm d) = ix2 d k :=
    funext fun a => Fin.ext (by
      match a with
      | ⟨0, _⟩ => exact (rhs_main_v113_0 _ _).trans hd
      | ⟨1, _⟩ => exact rhs_main_v113_1 _ _)
  rw [el, er]

/-- The output bias spread over the 128 x 1 column: every entry is the one bias word. -/
theorem biasOut_apply (b : FVec Ideal S1 .f32) (g : Fin 128) :
    broadcastInDim S128x1 ![0, 1] bcast_S1x1_S128x1_0_1 (broadcastInDim S1x1 ![1] bcast_S1_S1x1_1 b) (ix2 g 0) = b (ix1 0) := by
  rw [broadcastInDim_apply _ bcast_S1x1_S128x1_0_1 _ (ix2 g 0) (ix2 0 0) (fun a => match a with
    | ⟨0, _⟩ => by show 0 = if (1 : Nat) = 1 then 0 else g.val; rw [if_pos rfl]
    | ⟨1, _⟩ => by show 0 = if (1 : Nat) = 1 then 0 else 0; rw [if_pos rfl])]
  exact broadcastInDim_apply _ bcast_S1_S1x1_1 b (ix2 0 0) (ix1 0) (fun a => match a with
    | ⟨0, _⟩ => by show 0 = if (1 : Nat) = 1 then 0 else 0; rw [if_pos rfl])

/-- The hidden bias spread over the 128 rows: entry (g, k) is the bias of feature k. -/
theorem biasHid_apply (b : FVec Ideal S64 .f32) (g : Fin 128) (k : Fin 64) :
    broadcastInDim S128x64 ![0, 1] bcast_S1x64_S128x64_0_1 (broadcastInDim S1x64 ![1] bcast_S64_S1x64_1 b) (ix2 g k) = b (ix1 k) := by
  rw [broadcastInDim_apply _ bcast_S1x64_S128x64_0_1 _ (ix2 g k) (ix2 0 k) (fun a => match a with
    | ⟨0, _⟩ => by show 0 = if (1 : Nat) = 1 then 0 else g.val; rw [if_pos rfl]
    | ⟨1, _⟩ => by show k.val = if (64 : Nat) = 1 then 0 else k.val; rw [if_neg (by decide)])]
  exact broadcastInDim_apply _ bcast_S64_S1x64_1 b (ix2 0 k) (ix1 k) (fun a => match a with
    | ⟨0, _⟩ => by show k.val = if (64 : Nat) = 1 then 0 else k.val; rw [if_neg (by decide)])

/-- The all-zero 128 x 64 array the hidden layer is clipped against: every entry is the zero word. -/
theorem zeroHid_apply (i : S128x64.Idx) :
    broadcastInDim S128x64 ![] bcast_S_S128x64 (constant (F := Ideal) S_ .f32 0x00000000#32) i = Ideal.ofBits .f32 0x00000000#32 := by
  rw [broadcastInDim_apply _ bcast_S_S128x64 _ i ix0 (fun a => a.elim0)]
  rfl

/-- The divisor at (g, d): the count of graph g clipped below at the word of one, whatever the feature d. -/
theorem den_apply (cn : FVec Ideal S128 .f32) (g : Fin 128) (d : Fin 64) :
    broadcastInDim S128x64 ![0, 1] bcast_S128x1_S128x64_0_1 (broadcastInDim S128x1 ![0] bcast_S128_S128x1_0
      (maximumf cn (broadcastInDim S128 ![] bcast_S_S128 (constant (F := Ideal) S_ .f32 0x3F800000#32)))) (ix2 g d)
      = max (cn (ix1 g)) (Ideal.ofBits .f32 0x3F800000#32) := by
  rw [broadcastInDim_apply _ bcast_S128x1_S128x64_0_1 _ (ix2 g d) (ix2 g 0) (fun a => match a with
    | ⟨0, _⟩ => by show g.val = if (128 : Nat) = 1 then 0 else g.val; rw [if_neg (by decide)]
    | ⟨1, _⟩ => by show 0 = if (1 : Nat) = 1 then 0 else d.val; rw [if_pos rfl])]
  rw [broadcastInDim_apply _ bcast_S128_S128x1_0 _ (ix2 g 0) (ix1 g) (fun a => match a with
    | ⟨0, _⟩ => by show g.val = if (128 : Nat) = 1 then 0 else g.val; rw [if_neg (by decide)])]
  rw [maximumf_apply, broadcastInDim_apply _ bcast_S_S128 _ (ix1 g) ix0 (fun a => a.elim0)]
  rfl

/-- The entrywise head is the reference's head. -/
theorem head_eq (s : FVec Ideal S128x64 .f32) (cn : FVec Ideal S128 .f32) (x9 : FVec Ideal S64x64 .f32) (x10 : FVec Ideal S64 .f32)
    (x11 : FVec Ideal S64x1 .f32) (x12 : FVec Ideal S1 .f32)
    (ccol : FVec Ideal S128x1 .f32) (w3b : FVec Ideal S64x64 .bf16) (b3row w4row : FVec Ideal S1x64 .f32) (b4arr : FVec Ideal S1x1 .f32)
    (hc : ∀ g : Fin 128, ccol (ix2 g 0) = cn (ix1 g)) (hw3 : ∀ i, w3b i = x9 i)
    (hb3 : ∀ j : Fin 64, b3row (ix2 0 j) = x10 (ix1 j)) (hw4 : ∀ j : Fin 64, w4row (ix2 0 j) = x11 (ix2 j 0))
    (hb4 : b4arr (ix2 0 0) = x12 (ix1 0)) (g : Fin 128) :
    Cert.Spec.mlpOut s ccol w3b b3row w4row b4arr (ix2 g 0) = head (F := Ideal) s cn x9 x10 x11 x12 (ix1 g) := by
  unfold head
  rw [flat_apply, addf_apply, dotOut_apply, biasOut_apply]
  -- both sides: a sum over the 64 hidden units k of (hidden unit k) * (output weight k), plus the output bias
  show (∑ k : Fin 64, Cert.Spec.mlpHidden s ccol w3b b3row g k * w4row (ix2 0 k)) + b4arr (ix2 0 0) = _
  rw [hb4]
  refine congrArg (· + x12 (ix1 0)) (Finset.sum_congr rfl fun k _ => ?_)
  rw [hw4, maximumf_apply, addf_apply, dotHid_apply, biasHid_apply, zeroHid_apply]
  -- the hidden unit: a sum over the 64 features d of (mean at d) * (weight (d, k)), plus the bias, clipped at zero
  unfold Cert.Spec.mlpHidden
  rw [hb3, hc]
  refine congrArg (fun t => max (t + x10 (ix1 k)) (Ideal.ofBits .f32 0x00000000#32) * x11 (ix2 k 0)) (Finset.sum_congr rfl fun d _ => ?_)
  rw [hw3, quot_apply, den_apply]

end Cert.MHead

end
-- ==== Proof.Bridge.lean ====
/-
  The arrays of the kernel program followed from the launch to the result. Between its four kernels the program runs
  host operations: the degree normalisation and the edge weights before the first kernel; after each of the first two
  kernels a gather of node rows along the edges' sources, a scaling by the edge weights and an accumulating scatter onto
  the edges' destinations; reshapes of biases and narrowings of weights. At each boundary the arrays that matter are
  identified with the reference's own intermediate values as functions of the thirteen launched arrays: the host
  operations are the same operations on equal operands, and each kernel's output is the corresponding stage of the
  reference by the kernel's value and the stage's identity. The last equation says the kernel program's result array
  is the reference's result.
-/
import proofs.«426199_j76587856822555_1_alg».proof.Proof.Gen.KernelIdeal.Frame
import proofs.«426199_j76587856822555_1_alg».proof.Proof.KRun
import proofs.«426199_j76587856822555_1_alg».proof.Proof.Spec
import proofs.«426199_j76587856822555_1_alg».proof.Proof.RefStages
import proofs.«426199_j76587856822555_1_alg».proof.Proof.MEmbed
import proofs.«426199_j76587856822555_1_alg».proof.Proof.MLayer
import proofs.«426199_j76587856822555_1_alg».proof.Proof.MHead
import Idealize.ShloMosaic.Lib.KernelVsHost
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Bridge

open Cert.KernelIdeal Cert.KernelIdeal.Gen
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg) (c : Dev nD)

/-- The thirteen argument arrays as launched, at their literal types. -/
abbrev x0 : IVec S100000 32 := m ((c : Thread nD τ).loc main_arg0)
abbrev x1 : IVec S2x3200000 32 := m ((c : Thread nD τ).loc main_arg1)
abbrev x2 : FVec Ideal S3200000 .f32 := m ((c : Thread nD τ).loc main_arg2)
abbrev x3 : IVec S100000 32 := m ((c : Thread nD τ).loc main_arg3)
abbrev x4 : FVec Ideal S1000x64 .f32 := m ((c : Thread nD τ).loc main_arg4)
abbrev x5 : FVec Ideal S64x64 .f32 := m ((c : Thread nD τ).loc main_arg5)
abbrev x6 : FVec Ideal S64 .f32 := m ((c : Thread nD τ).loc main_arg6)
abbrev x7 : FVec Ideal S64x64 .f32 := m ((c : Thread nD τ).loc main_arg7)
abbrev x8 : FVec Ideal S64 .f32 := m ((c : Thread nD τ).loc main_arg8)
abbrev x9 : FVec Ideal S64x64 .f32 := m ((c : Thread nD τ).loc main_arg9)
abbrev x10 : FVec Ideal S64 .f32 := m ((c : Thread nD τ).loc main_arg10)
abbrev x11 : FVec Ideal S64x1 .f32 := m ((c : Thread nD τ).loc main_arg11)
abbrev x12 : FVec Ideal S1 .f32 := m ((c : Thread nD τ).loc main_arg12)

open Cert.ReferenceIdeal.Read

/-- What the four kernels leave in their output arrays, for any contents V at entry (each proved in its own module),
    and the two pooling identities. -/
structure Stages : Prop where
  embed : ∀ (V : (c : Dev nD) → (b : Ref sig .tc) → Buf (Elt Ideal) ((c : Thread nD τ).loc b)) (c : Dev nD),
    (dat0 (F := Ideal) V c).arrAt 2 cfg0.N = Cert.Spec.embedRows (V c main_v30) (V c main_v29)
  layer : ∀ (V : (c : Dev nD) → (b : Ref sig .tc) → Buf (Elt Ideal) ((c : Thread nD τ).loc b)) (c : Dev nD),
    (dat1 (F := Ideal) V c).arrAt 5 cfg1.N
      = Cert.Spec.layerLin (V c main_v44) (V c main_v31) (V c main_v26) (V c main_v45) (V c main_v46)
  poolSums : ∀ (V : (c : Dev nD) → (b : Ref sig .tc) → Buf (Elt Ideal) ((c : Thread nD τ).loc b)) (c : Dev nD),
    (dat2 (F := Ideal) V c).arrAt 5 cfg2.N
      = Cert.Spec.poolSums (V c main_v60) (V c main_v47) (V c main_v26) (V c main_v61) (V c main_v62)
  poolCounts : ∀ (V : (c : Dev nD) → (b : Ref sig .tc) → Buf (Elt Ideal) ((c : Thread nD τ).loc b)) (c : Dev nD),
    (dat2 (F := Ideal) V c).arrAt 6 cfg2.N = Cert.Spec.poolCounts (V c main_v62)
  mlp : ∀ (V : (c : Dev nD) → (b : Ref sig .tc) → Buf (Elt Ideal) ((c : Thread nD τ).loc b)) (c : Dev nD),
    (dat3 (F := Ideal) V c).arrAt 6 cfg3.N
      = Cert.Spec.mlpOut (V c main_v63_0) (V c main_v63_1) (V c main_v64) (V c main_v65) (V c main_v66) (V c main_v67)
  sumsEq : ∀ (x : FVec Ideal Cert.ReferenceIdeal.S100000x64 .f32) (batch : IVec Cert.ReferenceIdeal.S100000 32) (bcol : IVec Cert.ReferenceIdeal.S100000x1 32),
    (∀ n : Fin 100000, bcol (ix2 n 0) = batch (ix1 n)) →
    (fun i : (⟨2, ![128, 64]⟩ : Shape).Idx => ∑ n : Fin 100000, Cert.Spec.hot (bcol (ix2 n 0)) (BitVec.ofNat 32 (i 0).val) * x (ix2 n (i 1)))
      = Cert.RefStages.sums (F := Ideal) x batch
  countsEq : ∀ (batch : IVec Cert.ReferenceIdeal.S100000 32) (bcol : IVec Cert.ReferenceIdeal.S100000x1 32),
    (∀ n : Fin 100000, bcol (ix2 n 0) = batch (ix1 n)) → ∀ g : Fin 128,
    Cert.Spec.poolCounts bcol (ix2 g 0) = Cert.RefStages.counts (F := Ideal) batch (ix1 g)

/-! ## Small layout facts -/

/-- A flat array recast as a column reads, at row n, the flat array at n. -/
theorem col_of_flat {α : Type} {N : Nat} (y : (⟨1, ![N]⟩ : Shape).Idx → α) (h : (⟨1, ![N]⟩ : Shape).ShapeCasts ⟨2, ![N, 1]⟩)
    (n : Fin N) : shapeCast ⟨2, ![N, 1]⟩ y h (ix2 n 0) = y (ix1 n) :=
  shapeCast_apply y h (ix2 n 0) (ix1 n) (by
    rw [Shape.rowMajor_val_one, Shape.rowMajor_val_two]
    show n.val = n.val * 1 + 0
    omega)

/-- A flat array recast as a row reads, at column j, the flat array at j. -/
theorem row_of_flat {α : Type} {N : Nat} (y : (⟨1, ![N]⟩ : Shape).Idx → α) (h : (⟨1, ![N]⟩ : Shape).ShapeCasts ⟨2, ![1, N]⟩)
    (j : Fin N) : shapeCast ⟨2, ![1, N]⟩ y h (ix2 0 j) = y (ix1 j) :=
  shapeCast_apply y h (ix2 0 j) (ix1 j) (by
    rw [Shape.rowMajor_val_one, Shape.rowMajor_val_two]
    show j.val = 0 * N + j.val
    omega)

/-- A column recast as a row reads, at column j, the column at row j. -/
theorem row_of_col {α : Type} {N : Nat} (y : (⟨2, ![N, 1]⟩ : Shape).Idx → α) (h : (⟨2, ![N, 1]⟩ : Shape).ShapeCasts ⟨2, ![1, N]⟩)
    (j : Fin N) : shapeCast ⟨2, ![1, N]⟩ y h (ix2 0 j) = y (ix2 j 0) :=
  shapeCast_apply y h (ix2 0 j) (ix2 j 0) (by
    rw [Shape.rowMajor_val_two, Shape.rowMajor_val_two]
    show j.val * 1 + 0 = 0 * N + j.val
    omega)

/-- A column recast as a flat array reads, at n, the column at row n. -/
theorem flat_of_col {α : Type} {N : Nat} (y : (⟨2, ![N, 1]⟩ : Shape).Idx → α) (h : (⟨2, ![N, 1]⟩ : Shape).ShapeCasts ⟨1, ![N]⟩)
    (n : Fin N) : shapeCast ⟨1, ![N]⟩ y h (ix1 n) = y (ix2 n 0) :=
  shapeCast_apply y h (ix1 n) (ix2 n 0) (by
    rw [Shape.rowMajor_val_one, Shape.rowMajor_val_two]
    show n.val * 1 + 0 = n.val
    omega)

/-! ## Before the first kernel: the host operations on the launch contents -/

/-- The edges' source nodes. -/
theorem W3_v1 : W3 (F := Ideal) m ρ c (Proc.devRef .tc main_v1) = val_main_v1 (F := Ideal) (x1 m c) := by
  dsimp only [W3, W2, W1, hostOps0_2, hostOps0_1, hostOps0]
  after_results_simp
  rfl

/-- The edges' destination nodes. -/
theorem W3_v3 : W3 (F := Ideal) m ρ c (Proc.devRef .tc main_v3) = val_main_v3 (F := Ideal) (x1 m c) := by
  dsimp only [W3, W2, W1, hostOps0_2, hostOps0_1, hostOps0]
  after_results_simp
  rfl

/-- The edges' normalisation weights. -/
theorem W3_v25 : W3 (F := Ideal) m ρ c (Proc.devRef .tc main_v25) = val_main_v33 (F := Ideal) (x1 m c) (x2 m c) := by
  dsimp only [W3, W2, W1, hostOps0_2, hostOps0_1, hostOps0]
  after_results_simp
  rfl

/-- The inverse root degrees as a column. -/
theorem W3_v26 : W3 (F := Ideal) m ρ c (Proc.devRef .tc main_v26)
    = shapeCast S100000x1 (val_main_v17 (F := Ideal) (x1 m c) (x2 m c)) shapeCasts_S100000_S100000x1 := by
  dsimp only [W3, W2, W1, hostOps0_2, hostOps0_1, hostOps0]
  after_results_simp
  rfl

/-- The labels as a column. -/
theorem W3_v30 : W3 (F := Ideal) m ρ c (Proc.devRef .tc main_v30) = shapeCast S100000x1 (x0 m c) shapeCasts_S100000_S100000x1 := by
  dsimp only [W3, W2, W1, hostOps0_2, hostOps0_1, hostOps0]
  after_results_simp
  rfl

/-- The padded table: the product of the embedding and the first weights, 24 zero rows below, in the narrow format. -/
theorem W3_v29 : W3 (F := Ideal) m ρ c (Proc.devRef .tc main_v29)
    = truncf .bf16 (pad S1024x64 ![0, 0] ![24, 0] ![0, 0] (Host.dotGeneral dot_S1000x64_S64x64_S1000x64_1_0_0_1_n_n none (x4 m c) (x5 m c))
        (sitofp (F := Ideal) .f32 (constantI S_ 32 0#32)) pads_S1000x64_S1024x64_0240_000 h_S_) bitsLt_bf16_f32 := by
  dsimp only [W3, W2, W1, hostOps0_2, hostOps0_1, hostOps0]
  after_results_simp
  rfl

/-! ## The table's entries -/

theorem lhsT_0 (i : S1000x64.Idx) (q : dot_S1000x64_S64x64_S1000x64_1_0_0_1_n_n.contr.Idx) :
    (dot_S1000x64_S64x64_S1000x64_1_0_0_1_n_n.lhsIdx i q 0).val = (i 0).val := by
  unfold DotDims.lhsIdx
  rw [dif_neg (show ¬(0 : Fin S1000x64.rank) ∈ dot_S1000x64_S64x64_S1000x64_1_0_0_1_n_n.lhsBatch by decide), dif_pos (show (0 : Fin S1000x64.rank) ∈ dot_S1000x64_S64x64_S1000x64_1_0_0_1_n_n.lhsNonContracting by decide)]
  rfl
theorem lhsT_1 (i : S1000x64.Idx) (q : dot_S1000x64_S64x64_S1000x64_1_0_0_1_n_n.contr.Idx) :
    (dot_S1000x64_S64x64_S1000x64_1_0_0_1_n_n.lhsIdx i q 1).val = (q ⟨0, by decide⟩).val :=
  dot_S1000x64_S64x64_S1000x64_1_0_0_1_n_n.lhsIdx_val_of_single rfl i q
theorem rhsT_0 (i : S1000x64.Idx) (q : dot_S1000x64_S64x64_S1000x64_1_0_0_1_n_n.contr.Idx) :
    (dot_S1000x64_S64x64_S1000x64_1_0_0_1_n_n.rhsIdx i q 0).val = (q ⟨0, by decide⟩).val :=
  dot_S1000x64_S64x64_S1000x64_1_0_0_1_n_n.rhsIdx_val_of_single rfl i q
theorem rhsT_1 (i : S1000x64.Idx) (q : dot_S1000x64_S64x64_S1000x64_1_0_0_1_n_n.contr.Idx) :
    (dot_S1000x64_S64x64_S1000x64_1_0_0_1_n_n.rhsIdx i q 1).val = (i 1).val := by
  unfold DotDims.rhsIdx
  rw [dif_neg (show ¬(1 : Fin S64x64.rank) ∈ dot_S1000x64_S64x64_S1000x64_1_0_0_1_n_n.rhsBatch by decide), dif_pos (show (1 : Fin S64x64.rank) ∈ dot_S1000x64_S64x64_S1000x64_1_0_0_1_n_n.rhsNonContracting by decide)]
  rfl

/-- The product of the embedding and the first weights at (k, j): the sum over d of emb (k, d) * W1 (d, j). -/
theorem dotT_apply (a4 : FVec Ideal S1000x64 .f32) (a5 : FVec Ideal S64x64 .f32) (k : Fin 1000) (j : Fin 64) :
    Host.dotGeneral dot_S1000x64_S64x64_S1000x64_1_0_0_1_n_n none a4 a5 (ix2 k j) = ∑ d : Fin 64, a4 (ix2 k d) * a5 (ix2 d j) := by
  simp only [Host.dotGeneral]
  rw [Ideal.dotGeneral_apply, ← Equiv.sum_comp (ValueIdx.contrEquiv1 dot_S1000x64_S64x64_S1000x64_1_0_0_1_n_n 64 rfl rfl).symm]
  refine Finset.sum_congr rfl fun d _ => ?_
  have hk := ValueIdx.contrEquiv1_symm_val dot_S1000x64_S64x64_S1000x64_1_0_0_1_n_n 64 rfl rfl d
  have el : dot_S1000x64_S64x64_S1000x64_1_0_0_1_n_n.lhsIdx (ix2 k j) ((ValueIdx.contrEquiv1 dot_S1000x64_S64x64_S1000x64_1_0_0_1_n_n 64 rfl rfl).symm d) = ix2 k d := funext fun a => Fin.ext (by
    match a with
    | ⟨0, _⟩ => exact lhsT_0 _ _
    | ⟨1, _⟩ => exact (lhsT_1 _ _).trans hk)
  have er : dot_S1000x64_S64x64_S1000x64_1_0_0_1_n_n.rhsIdx (ix2 k j) ((ValueIdx.contrEquiv1 dot_S1000x64_S64x64_S1000x64_1_0_0_1_n_n 64 rfl rfl).symm d) = ix2 d j := funext fun a => Fin.ext (by
    match a with
    | ⟨0, _⟩ => exact (rhsT_0 _ _).trans hk
    | ⟨1, _⟩ => exact rhsT_1 _ _)
  rw [el, er]

/-- Row k < 1000 of the padded table is row k of the product. -/
theorem table_apply (a4 : FVec Ideal S1000x64 .f32) (a5 : FVec Ideal S64x64 .f32) (k : Fin 1000) (j : Fin 64) :
    (truncf .bf16 (pad S1024x64 ![0, 0] ![24, 0] ![0, 0] (Host.dotGeneral dot_S1000x64_S64x64_S1000x64_1_0_0_1_n_n none a4 a5)
        (sitofp (F := Ideal) .f32 (constantI S_ 32 0#32)) pads_S1000x64_S1024x64_0240_000 h_S_) bitsLt_bf16_f32 : FVec Ideal S1024x64 .bf16)
      (ix2 ⟨k.val, Nat.lt_trans k.isLt (by decide)⟩ j) = ∑ d : Fin 64, a4 (ix2 k d) * a5 (ix2 d j) := by
  rw [truncf_apply, pad_apply_of_inside _ _ _ _ _ _ _ _ (ix2 k j) (fun a => by
    match a with
    | ⟨0, _⟩ => show k.val = 0 + k.val * (0 + 1); omega
    | ⟨1, _⟩ => show j.val = 0 + j.val * (0 + 1); omega)]
  exact dotT_apply a4 a5 k j

/-! ## The first kernel's output: the reference's first-layer features -/

theorem W4_v31 (K : Stages) (hr : ∀ n : Fin 100000, 0 ≤ (x0 m c (ix1 n)).toInt ∧ (x0 m c (ix1 n)).toInt < 1000) :
    W4 (F := Ideal) m ρ c (Proc.devRef .tc main_v31) = val_main_v11 (F := Ideal) (x0 m c) (x4 m c) (x5 m c) := by
  refine (W4_arr m ρ c 2).trans ?_
  rw [K.embed (V3 m ρ) c]
  exact Cert.MEmbed.embed_eq (x0 m c) (x4 m c) (x5 m c) _ _
    (fun n => (congrFun (W3_v30 m ρ c) (ix2 n 0)).trans (col_of_flat _ _ n))
    (fun k j => (congrFun (W3_v29 m ρ c) _).trans (table_apply (x4 m c) (x5 m c) k j)) hr

/-! ## Arrays that a stretch of the program leaves alone keep their contents -/
theorem W3_arg3 : W3 (F := Ideal) m ρ c (Proc.devRef .tc main_arg3) = x3 m c := by
  dsimp only [W3, W2, W1, hostOps0_2, hostOps0_1, hostOps0]
  after_results_simp
theorem W3_arg6 : W3 (F := Ideal) m ρ c (Proc.devRef .tc main_arg6) = x6 m c := by
  dsimp only [W3, W2, W1, hostOps0_2, hostOps0_1, hostOps0]
  after_results_simp
theorem W3_arg7 : W3 (F := Ideal) m ρ c (Proc.devRef .tc main_arg7) = x7 m c := by
  dsimp only [W3, W2, W1, hostOps0_2, hostOps0_1, hostOps0]
  after_results_simp
theorem W3_arg8 : W3 (F := Ideal) m ρ c (Proc.devRef .tc main_arg8) = x8 m c := by
  dsimp only [W3, W2, W1, hostOps0_2, hostOps0_1, hostOps0]
  after_results_simp
theorem W3_arg9 : W3 (F := Ideal) m ρ c (Proc.devRef .tc main_arg9) = x9 m c := by
  dsimp only [W3, W2, W1, hostOps0_2, hostOps0_1, hostOps0]
  after_results_simp
theorem W3_arg10 : W3 (F := Ideal) m ρ c (Proc.devRef .tc main_arg10) = x10 m c := by
  dsimp only [W3, W2, W1, hostOps0_2, hostOps0_1, hostOps0]
  after_results_simp
theorem W3_arg11 : W3 (F := Ideal) m ρ c (Proc.devRef .tc main_arg11) = x11 m c := by
  dsimp only [W3, W2, W1, hostOps0_2, hostOps0_1, hostOps0]
  after_results_simp
theorem W3_arg12 : W3 (F := Ideal) m ρ c (Proc.devRef .tc main_arg12) = x12 m c := by
  dsimp only [W3, W2, W1, hostOps0_2, hostOps0_1, hostOps0]
  after_results_simp
theorem W4_arg6 : W4 (F := Ideal) m ρ c (Proc.devRef .tc main_arg6) = x6 m c :=
  (W4_of_ne m ρ c main_arg6 (by decide)).trans (W3_arg6 m ρ c)
theorem W4_arg7 : W4 (F := Ideal) m ρ c (Proc.devRef .tc main_arg7) = x7 m c :=
  (W4_of_ne m ρ c main_arg7 (by decide)).trans (W3_arg7 m ρ c)
theorem W4_arg8 : W4 (F := Ideal) m ρ c (Proc.devRef .tc main_arg8) = x8 m c :=
  (W4_of_ne m ρ c main_arg8 (by decide)).trans (W3_arg8 m ρ c)
theorem W5_arg8 : W5 (F := Ideal) m ρ c (Proc.devRef .tc main_arg8) = x8 m c := by
  dsimp only [W5, hostOps1]
  after_results_simp
  exact W4_arg8 m ρ c
theorem W6_arg8 : W6 (F := Ideal) m ρ c (Proc.devRef .tc main_arg8) = x8 m c :=
  (W6_of_ne m ρ c main_arg8 (by decide)).trans (W5_arg8 m ρ c)
theorem W4_arg3 : W4 (F := Ideal) m ρ c (Proc.devRef .tc main_arg3) = x3 m c :=
  (W4_of_ne m ρ c main_arg3 (by decide)).trans (W3_arg3 m ρ c)
theorem W5_arg3 : W5 (F := Ideal) m ρ c (Proc.devRef .tc main_arg3) = x3 m c := by
  dsimp only [W5, hostOps1]
  after_results_simp
  exact W4_arg3 m ρ c
theorem W6_arg3 : W6 (F := Ideal) m ρ c (Proc.devRef .tc main_arg3) = x3 m c :=
  (W6_of_ne m ρ c main_arg3 (by decide)).trans (W5_arg3 m ρ c)
theorem W4_arg9 : W4 (F := Ideal) m ρ c (Proc.devRef .tc main_arg9) = x9 m c :=
  (W4_of_ne m ρ c main_arg9 (by decide)).trans (W3_arg9 m ρ c)
theorem W5_arg9 : W5 (F := Ideal) m ρ c (Proc.devRef .tc main_arg9) = x9 m c := by
  dsimp only [W5, hostOps1]
  after_results_simp
  exact W4_arg9 m ρ c
theorem W6_arg9 : W6 (F := Ideal) m ρ c (Proc.devRef .tc main_arg9) = x9 m c :=
  (W6_of_ne m ρ c main_arg9 (by decide)).trans (W5_arg9 m ρ c)
theorem W7_arg9 : W7 (F := Ideal) m ρ c (Proc.devRef .tc main_arg9) = x9 m c := by
  dsimp only [W7, hostOps2]
  after_results_simp
  exact W6_arg9 m ρ c
theorem W8_arg9 : W8 (F := Ideal) m ρ c (Proc.devRef .tc main_arg9) = x9 m c :=
  (W8_of_ne m ρ c main_arg9 (by decide)).trans (W7_arg9 m ρ c)
theorem W4_arg10 : W4 (F := Ideal) m ρ c (Proc.devRef .tc main_arg10) = x10 m c :=
  (W4_of_ne m ρ c main_arg10 (by decide)).trans (W3_arg10 m ρ c)
theorem W5_arg10 : W5 (F := Ideal) m ρ c (Proc.devRef .tc main_arg10) = x10 m c := by
  dsimp only [W5, hostOps1]
  after_results_simp
  exact W4_arg10 m ρ c
theorem W6_arg10 : W6 (F := Ideal) m ρ c (Proc.devRef .tc main_arg10) = x10 m c :=
  (W6_of_ne m ρ c main_arg10 (by decide)).trans (W5_arg10 m ρ c)
theorem W7_arg10 : W7 (F := Ideal) m ρ c (Proc.devRef .tc main_arg10) = x10 m c := by
  dsimp only [W7, hostOps2]
  after_results_simp
  exact W6_arg10 m ρ c
theorem W8_arg10 : W8 (F := Ideal) m ρ c (Proc.devRef .tc main_arg10) = x10 m c :=
  (W8_of_ne m ρ c main_arg10 (by decide)).trans (W7_arg10 m ρ c)
theorem W4_arg11 : W4 (F := Ideal) m ρ c (Proc.devRef .tc main_arg11) = x11 m c :=
  (W4_of_ne m ρ c main_arg11 (by decide)).trans (W3_arg11 m ρ c)
theorem W5_arg11 : W5 (F := Ideal) m ρ c (Proc.devRef .tc main_arg11) = x11 m c := by
  dsimp only [W5, hostOps1]
  after_results_simp
  exact W4_arg11 m ρ c
theorem W6_arg11 : W6 (F := Ideal) m ρ c (Proc.devRef .tc main_arg11) = x11 m c :=
  (W6_of_ne m ρ c main_arg11 (by decide)).trans (W5_arg11 m ρ c)
theorem W7_arg11 : W7 (F := Ideal) m ρ c (Proc.devRef .tc main_arg11) = x11 m c := by
  dsimp only [W7, hostOps2]
  after_results_simp
  exact W6_arg11 m ρ c
theorem W8_arg11 : W8 (F := Ideal) m ρ c (Proc.devRef .tc main_arg11) = x11 m c :=
  (W8_of_ne m ρ c main_arg11 (by decide)).trans (W7_arg11 m ρ c)
theorem W4_arg12 : W4 (F := Ideal) m ρ c (Proc.devRef .tc main_arg12) = x12 m c :=
  (W4_of_ne m ρ c main_arg12 (by decide)).trans (W3_arg12 m ρ c)
theorem W5_arg12 : W5 (F := Ideal) m ρ c (Proc.devRef .tc main_arg12) = x12 m c := by
  dsimp only [W5, hostOps1]
  after_results_simp
  exact W4_arg12 m ρ c
theorem W6_arg12 : W6 (F := Ideal) m ρ c (Proc.devRef .tc main_arg12) = x12 m c :=
  (W6_of_ne m ρ c main_arg12 (by decide)).trans (W5_arg12 m ρ c)
theorem W7_arg12 : W7 (F := Ideal) m ρ c (Proc.devRef .tc main_arg12) = x12 m c := by
  dsimp only [W7, hostOps2]
  after_results_simp
  exact W6_arg12 m ρ c
theorem W8_arg12 : W8 (F := Ideal) m ρ c (Proc.devRef .tc main_arg12) = x12 m c :=
  (W8_of_ne m ρ c main_arg12 (by decide)).trans (W7_arg12 m ρ c)
theorem W4_v1 : W4 (F := Ideal) m ρ c (Proc.devRef .tc main_v1) = val_main_v1 (F := Ideal) (x1 m c) :=
  (W4_of_ne m ρ c main_v1 (by decide)).trans (W3_v1 m ρ c)
theorem W5_v1 : W5 (F := Ideal) m ρ c (Proc.devRef .tc main_v1) = val_main_v1 (F := Ideal) (x1 m c) := by
  dsimp only [W5, hostOps1]
  after_results_simp
  exact W4_v1 m ρ c
theorem W6_v1 : W6 (F := Ideal) m ρ c (Proc.devRef .tc main_v1) = val_main_v1 (F := Ideal) (x1 m c) :=
  (W6_of_ne m ρ c main_v1 (by decide)).trans (W5_v1 m ρ c)
theorem W4_v3 : W4 (F := Ideal) m ρ c (Proc.devRef .tc main_v3) = val_main_v3 (F := Ideal) (x1 m c) :=
  (W4_of_ne m ρ c main_v3 (by decide)).trans (W3_v3 m ρ c)
theorem W5_v3 : W5 (F := Ideal) m ρ c (Proc.devRef .tc main_v3) = val_main_v3 (F := Ideal) (x1 m c) := by
  dsimp only [W5, hostOps1]
  after_results_simp
  exact W4_v3 m ρ c
theorem W6_v3 : W6 (F := Ideal) m ρ c (Proc.devRef .tc main_v3) = val_main_v3 (F := Ideal) (x1 m c) :=
  (W6_of_ne m ρ c main_v3 (by decide)).trans (W5_v3 m ρ c)
theorem W4_v25 : W4 (F := Ideal) m ρ c (Proc.devRef .tc main_v25) = val_main_v33 (F := Ideal) (x1 m c) (x2 m c) :=
  (W4_of_ne m ρ c main_v25 (by decide)).trans (W3_v25 m ρ c)
theorem W5_v25 : W5 (F := Ideal) m ρ c (Proc.devRef .tc main_v25) = val_main_v33 (F := Ideal) (x1 m c) (x2 m c) := by
  dsimp only [W5, hostOps1]
  after_results_simp
  exact W4_v25 m ρ c
theorem W6_v25 : W6 (F := Ideal) m ρ c (Proc.devRef .tc main_v25) = val_main_v33 (F := Ideal) (x1 m c) (x2 m c) :=
  (W6_of_ne m ρ c main_v25 (by decide)).trans (W5_v25 m ρ c)
theorem W4_v26 : W4 (F := Ideal) m ρ c (Proc.devRef .tc main_v26) = shapeCast S100000x1 (val_main_v17 (F := Ideal) (x1 m c) (x2 m c)) shapeCasts_S100000_S100000x1 :=
  (W4_of_ne m ρ c main_v26 (by decide)).trans (W3_v26 m ρ c)
theorem W5_v26 : W5 (F := Ideal) m ρ c (Proc.devRef .tc main_v26) = shapeCast S100000x1 (val_main_v17 (F := Ideal) (x1 m c) (x2 m c)) shapeCasts_S100000_S100000x1 := by
  dsimp only [W5, hostOps1]
  after_results_simp
  exact W4_v26 m ρ c
theorem W6_v26 : W6 (F := Ideal) m ρ c (Proc.devRef .tc main_v26) = shapeCast S100000x1 (val_main_v17 (F := Ideal) (x1 m c) (x2 m c)) shapeCasts_S100000_S100000x1 :=
  (W6_arr m ρ c 2).trans (((dat1 (F := Ideal) (V5 m ρ) c).arrAt_in 2 rfl cfg1.N).trans ((A_eq1 (V5 m ρ) c 2).trans (W5_v26 m ρ c)))
theorem W7_v26 : W7 (F := Ideal) m ρ c (Proc.devRef .tc main_v26) = shapeCast S100000x1 (val_main_v17 (F := Ideal) (x1 m c) (x2 m c)) shapeCasts_S100000_S100000x1 := by
  dsimp only [W7, hostOps2]
  after_results_simp
  exact W6_v26 m ρ c

/-! ## After the first kernel: the first layer's aggregated messages, then the second kernel -/

theorem W5_v31 (K : Stages) (hr : ∀ n : Fin 100000, 0 ≤ (x0 m c (ix1 n)).toInt ∧ (x0 m c (ix1 n)).toInt < 1000) :
    W5 (F := Ideal) m ρ c (Proc.devRef .tc main_v31) = val_main_v11 (F := Ideal) (x0 m c) (x4 m c) (x5 m c) := by
  dsimp only [W5, hostOps1]
  after_results_simp
  exact W4_v31 m ρ c K hr

theorem W5_v44 (K : Stages) (hr : ∀ n : Fin 100000, 0 ≤ (x0 m c (ix1 n)).toInt ∧ (x0 m c (ix1 n)).toInt < 1000) :
    W5 (F := Ideal) m ρ c (Proc.devRef .tc main_v44) = val_main_v46 (F := Ideal) (x0 m c) (x1 m c) (x2 m c) (x4 m c) (x5 m c) := by
  dsimp only [W5, hostOps1]
  after_results_simp
  rw [W4_v1 m ρ c, W4_v3 m ρ c, W4_v25 m ρ c, W4_v31 m ρ c K hr]
  rfl

theorem W5_v45 : W5 (F := Ideal) m ρ c (Proc.devRef .tc main_v45) = shapeCast S1x64 (x6 m c) shapeCasts_S64_S1x64 := by
  dsimp only [W5, hostOps1]
  after_results_simp
  rw [W4_arg6 m ρ c]
  rfl

theorem W5_v46 : W5 (F := Ideal) m ρ c (Proc.devRef .tc main_v46) = truncf .bf16 (x7 m c) bitsLt_bf16_f32 := by
  dsimp only [W5, hostOps1]
  after_results_simp
  rw [W4_arg7 m ρ c]

/-- The second kernel's output: the reference's second-layer features. -/
theorem W6_v47 (K : Stages) (hr : ∀ n : Fin 100000, 0 ≤ (x0 m c (ix1 n)).toInt ∧ (x0 m c (ix1 n)).toInt < 1000) :
    W6 (F := Ideal) m ρ c (Proc.devRef .tc main_v47)
      = val_main_v56 (F := Ideal) (x0 m c) (x1 m c) (x2 m c) (x4 m c) (x5 m c) (x6 m c) (x7 m c) := by
  refine (W6_arr m ρ c 5).trans ?_
  rw [K.layer (V5 m ρ) c, Cert.RefStages.v56_eq]
  rw [show V5 m ρ c main_v44 = _ from W5_v44 m ρ c K hr, show V5 m ρ c main_v31 = _ from W5_v31 m ρ c K hr]
  exact Cert.MLayer.layer_eq _ _ (val_main_v17 (F := Ideal) (x1 m c) (x2 m c)) (x6 m c) (x7 m c) _ _ _
    (fun n => (congrFun (W5_v26 m ρ c) (ix2 n 0)).trans (col_of_flat _ _ n))
    (fun j => (congrFun (W5_v45 m ρ c) (ix2 0 j)).trans (row_of_flat _ _ j))
    (fun i => congrFun (W5_v46 m ρ c) i)

/-! ## After the second kernel: the second layer's aggregated messages, then the pooling kernel -/

theorem W7_v47 (K : Stages) (hr : ∀ n : Fin 100000, 0 ≤ (x0 m c (ix1 n)).toInt ∧ (x0 m c (ix1 n)).toInt < 1000) :
    W7 (F := Ideal) m ρ c (Proc.devRef .tc main_v47) = val_main_v56 (F := Ideal) (x0 m c) (x1 m c) (x2 m c) (x4 m c) (x5 m c) (x6 m c) (x7 m c) := by
  dsimp only [W7, hostOps2]
  after_results_simp
  exact W6_v47 m ρ c K hr

theorem W7_v60 (K : Stages) (hr : ∀ n : Fin 100000, 0 ≤ (x0 m c (ix1 n)).toInt ∧ (x0 m c (ix1 n)).toInt < 1000) :
    W7 (F := Ideal) m ρ c (Proc.devRef .tc main_v60) = val_main_v91 (F := Ideal) (x0 m c) (x1 m c) (x2 m c) (x4 m c) (x5 m c) (x6 m c) (x7 m c) := by
  dsimp only [W7, hostOps2]
  after_results_simp
  rw [W6_v1 m ρ c, W6_v3 m ρ c, W6_v25 m ρ c, W6_v47 m ρ c K hr]
  rfl

theorem W7_v61 : W7 (F := Ideal) m ρ c (Proc.devRef .tc main_v61) = shapeCast S1x64 (x8 m c) shapeCasts_S64_S1x64 := by
  dsimp only [W7, hostOps2]
  after_results_simp
  rw [W6_arg8 m ρ c]
  rfl

theorem W7_v62 : W7 (F := Ideal) m ρ c (Proc.devRef .tc main_v62) = shapeCast S100000x1 (x3 m c) shapeCasts_S100000_S100000x1 := by
  dsimp only [W7, hostOps2]
  after_results_simp
  rw [W6_arg3 m ρ c]
  rfl

/-- The pooling kernel's first output: the reference's per-graph sums. -/
theorem W8_v63_0 (K : Stages) (hr : ∀ n : Fin 100000, 0 ≤ (x0 m c (ix1 n)).toInt ∧ (x0 m c (ix1 n)).toInt < 1000) :
    W8 (F := Ideal) m ρ c (Proc.devRef .tc main_v63_0) = val_main_v103 (F := Ideal) (x0 m c) (x1 m c) (x2 m c) (x3 m c) (x4 m c) (x5 m c) (x6 m c) (x7 m c) (x8 m c) := by
  refine (W8_arr m ρ c 5).trans ?_
  rw [K.poolSums (V7 m ρ) c, Cert.RefStages.v103_eq, Cert.RefStages.v100_eq]
  rw [show V7 m ρ c main_v60 = _ from W7_v60 m ρ c K hr, show V7 m ρ c main_v47 = _ from W7_v47 m ρ c K hr]
  rw [← Cert.MLayer.tail_eq (val_main_v91 (F := Ideal) (x0 m c) (x1 m c) (x2 m c) (x4 m c) (x5 m c) (x6 m c) (x7 m c)) (val_main_v56 (F := Ideal) (x0 m c) (x1 m c) (x2 m c) (x4 m c) (x5 m c) (x6 m c) (x7 m c))
    (val_main_v17 (F := Ideal) (x1 m c) (x2 m c)) (x8 m c) (V7 m ρ c main_v26) (V7 m ρ c main_v61)
    (fun n => (congrFun (W7_v26 m ρ c) (ix2 n 0)).trans (col_of_flat _ _ n))
    (fun j => (congrFun (W7_v61 m ρ c) (ix2 0 j)).trans (row_of_flat _ _ j))]
  exact K.sumsEq _ (x3 m c) (V7 m ρ c main_v62) (fun n => (congrFun (W7_v62 m ρ c) (ix2 n 0)).trans (col_of_flat _ _ n))

/-- The pooling kernel's second output: the reference's per-graph counts, as a column. -/
theorem W8_v63_1 (K : Stages) (g : Fin 128) :
    W8 (F := Ideal) m ρ c (Proc.devRef .tc main_v63_1) (ix2 g 0) = val_main_v107 (F := Ideal) (x3 m c) (ix1 g) := by
  refine (congrFun (W8_arr m ρ c 6) (ix2 g 0)).trans ?_
  rw [K.poolCounts (V7 m ρ) c, Cert.RefStages.v107_eq]
  exact K.countsEq (x3 m c) (V7 m ρ c main_v62) (fun n => (congrFun (W7_v62 m ρ c) (ix2 n 0)).trans (col_of_flat _ _ n)) g

/-! ## After the pooling kernel: the head's operands, the last kernel, the result -/

theorem W9_v63_0 (K : Stages) (hr : ∀ n : Fin 100000, 0 ≤ (x0 m c (ix1 n)).toInt ∧ (x0 m c (ix1 n)).toInt < 1000) :
    W9 (F := Ideal) m ρ c (Proc.devRef .tc main_v63_0) = val_main_v103 (F := Ideal) (x0 m c) (x1 m c) (x2 m c) (x3 m c) (x4 m c) (x5 m c) (x6 m c) (x7 m c) (x8 m c) := by
  dsimp only [W9, hostOps3]
  after_results_simp
  exact W8_v63_0 m ρ c K hr

theorem W9_v63_1 (K : Stages) (g : Fin 128) :
    W9 (F := Ideal) m ρ c (Proc.devRef .tc main_v63_1) (ix2 g 0) = val_main_v107 (F := Ideal) (x3 m c) (ix1 g) := by
  dsimp only [W9, hostOps3]
  after_results_simp
  exact W8_v63_1 m ρ c K g

theorem W9_v64 : W9 (F := Ideal) m ρ c (Proc.devRef .tc main_v64) = truncf .bf16 (x9 m c) bitsLt_bf16_f32 := by
  dsimp only [W9, hostOps3]
  after_results_simp
  rw [W8_arg9 m ρ c]

theorem W9_v65 : W9 (F := Ideal) m ρ c (Proc.devRef .tc main_v65) = shapeCast S1x64 (x10 m c) shapeCasts_S64_S1x64 := by
  dsimp only [W9, hostOps3]
  after_results_simp
  rw [W8_arg10 m ρ c]
  rfl

theorem W9_v66 : W9 (F := Ideal) m ρ c (Proc.devRef .tc main_v66) = shapeCast S1x64 (x11 m c) shapeCasts_S64x1_S1x64 := by
  dsimp only [W9, hostOps3]
  after_results_simp
  rw [W8_arg11 m ρ c]
  rfl

theorem W9_v67 : W9 (F := Ideal) m ρ c (Proc.devRef .tc main_v67) = shapeCast S1x1 (x12 m c) shapeCasts_S1_S1x1 := by
  dsimp only [W9, hostOps3]
  after_results_simp
  rw [W8_arg12 m ρ c]
  rfl

theorem W11_v69_raw : W11 (F := Ideal) m ρ c (Proc.devRef .tc main_v69)
    = shapeCast S128 (W10 (F := Ideal) m ρ c (Proc.devRef .tc main_v68)) shapeCasts_S128x1_S128 := by
  dsimp only [W11, hostOps4]
  after_results_simp
  rfl

/-- THE KERNEL PROGRAM'S RESULT is the reference's result, as functions of the thirteen launched arrays. -/
theorem W11_v69 (K : Stages) (hr : ∀ n : Fin 100000, 0 ≤ (x0 m c (ix1 n)).toInt ∧ (x0 m c (ix1 n)).toInt < 1000) :
    W11 (F := Ideal) m ρ c (Proc.devRef .tc main_v69) = val_main_v122 (F := Ideal) (x0 m c) (x1 m c) (x2 m c) (x3 m c) (x4 m c) (x5 m c) (x6 m c) (x7 m c) (x8 m c) (x9 m c) (x10 m c) (x11 m c) (x12 m c) := by
  rw [W11_v69_raw, Cert.RefStages.v122_eq]
  funext i
  obtain ⟨g, rfl⟩ : ∃ g : Fin 128, i = ix1 g := ⟨i 0, eq_ix1 i⟩
  refine (flat_of_col _ _ g).trans ?_
  rw [show W10 (F := Ideal) m ρ c (Proc.devRef .tc main_v68) = _ from (W10_arr m ρ c 6).trans (K.mlp (V9 m ρ) c)]
  rw [show V9 m ρ c main_v63_0 = _ from W9_v63_0 m ρ c K hr]
  exact Cert.MHead.head_eq _ (val_main_v107 (F := Ideal) (x3 m c)) (x9 m c) (x10 m c) (x11 m c) (x12 m c) _ _ _ _ _
    (fun g' => W9_v63_1 m ρ c K g')
    (fun i => congrFun (W9_v64 m ρ c) i)
    (fun j => (congrFun (W9_v65 m ρ c) (ix2 0 j)).trans (row_of_flat _ _ j))
    (fun j => (congrFun (W9_v66 m ρ c) (ix2 0 j)).trans (row_of_col _ _ j))
    ((congrFun (W9_v67 m ρ c) (ix2 0 0)).trans (row_of_flat _ _ 0)) g

end Cert.Bridge

end
-- ==== Proof.lean ====
/-
  The certificate. A graph network: node labels select rows of an embedding table, two graph-convolution layers
  aggregate messages over the edges, the nodes are pooled per graph into a mean, and a small head maps each graph's mean
  to one number. The kernel program computes the dense stages in four kernels (the label gather as an indicator matrix
  times the padded product of the embedding and the first weights; each layer's tail and the next linear map; the
  pooling as indicator products accumulated over node blocks; the head) and leaves the edge gathers and scatters to
  the host, where the reference has them too.

  The two programs agree entry by entry over the extended reals once every node label lies in [0, 1000): selecting a
  row by an indicator sum is selecting it by index, a product of matrices restricted to selected rows is the product
  of the selected rows, and a sum over all nodes of an indicator times a row is the sum over the nodes of that graph.
  No law beyond 0 * x = 0, 1 * x = x and regrouping of sums is used, so finiteness of the float inputs is not needed.

  The frames are the generated ones; the kernel program's run with its result named is in KRun; the values of the
  four kernels are in KEmbed, KLayer, KPool, KMlp; the identities with the reference's operations in MEmbed, MLayer,
  MPool, MHead; Bridge follows the arrays through the host operations between the kernels.
-/
import proofs.«426199_j76587856822555_1_alg».proof.Defs
import proofs.«426199_j76587856822555_1_alg».proof.Proof.Gen.Kernel
import proofs.«426199_j76587856822555_1_alg».proof.Proof.Gen.Kernel.Skeleton
import proofs.«426199_j76587856822555_1_alg».proof.Proof.Gen.Kernel.Launch
import proofs.«426199_j76587856822555_1_alg».proof.Proof.Gen.Kernel.Points
import proofs.«426199_j76587856822555_1_alg».proof.Proof.Gen.Kernel.Frame
import proofs.«426199_j76587856822555_1_alg».proof.Proof.Gen.KernelIdeal
import proofs.«426199_j76587856822555_1_alg».proof.Proof.Gen.KernelIdeal.Skeleton
import proofs.«426199_j76587856822555_1_alg».proof.Proof.Gen.KernelIdeal.Launch
import proofs.«426199_j76587856822555_1_alg».proof.Proof.Gen.KernelIdeal.Points
import proofs.«426199_j76587856822555_1_alg».proof.Proof.Gen.KernelIdeal.Frame
import proofs.«426199_j76587856822555_1_alg».proof.Proof.Gen.ReferenceIdeal
import proofs.«426199_j76587856822555_1_alg».proof.Proof.Gen.Pre_finite_inputs
import proofs.«426199_j76587856822555_1_alg».proof.Proof.Gen.ReferenceIdeal.Run
import proofs.«426199_j76587856822555_1_alg».proof.Proof.Gen.ReferenceIdeal.Read
import proofs.«426199_j76587856822555_1_alg».proof.Proof.KRun
import proofs.«426199_j76587856822555_1_alg».proof.Proof.PreLabels
import proofs.«426199_j76587856822555_1_alg».proof.Proof.KEmbed
import proofs.«426199_j76587856822555_1_alg».proof.Proof.KLayer
import proofs.«426199_j76587856822555_1_alg».proof.Proof.KPool
import proofs.«426199_j76587856822555_1_alg».proof.Proof.KMlp
import proofs.«426199_j76587856822555_1_alg».proof.Proof.MPool
import proofs.«426199_j76587856822555_1_alg».proof.Proof.Bridge
import Idealize.ShloMosaic.Adequacy
import Idealize.ShloMosaic.Init

noncomputable section

namespace Cert.Proof

open Idealize.ShloMosaic Idealize.SL.Sem

/-- The four kernels' values and the pooling identities, gathered. -/
theorem stages : Cert.Bridge.Stages :=
  ⟨Cert.KernelIdeal.KEmbed.embed_value, Cert.KernelIdeal.KLayer.layer_value, Cert.KernelIdeal.KPool.pool_sums_value,
   Cert.KernelIdeal.KPool.pool_counts_value, Cert.KernelIdeal.KMlp.mlp_value, Cert.MPool.sums_eq, Cert.MPool.counts_eq⟩

/-- The idealized kernel program and the idealized reference end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) (n : Fin 100000),
      0 ≤ (Cert.Bridge.x0 m c (ValueIdx.ix1 n)).toInt ∧ (Cert.Bridge.x0 m c (ValueIdx.ix1 n)).toInt < 1000 :=
    fun c n => Cert.PreLabels.labels_in_range _ _ _ _ _ _ _ _ _ _ _ _ _ (hpre c) n
  refine ⟨fun c => Cert.KernelIdeal.Gen.W11 m ρ c (Proc.devRef .tc Cert.KernelIdeal.main_v69),
    Cert.KernelIdeal.RunV.run_main m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v122_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.Bridge.W11_v69 m ρ c stages (hr c)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
